-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v59)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v59) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v75) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x256x128x128 : Shape := ⟨4, ![8, 256, 128, 128]⟩
abbrev S8x128x128 : Shape := ⟨3, ![8, 128, 128]⟩
abbrev S_ : Shape := ⟨0, ![]⟩

class Facts : Prop where
  bcast_S_S8x256x128x128 : S_.BroadcastsInDim S8x256x128x128 (![] : Fin 0 → Fin S8x256x128x128.rank)
  reducesTo_S8x256x128x128_S_d0_1_2_3 : S8x256x128x128.ReducesTo [0, 1, 2, 3] S_
  h_S_ : 0 < S_.numel

variable [Facts]

def fn {F : FTy → Type} [FloatOps F] (main_arg0 : FVec F S8x256x128x128 .f32) (main_arg1 : IVec S8x128x128 32) : IVec S_ 1 :=
  let main_v0 : FVec F S8x256x128x128 .f32 := Host.absf main_arg0
  let main_cst : FVec F S_ .f32 := constant S_ .f32 0x7F800000#32
  let main_v1 : FVec F S8x256x128x128 .f32 := broadcastInDim S8x256x128x128 ![] bcast_S_S8x256x128x128 main_cst
  let main_v2 : IVec S8x256x128x128 1 := cmpf .olt main_v0 main_v1
  let main_c : IVec S_ 1 := constantI S_ 1 1#1
  let main_v3 : IVec S_ 1 := (fun x v => Host.reduce IntOp.andi x v reducesTo_S8x256x128x128_S_d0_1_2_3 h_S_) main_v2 main_c
  main_v3
-- ==== Kernel.lean ====
abbrev S8x256x128x128 : Shape := ⟨4, ![8, 256, 128, 128]⟩
abbrev S8x128x128 : Shape := ⟨3, ![8, 128, 128]⟩
abbrev S8x256x16384 : Shape := ⟨3, ![8, 256, 16384]⟩
abbrev S8x1x16384 : Shape := ⟨3, ![8, 1, 16384]⟩
abbrev S8x256x24 : Shape := ⟨3, ![8, 256, 24]⟩
abbrev S1x256x4096 : Shape := ⟨3, ![1, 256, 4096]⟩
abbrev S1x1x4096 : Shape := ⟨3, ![1, 1, 4096]⟩
abbrev S1x256x24 : Shape := ⟨3, ![1, 256, 24]⟩
abbrev S256x24 : Shape := ⟨2, ![256, 24]⟩
abbrev S256x4096 : Shape := ⟨2, ![256, 4096]⟩
abbrev S1x4096 : Shape := ⟨2, ![1, 4096]⟩
abbrev S24x1 : Shape := ⟨2, ![24, 1]⟩
abbrev S24x4096 : Shape := ⟨2, ![24, 4096]⟩
abbrev S_ : Shape := ⟨0, ![]⟩
abbrev S131072 : Shape := ⟨1, ![131072]⟩
abbrev S24 : Shape := ⟨1, ![24]⟩
abbrev S131072x1 : Shape := ⟨2, ![131072, 1]⟩
abbrev S1x24 : Shape := ⟨2, ![1, 24]⟩
abbrev S8x24x1 : Shape := ⟨3, ![8, 24, 1]⟩
abbrev S1x24x1 : Shape := ⟨3, ![1, 24, 1]⟩
abbrev S4096 : Shape := ⟨1, ![4096]⟩
abbrev S19 : Shape := ⟨1, ![19]⟩
abbrev S256x19 : Shape := ⟨2, ![256, 19]⟩
abbrev S19x256 : Shape := ⟨2, ![19, 256]⟩
abbrev S19x19 : Shape := ⟨2, ![19, 19]⟩
abbrev S19x1 : Shape := ⟨2, ![19, 1]⟩
abbrev S1x19 : Shape := ⟨2, ![1, 19]⟩
abbrev S1 : Shape := ⟨1, ![1]⟩

abbrev nBuf : Space → Nat
  | .hbm => 85
  | .vmem => 14
  | .smem => 0
  | _ => 0

abbrev bufTy : (tb : Table) → Fin (tcTables nBuf tb) → BufTy
  | .hbm, ⟨0, _⟩ => ⟨S8x256x128x128, .f32⟩
  | .hbm, ⟨1, _⟩ => ⟨S8x128x128, .i32⟩
  | .hbm, ⟨2, _⟩ => ⟨S8x256x16384, .f32⟩
  | .hbm, ⟨3, _⟩ => ⟨S8x1x16384, .i32⟩
  | .hbm, ⟨4, _⟩ => ⟨S8x256x24, .f32⟩
  | .hbm, ⟨5, _⟩ => ⟨S_, .f32⟩
  | .hbm, ⟨6, _⟩ => ⟨S256x24, .f32⟩
  | .hbm, ⟨7, _⟩ => ⟨S131072, .i32⟩
  | .hbm, ⟨8, _⟩ => ⟨S_, .f32⟩
  | .hbm, ⟨9, _⟩ => ⟨S131072, .f32⟩
  | .hbm, ⟨10, _⟩ => ⟨S_, .f32⟩
  | .hbm, ⟨11, _⟩ => ⟨S24, .f32⟩
  | .hbm, ⟨12, _⟩ => ⟨S131072x1, .i32⟩
  | .hbm, ⟨13, _⟩ => ⟨S24, .f32⟩
  | .hbm, ⟨14, _⟩ => ⟨S_, .f32⟩
  | .hbm, ⟨15, _⟩ => ⟨S24, .f32⟩
  | .hbm, ⟨16, _⟩ => ⟨S24, .f32⟩
  | .hbm, ⟨17, _⟩ => ⟨S1x24, .f32⟩
  | .hbm, ⟨18, _⟩ => ⟨S256x24, .f32⟩
  | .hbm, ⟨19, _⟩ => ⟨S256x24, .f32⟩
  | .hbm, ⟨20, _⟩ => ⟨S256x24, .f32⟩
  | .hbm, ⟨21, _⟩ => ⟨S_, .f32⟩
  | .hbm, ⟨22, _⟩ => ⟨S24, .f32⟩
  | .hbm, ⟨23, _⟩ => ⟨S24x1, .f32⟩
  | .hbm, ⟨24, _⟩ => ⟨S8x24x1, .f32⟩
  | .hbm, ⟨25, _⟩ => ⟨S_, .f32⟩
  | .hbm, ⟨26, _⟩ => ⟨S24x1, .f32⟩
  | .hbm, ⟨27, _⟩ => ⟨S24, .f32⟩
  | .hbm, ⟨28, _⟩ => ⟨S19, .f32⟩
  | .hbm, ⟨29, _⟩ => ⟨S_, .f32⟩
  | .hbm, ⟨30, _⟩ => ⟨S19, .f32⟩
  | .hbm, ⟨31, _⟩ => ⟨S19, .i1⟩
  | .hbm, ⟨32, _⟩ => ⟨S19, .f32⟩
  | .hbm, ⟨33, _⟩ => ⟨S_, .f32⟩
  | .hbm, ⟨34, _⟩ => ⟨S19, .f32⟩
  | .hbm, ⟨35, _⟩ => ⟨S19, .f32⟩
  | .hbm, ⟨36, _⟩ => ⟨S19, .f32⟩
  | .hbm, ⟨37, _⟩ => ⟨S_, .f32⟩
  | .hbm, ⟨38, _⟩ => ⟨S_, .f32⟩
  | .hbm, ⟨39, _⟩ => ⟨S19, .f32⟩
  | .hbm, ⟨40, _⟩ => ⟨S19, .f32⟩
  | .hbm, ⟨41, _⟩ => ⟨S_, .f32⟩
  | .hbm, ⟨42, _⟩ => ⟨S_, .f32⟩
  | .hbm, ⟨43, _⟩ => ⟨S256x19, .f32⟩
  | .hbm, ⟨44, _⟩ => ⟨S256x19, .f32⟩
  | .hbm, ⟨45, _⟩ => ⟨S_, .f32⟩
  | .hbm, ⟨46, _⟩ => ⟨S19, .f32⟩
  | .hbm, ⟨47, _⟩ => ⟨S19, .f32⟩
  | .hbm, ⟨48, _⟩ => ⟨S19x256, .f32⟩
  | .hbm, ⟨49, _⟩ => ⟨S19x19, .f32⟩
  | .hbm, ⟨50, _⟩ => ⟨S19x1, .f32⟩
  | .hbm, ⟨51, _⟩ => ⟨S1x19, .f32⟩
  | .hbm, ⟨52, _⟩ => ⟨S19x19, .f32⟩
  | .hbm, ⟨53, _⟩ => ⟨S19x19, .f32⟩
  | .hbm, ⟨54, _⟩ => ⟨S19x19, .f32⟩
  | .hbm, ⟨55, _⟩ => ⟨S_, .f32⟩
  | .hbm, ⟨56, _⟩ => ⟨S19x19, .f32⟩
  | .hbm, ⟨57, _⟩ => ⟨S19x19, .f32⟩
  | .hbm, ⟨58, _⟩ => ⟨S19x19, .f32⟩
  | .hbm, ⟨59, _⟩ => ⟨S19x19, .i32⟩
  | .hbm, ⟨60, _⟩ => ⟨S19x19, .i32⟩
  | .hbm, ⟨61, _⟩ => ⟨S_, .i32⟩
  | .hbm, ⟨62, _⟩ => ⟨S19x19, .i32⟩
  | .hbm, ⟨63, _⟩ => ⟨S19x19, .i32⟩
  | .hbm, ⟨64, _⟩ => ⟨S19x19, .i1⟩
  | .hbm, ⟨65, _⟩ => ⟨S_, .f32⟩
  | .hbm, ⟨66, _⟩ => ⟨S19x19, .f32⟩
  | .hbm, ⟨67, _⟩ => ⟨S19x19, .f32⟩
  | .hbm, ⟨68, _⟩ => ⟨S_, .f32⟩
  | .hbm, ⟨69, _⟩ => ⟨S19x19, .f32⟩
  | .hbm, ⟨70, _⟩ => ⟨S19x19, .f32⟩
  | .hbm, ⟨71, _⟩ => ⟨S19x19, .f32⟩
  | .hbm, ⟨72, _⟩ => ⟨S_, .f32⟩
  | .hbm, ⟨73, _⟩ => ⟨S19, .f32⟩
  | .hbm, ⟨74, _⟩ => ⟨S_, .f32⟩
  | .hbm, ⟨75, _⟩ => ⟨S19, .f32⟩
  | .hbm, ⟨76, _⟩ => ⟨S19, .f32⟩
  | .hbm, ⟨77, _⟩ => ⟨S_, .f32⟩
  | .hbm, ⟨78, _⟩ => ⟨S_, .f32⟩
  | .hbm, ⟨79, _⟩ => ⟨S19, .f32⟩
  | .hbm, ⟨80, _⟩ => ⟨S19, .f32⟩
  | .hbm, ⟨81, _⟩ => ⟨S_, .f32⟩
  | .hbm, ⟨82, _⟩ => ⟨S_, .f32⟩
  | .hbm, ⟨83, _⟩ => ⟨S_, .f32⟩
  | .hbm, ⟨84, _⟩ => ⟨S1, .f32⟩
  | .local _ .vmem, ⟨0, _⟩ => ⟨S1x256x4096, .f32⟩
  | .local _ .vmem, ⟨1, _⟩ => ⟨S1x256x4096, .f32⟩
  | .local _ .vmem, ⟨2, _⟩ => ⟨S1x1x4096, .i32⟩
  | .local _ .vmem, ⟨3, _⟩ => ⟨S1x1x4096, .i32⟩
  | .local _ .vmem, ⟨4, _⟩ => ⟨S1x256x24, .f32⟩
  | .local _ .vmem, ⟨5, _⟩ => ⟨S1x256x24, .f32⟩
  | .local _ .vmem, ⟨6, _⟩ => ⟨S1x256x4096, .f32⟩
  | .local _ .vmem, ⟨7, _⟩ => ⟨S1x256x4096, .f32⟩
  | .local _ .vmem, ⟨8, _⟩ => ⟨S1x1x4096, .i32⟩
  | .local _ .vmem, ⟨9, _⟩ => ⟨S1x1x4096, .i32⟩
  | .local _ .vmem, ⟨10, _⟩ => ⟨S256x24, .f32⟩
  | .local _ .vmem, ⟨11, _⟩ => ⟨S24x1, .f32⟩
  | .local _ .vmem, ⟨12, _⟩ => ⟨S1x24x1, .f32⟩
  | .local _ .vmem, ⟨13, _⟩ => ⟨S1x24x1, .f32⟩
  | _, _ => ⟨S8x256x128x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_v4 : Ref sig .tc := ⟨.hbm, 7, rfl⟩
abbrev main_cst_0 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_cst_2 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_4 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_cst_5 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_cst_6 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_cst_7 : Ref sig .tc := ⟨.hbm, 37, rfl⟩
abbrev main_call0_v0 : Ref sig .tc := ⟨.hbm, 38, rfl⟩
abbrev main_call0_v1 : Ref sig .tc := ⟨.hbm, 39, rfl⟩
abbrev main_v27 : Ref sig .tc := ⟨.hbm, 40, rfl⟩
abbrev main_cst_8 : Ref sig .tc := ⟨.hbm, 41, rfl⟩
abbrev main_v28 : Ref sig .tc := ⟨.hbm, 42, rfl⟩
abbrev main_v29 : Ref sig .tc := ⟨.hbm, 43, rfl⟩
abbrev main_v30 : Ref sig .tc := ⟨.hbm, 44, rfl⟩
abbrev main_cst_9 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_10 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_v44 : Ref sig .tc := ⟨.hbm, 60, rfl⟩
abbrev main_c : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_cst_11 : Ref sig .tc := ⟨.hbm, 65, rfl⟩
abbrev main_v48 : Ref sig .tc := ⟨.hbm, 66, rfl⟩
abbrev main_v49 : Ref sig .tc := ⟨.hbm, 67, rfl⟩
abbrev main_cst_12 : Ref sig .tc := ⟨.hbm, 68, rfl⟩
abbrev main_v50 : Ref sig .tc := ⟨.hbm, 69, rfl⟩
abbrev main_v51 : Ref sig .tc := ⟨.hbm, 70, rfl⟩
abbrev main_v52 : Ref sig .tc := ⟨.hbm, 71, rfl⟩
abbrev main_cst_13 : Ref sig .tc := ⟨.hbm, 72, rfl⟩
abbrev main_v53 : Ref sig .tc := ⟨.hbm, 73, rfl⟩
abbrev main_cst_14 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_call2_v0 : Ref sig .tc := ⟨.hbm, 78, rfl⟩
abbrev main_call2_v1 : Ref sig .tc := ⟨.hbm, 79, rfl⟩
abbrev main_v56 : Ref sig .tc := ⟨.hbm, 80, rfl⟩
abbrev main_cst_16 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg3_0 : Ref sig .tc := ⟨.vmem, 11, rfl⟩
abbrev cc1_stg4_0 : Ref sig .tc := ⟨.vmem, 12, rfl⟩
abbrev cc1_stg4_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem3_0 : DmaSem sig := 11
abbrev cc1_sem4_0 : DmaSem sig := 12
abbrev cc1_sem4_1 : DmaSem sig := 13

abbrev nD : Nat := 1
abbrev τ : Topo := Topo.v7x

variable {F : FTy → Type} [FloatOps F]

abbrev grid0 : Pipeline.Grid := ⟨2, ![8, 4], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x1x4096 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x256x24 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev grid1 : Pipeline.Grid := ⟨2, ![8, 4], ![false, false]⟩

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x256x4096 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, true]

abbrev stage1_1 : Fin 2 → Memref sig .tc .vmem S1x1x4096 .i32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S256x24 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 1 → Memref sig .tc .vmem S24x1 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false, false]

abbrev stage1_4 : Fin 2 → Memref sig .tc .vmem S1x24x1 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false]

class Facts₀ : Prop where
  shapeCasts_S8x256x128x128_S8x256x16384 : S8x256x128x128.ShapeCasts S8x256x16384
  shapeCasts_S8x128x128_S8x1x16384 : S8x128x128.ShapeCasts S8x1x16384
  inb_S1x256x24_S1x256x24_0_0_0 : ∀ a, (![0, 0, 0] : Fin 3 → Nat) a + S1x256x24.size a ≤ S1x256x24.size a
  h_S1x256x24 : 0 < S1x256x24.numel
  shapeCasts_S1x256x24_S256x24 : S1x256x24.ShapeCasts S256x24
  shapeCasts_S256x24_S1x256x24 : S256x24.ShapeCasts S1x256x24
  inb_S1x256x4096_S1x256x4096_0_0_0 : ∀ a, (![0, 0, 0] : Fin 3 → Nat) a + S1x256x4096.size a ≤ S1x256x4096.size a
  h_S1x256x4096 : 0 < S1x256x4096.numel
  shapeCasts_S1x256x4096_S256x4096 : S1x256x4096.ShapeCasts S256x4096
  bitsLt_bf16_f32 : FTy.bits .bf16 < FTy.bits .f32
  inb_S1x1x4096_S1x1x4096_0_0_0 : ∀ a, (![0, 0, 0] : Fin 3 → Nat) a + S1x1x4096.size a ≤ S1x1x4096.size a
  h_S1x1x4096 : 0 < S1x1x4096.numel
  shapeCasts_S1x1x4096_S1x4096 : S1x1x4096.ShapeCasts S1x4096
  iota_S24x1_d0_w32 : S24x1.Iotas .tc 32 [0]
  broadcasts_S24x1_S24x4096 : S24x1.Broadcasts S24x4096
  broadcasts_S1x4096_S24x4096 : S1x4096.Broadcasts S24x4096
  natLt_1_32 : 1 < 32
  reducesTo_S8x256x24_S256x24_d0 : S8x256x24.ReducesTo [0] S256x24
  h_S_ : 0 < S_.numel
  shapeCasts_S8x1x16384_S131072 : S8x1x16384.ShapeCasts S131072
  bcast_S_S131072 : S_.BroadcastsInDim S131072 (![] : Fin 0 → Fin S131072.rank)
  bcast_S_S24 : S_.BroadcastsInDim S24 (![] : Fin 0 → Fin S24.rank)
  bcast_S131072_S131072x1_0 : S131072.BroadcastsInDim S131072x1 (![0] : Fin 1 → Fin S131072x1.rank)
  bcast_S24_S1x24_1 : S24.BroadcastsInDim S1x24 (![1] : Fin 1 → Fin S1x24.rank)
  bcast_S1x24_S256x24_0_1 : S1x24.BroadcastsInDim S256x24 (![0, 1] : Fin 2 → Fin S256x24.rank)
  reducesTo_S256x24_S24_d0 : S256x24.ReducesTo [0] S24
  shapeCasts_S24_S24x1 : S24.ShapeCasts S24x1
  inb_S1x24x1_S1x24x1_0_0_0 : ∀ a, (![0, 0, 0] : Fin 3 → Nat) a + S1x24x1.size a ≤ S1x24x1.size a
  h_S1x24x1 : 0 < S1x24x1.numel
  shapeCasts_S1x24x1_S24x1 : S1x24x1.ShapeCasts S24x1
  shapeCasts_S24x1_S1x24x1 : S24x1.ShapeCasts S1x24x1
  inb_S256x24_S256x24_0_0 : ∀ a, (![0, 0] : Fin 2 → Nat) a + S256x24.size a ≤ S256x24.size a
  h_S256x24 : 0 < S256x24.numel
  shapeCasts_S256x24_S256x24 : S256x24.ShapeCasts S256x24
  reduces_S24x4096_S4096 : S24x4096.Reduces [0] S4096
  shapeCasts_S4096_S1x4096 : S4096.ShapeCasts S1x4096
  inb_S24x1_S24x1_0_0 : ∀ a, (![0, 0] : Fin 2 → Nat) a + S24x1.size a ≤ S24x1.size a
  h_S24x1 : 0 < S24x1.numel
  shapeCasts_S24x1_S24x1 : S24x1.ShapeCasts S24x1
  reduces_S256x4096_S4096 : S256x4096.Reduces [0] S4096
  reduces_S24x4096_S24 : S24x4096.Reduces [1] S24
  reducesTo_S8x24x1_S24x1_d0 : S8x24x1.ReducesTo [0] S24x1
  shapeCasts_S24x1_S24 : S24x1.ShapeCasts S24
  slices_S24_S19_0 : S24.Slices ![0] S19
  bcast_S_S19 : S_.BroadcastsInDim S19 (![] : Fin 0 → Fin S19.rank)
  reducesTo_S19_S_d0 : S19.ReducesTo [0] S_
  slices_S256x24_S256x19_0_0 : S256x24.Slices ![0, 0] S256x19
  reducesTo_S256x19_S19_d0 : S256x19.ReducesTo [0] S19
  transposes_S256x19_S19x256_1_0 : S256x19.Transposes [1, 0] S19x256
  bcast_S19_S19x1_0 : S19.BroadcastsInDim S19x1 (![0] : Fin 1 → Fin S19x1.rank)
  bcast_S19_S1x19_1 : S19.BroadcastsInDim S1x19 (![1] : Fin 1 → Fin S1x19.rank)
  bcast_S19x1_S19x19_0_1 : S19x1.BroadcastsInDim S19x19 (![0, 1] : Fin 2 → Fin S19x19.rank)
  bcast_S1x19_S19x19_0_1 : S1x19.BroadcastsInDim S19x19 (![0, 1] : Fin 2 → Fin S19x19.rank)
  bcast_S_S19x19 : S_.BroadcastsInDim S19x19 (![] : Fin 0 → Fin S19x19.rank)
  reducesTo_S19x19_S19_d1 : S19x19.ReducesTo [1] S19
  shapeCasts_S_S1 : S_.ShapeCasts S1
  dot_S256x4096_S24x4096_S256x24_1_1_0_0_n_n_wf : DotDims.WF S256x4096 S24x4096 S256x24 [1] [1] [0] [0] [] []
  scatter_S24_S131072x1_S131072_n_0_0_1_wf : ScatterDims.WF S24 S131072x1 S131072 [] [0] [0] 1
  dot_S256x24_S256x4096_S24x4096_0_0_1_1_n_n_wf : DotDims.WF S256x24 S256x4096 S24x4096 [0] [0] [1] [1] [] []
  dot_S19x256_S256x19_S19x19_1_0_0_1_n_n_wf : DotDims.WF S19x256 S256x19 S19x19 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x256x4096.size a ≤ S8x256x16384.size a
  hwx0_0 : ∀ i : grid0.Coords, EltTy.bits .f32 = 32 ∨ (Rect.block (s := S8x256x16384) S1x256x4096.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x1x4096.size a ≤ S8x1x16384.size a
  hwx0_1 : ∀ i : grid0.Coords, EltTy.bits .i32 = 32 ∨ (Rect.block (s := S8x1x16384) S1x1x4096.size (cc0_transform_1 i) (hinb0_1 i)).WholeWords (EltTy.packing .i32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x256x24.size a ≤ S8x256x24.size a
  hwx0_2 : ∀ i : grid0.Coords, EltTy.bits .f32 = 32 ∨ (Rect.block (s := S8x256x24) S1x256x24.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x256x4096.size a ≤ S8x256x16384.size a
  hwx1_0 : ∀ i : grid1.Coords, EltTy.bits .f32 = 32 ∨ (Rect.block (s := S8x256x16384) S1x256x4096.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1x4096.size a ≤ S8x1x16384.size a
  hwx1_1 : ∀ i : grid1.Coords, EltTy.bits .i32 = 32 ∨ (Rect.block (s := S8x1x16384) S1x1x4096.size (cc1_transform_1 i) (hinb1_1 i)).WholeWords (EltTy.packing .i32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x24.size a ≤ S256x24.size a
  hwx1_2 : ∀ i : grid1.Coords, EltTy.bits .f32 = 32 ∨ (Rect.block (s := S256x24) S256x24.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S24x1.size a ≤ S24x1.size a
  hwx1_3 : ∀ i : grid1.Coords, EltTy.bits .f32 = 32 ∨ (Rect.block (s := S24x1) S24x1.size (cc1_transform_3 i) (hinb1_3 i)).WholeWords (EltTy.packing .f32)
  hstage1_4 : ∀ j, (stage1_4 j).IsWhole
  nbuf1_4 : grid1.bufCount reads1_4 false = 2
  hreads1_4 : ∀ i i' : grid1.Coords, (∀ a, reads1_4 a = true → i a = i' a) → cc1_transform_4 i = cc1_transform_4 i'
  hinb1_4 : ∀ (i : grid1.Coords) a, (cc1_transform_4 i a + 1) * S1x24x1.size a ≤ S8x24x1.size a
  hwx1_4 : ∀ i : grid1.Coords, EltTy.bits .f32 = 32 ∨ (Rect.block (s := S8x24x1) S1x24x1.size (cc1_transform_4 i) (hinb1_4 i)).WholeWords (EltTy.packing .f32)

variable [Facts₀]

def dot_S256x4096_S24x4096_S256x24_1_1_0_0_n_n : DotDims S256x4096 S24x4096 S256x24 where
  lhsContracting := [1]
  rhsContracting := [1]
  lhsNonContracting := [0]
  rhsNonContracting := [0]
  lhsBatch := []
  rhsBatch := []
  wf := dot_S256x4096_S24x4096_S256x24_1_1_0_0_n_n_wf
def scatter_S24_S131072x1_S131072_n_0_0_1 : ScatterDims S24 S131072x1 S131072 where
  updateWindowDims := []
  insertedWindowDims := [0]
  scatterDimsToOperandDims := [0]
  indexVectorDim := 1
  wf := scatter_S24_S131072x1_S131072_n_0_0_1_wf
def dot_S256x24_S256x4096_S24x4096_0_0_1_1_n_n : DotDims S256x24 S256x4096 S24x4096 where
  lhsContracting := [0]
  rhsContracting := [0]
  lhsNonContracting := [1]
  rhsNonContracting := [1]
  lhsBatch := []
  rhsBatch := []
  wf := dot_S256x24_S256x4096_S24x4096_0_0_1_1_n_n_wf
def dot_S19x256_S256x19_S19x19_1_0_0_1_n_n : DotDims S19x256 S256x19 S19x19 where
  lhsContracting := [1]
  rhsContracting := [0]
  lhsNonContracting := [0]
  rhsNonContracting := [1]
  lhsBatch := []
  rhsBatch := []
  wf := dot_S19x256_S256x19_S19x19_1_0_0_1_n_n_wf

abbrev win0_0 : Pipeline.Window sig grid0 :=
  Pipeline.Window.ofSpec (Memref.whole main_v0) S1x256x4096.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v1) S1x1x4096.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v2) S1x256x24.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x256x4096.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v1) S1x1x4096.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_v13) S256x24.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v16) S24x1.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_v17) S1x24x1.size cc1_transform_4 reads1_4 true false 2 stage1_4 sem1_4
    hrank1 hreads1_4 hinb1_4 nbuf1_4 (Memref.isWhole_whole _) hwx1_4 hstage1_4

abbrev win1 : Fin 5 → Pipeline.Window sig grid1 := fun | 0 => win1_0 | 1 => win1_1 | 2 => win1_2 | 3 => win1_3 | 4 => win1_4 | ⟨_ + 5, h⟩ => absurd h (Nat.not_lt.2 (Nat.le_add_left _ _))
abbrev spec1 : Fin 5 → Pipeline.WinSpec sig grid1.rank := fun w => (win1 w).toWinSpec

class Facts : Prop extends Facts₀ where

variable [Facts]
-- ==== ReferenceIdeal.lean ====
abbrev S8x256x128x128 : Shape := ⟨4, ![8, 256, 128, 128]⟩
abbrev S8x128x128 : Shape := ⟨3, ![8, 128, 128]⟩
abbrev S8x128x128x256 : Shape := ⟨4, ![8, 128, 128, 256]⟩
abbrev S131072x256 : Shape := ⟨2, ![131072, 256]⟩
abbrev S131072 : Shape := ⟨1, ![131072]⟩
abbrev S_ : Shape := ⟨0, ![]⟩
abbrev S19 : Shape := ⟨1, ![19]⟩
abbrev S131072x1 : Shape := ⟨2, ![131072, 1]⟩
abbrev S19x256 : Shape := ⟨2, ![19, 256]⟩
abbrev S19x1 : Shape := ⟨2, ![19, 1]⟩
abbrev S256x19 : Shape := ⟨2, ![256, 19]⟩
abbrev S19x19 : Shape := ⟨2, ![19, 19]⟩
abbrev S1x19 : Shape := ⟨2, ![1, 19]⟩
abbrev S1 : Shape := ⟨1, ![1]⟩

abbrev nBuf : Space → Nat
  | .hbm => 107
  | .vmem => 0
  | .smem => 0
  | _ => 0

abbrev bufTy : (tb : Table) → Fin (tcTables nBuf tb) → BufTy
  | .hbm, ⟨0, _⟩ => ⟨S8x256x128x128, .f32⟩
  | .hbm, ⟨1, _⟩ => ⟨S8x128x128, .i32⟩
  | .hbm, ⟨2, _⟩ => ⟨S8x128x128x256, .f32⟩
  | .hbm, ⟨3, _⟩ => ⟨S131072x256, .f32⟩
  | .hbm, ⟨4, _⟩ => ⟨S131072, .i32⟩
  | .hbm, ⟨5, _⟩ => ⟨S_, .f32⟩
  | .hbm, ⟨6, _⟩ => ⟨S131072, .f32⟩
  | .hbm, ⟨7, _⟩ => ⟨S_, .f32⟩
  | .hbm, ⟨8, _⟩ => ⟨S19, .f32⟩
  | .hbm, ⟨9, _⟩ => ⟨S131072x1, .i32⟩
  | .hbm, ⟨10, _⟩ => ⟨S19, .f32⟩
  | .hbm, ⟨11, _⟩ => ⟨S_, .f32⟩
  | .hbm, ⟨12, _⟩ => ⟨S19x256, .f32⟩
  | .hbm, ⟨13, _⟩ => ⟨S131072x1, .i32⟩
  | .hbm, ⟨14, _⟩ => ⟨S19x256, .f32⟩
  | .hbm, ⟨15, _⟩ => ⟨S_, .f32⟩
  | .hbm, ⟨16, _⟩ => ⟨S19, .f32⟩
  | .hbm, ⟨17, _⟩ => ⟨S19, .f32⟩
  | .hbm, ⟨18, _⟩ => ⟨S19x1, .f32⟩
  | .hbm, ⟨19, _⟩ => ⟨S19x256, .f32⟩
  | .hbm, ⟨20, _⟩ => ⟨S19x256, .f32⟩
  | .hbm, ⟨21, _⟩ => ⟨S_, .f32⟩
  | .hbm, ⟨22, _⟩ => ⟨S19, .f32⟩
  | .hbm, ⟨23, _⟩ => ⟨S19, .i1⟩
  | .hbm, ⟨24, _⟩ => ⟨S_, .i32⟩
  | .hbm, ⟨25, _⟩ => ⟨S131072, .i32⟩
  | .hbm, ⟨26, _⟩ => ⟨S131072, .i1⟩
  | .hbm, ⟨27, _⟩ => ⟨S_, .i32⟩
  | .hbm, ⟨28, _⟩ => ⟨S131072, .i32⟩
  | .hbm, ⟨29, _⟩ => ⟨S131072, .i32⟩
  | .hbm, ⟨30, _⟩ => ⟨S131072, .i32⟩
  | .hbm, ⟨31, _⟩ => ⟨S131072x1, .i32⟩
  | .hbm, ⟨32, _⟩ => ⟨S131072x256, .f32⟩
  | .hbm, ⟨33, _⟩ => ⟨S131072x256, .f32⟩
  | .hbm, ⟨34, _⟩ => ⟨S_, .f32⟩
  | .hbm, ⟨35, _⟩ => ⟨S131072, .f32⟩
  | .hbm, ⟨36, _⟩ => ⟨S131072x256, .f32⟩
  | .hbm, ⟨37, _⟩ => ⟨S_, .f32⟩
  | .hbm, ⟨38, _⟩ => ⟨S131072, .f32⟩
  | .hbm, ⟨39, _⟩ => ⟨S131072, .f32⟩
  | .hbm, ⟨40, _⟩ => ⟨S131072x256, .f32⟩
  | .hbm, ⟨41, _⟩ => ⟨S_, .f32⟩
  | .hbm, ⟨42, _⟩ => ⟨S131072, .f32⟩
  | .hbm, ⟨43, _⟩ => ⟨S131072, .f32⟩
  | .hbm, ⟨44, _⟩ => ⟨S131072, .f32⟩
  | .hbm, ⟨45, _⟩ => ⟨S_, .f32⟩
  | .hbm, ⟨46, _⟩ => ⟨S131072, .f32⟩
  | .hbm, ⟨47, _⟩ => ⟨S131072, .f32⟩
  | .hbm, ⟨48, _⟩ => ⟨S131072, .f32⟩
  | .hbm, ⟨49, _⟩ => ⟨S_, .f32⟩
  | .hbm, ⟨50, _⟩ => ⟨S131072, .f32⟩
  | .hbm, ⟨51, _⟩ => ⟨S131072, .f32⟩
  | .hbm, ⟨52, _⟩ => ⟨S_, .f32⟩
  | .hbm, ⟨53, _⟩ => ⟨S19, .f32⟩
  | .hbm, ⟨54, _⟩ => ⟨S131072x1, .i32⟩
  | .hbm, ⟨55, _⟩ => ⟨S19, .f32⟩
  | .hbm, ⟨56, _⟩ => ⟨S_, .f32⟩
  | .hbm, ⟨57, _⟩ => ⟨S19, .f32⟩
  | .hbm, ⟨58, _⟩ => ⟨S19, .f32⟩
  | .hbm, ⟨59, _⟩ => ⟨S19, .f32⟩
  | .hbm, ⟨60, _⟩ => ⟨S_, .f32⟩
  | .hbm, ⟨61, _⟩ => ⟨S_, .f32⟩
  | .hbm, ⟨62, _⟩ => ⟨S19, .f32⟩
  | .hbm, ⟨63, _⟩ => ⟨S19, .f32⟩
  | .hbm, ⟨64, _⟩ => ⟨S_, .f32⟩
  | .hbm, ⟨65, _⟩ => ⟨S_, .f32⟩
  | .hbm, ⟨66, _⟩ => ⟨S19x256, .f32⟩
  | .hbm, ⟨67, _⟩ => ⟨S_, .f32⟩
  | .hbm, ⟨68, _⟩ => ⟨S19, .f32⟩
  | .hbm, ⟨69, _⟩ => ⟨S19, .f32⟩
  | .hbm, ⟨70, _⟩ => ⟨S256x19, .f32⟩
  | .hbm, ⟨71, _⟩ => ⟨S19x19, .f32⟩
  | .hbm, ⟨72, _⟩ => ⟨S19x1, .f32⟩
  | .hbm, ⟨73, _⟩ => ⟨S1x19, .f32⟩
  | .hbm, ⟨74, _⟩ => ⟨S19x19, .f32⟩
  | .hbm, ⟨75, _⟩ => ⟨S19x19, .f32⟩
  | .hbm, ⟨76, _⟩ => ⟨S19x19, .f32⟩
  | .hbm, ⟨77, _⟩ => ⟨S_, .f32⟩
  | .hbm, ⟨78, _⟩ => ⟨S19x19, .f32⟩
  | .hbm, ⟨79, _⟩ => ⟨S19x19, .f32⟩
  | .hbm, ⟨80, _⟩ => ⟨S19x19, .f32⟩
  | .hbm, ⟨81, _⟩ => ⟨S19x19, .i32⟩
  | .hbm, ⟨82, _⟩ => ⟨S19x19, .i32⟩
  | .hbm, ⟨83, _⟩ => ⟨S_, .i32⟩
  | .hbm, ⟨84, _⟩ => ⟨S19x19, .i32⟩
  | .hbm, ⟨85, _⟩ => ⟨S19x19, .i32⟩
  | .hbm, ⟨86, _⟩ => ⟨S19x19, .i1⟩
  | .hbm, ⟨87, _⟩ => ⟨S_, .f32⟩
  | .hbm, ⟨88, _⟩ => ⟨S19x19, .f32⟩
  | .hbm, ⟨89, _⟩ => ⟨S19x19, .f32⟩
  | .hbm, ⟨90, _⟩ => ⟨S_, .f32⟩
  | .hbm, ⟨91, _⟩ => ⟨S19x19, .f32⟩
  | .hbm, ⟨92, _⟩ => ⟨S19x19, .f32⟩
  | .hbm, ⟨93, _⟩ => ⟨S19x19, .f32⟩
  | .hbm, ⟨94, _⟩ => ⟨S_, .f32⟩
  | .hbm, ⟨95, _⟩ => ⟨S19, .f32⟩
  | .hbm, ⟨96, _⟩ => ⟨S_, .f32⟩
  | .hbm, ⟨97, _⟩ => ⟨S19, .f32⟩
  | .hbm, ⟨98, _⟩ => ⟨S19, .f32⟩
  | .hbm, ⟨99, _⟩ => ⟨S_, .f32⟩
  | .hbm, ⟨100, _⟩ => ⟨S_, .f32⟩
  | .hbm, ⟨101, _⟩ => ⟨S19, .f32⟩
  | .hbm, ⟨102, _⟩ => ⟨S19, .f32⟩
  | .hbm, ⟨103, _⟩ => ⟨S_, .f32⟩
  | .hbm, ⟨104, _⟩ => ⟨S_, .f32⟩
  | .hbm, ⟨105, _⟩ => ⟨S_, .f32⟩
  | .hbm, ⟨106, _⟩ => ⟨S1, .f32⟩
  | _, _ => ⟨S8x256x128x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_cst : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_cst_1 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_cst_2 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_cst_3 : Ref sig .tc := ⟨.hbm, 21, rfl⟩
abbrev main_v15 : Ref sig .tc := ⟨.hbm, 22, rfl⟩
abbrev main_v16 : Ref sig .tc := ⟨.hbm, 23, rfl⟩
abbrev main_c : Ref sig .tc := ⟨.hbm, 24, rfl⟩
abbrev main_v17 : Ref sig .tc := ⟨.hbm, 25, rfl⟩
abbrev main_v18 : Ref sig .tc := ⟨.hbm, 26, rfl⟩
abbrev main_c_4 : Ref sig .tc := ⟨.hbm, 27, rfl⟩
abbrev main_v19 : Ref sig .tc := ⟨.hbm, 28, rfl⟩
abbrev main_v20 : Ref sig .tc := ⟨.hbm, 29, rfl⟩
abbrev main_v21 : Ref sig .tc := ⟨.hbm, 30, rfl⟩
abbrev main_v22 : Ref sig .tc := ⟨.hbm, 31, rfl⟩
abbrev main_v23 : Ref sig .tc := ⟨.hbm, 32, rfl⟩
abbrev main_v24 : Ref sig .tc := ⟨.hbm, 33, rfl⟩
abbrev main_cst_5 : Ref sig .tc := ⟨.hbm, 34, rfl⟩
abbrev main_v25 : Ref sig .tc := ⟨.hbm, 35, rfl⟩
abbrev main_v26 : Ref sig .tc := ⟨.hbm, 36, rfl⟩
abbrev main_cst_6 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_cst_7 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_cst_8 : Ref sig .tc := ⟨.hbm, 45, rfl⟩
abbrev main_v33 : Ref sig .tc := ⟨.hbm, 46, rfl⟩
abbrev main_v34 : Ref sig .tc := ⟨.hbm, 47, rfl⟩
abbrev main_v35 : Ref sig .tc := ⟨.hbm, 48, rfl⟩
abbrev main_cst_9 : Ref sig .tc := ⟨.hbm, 49, rfl⟩
abbrev main_v36 : Ref sig .tc := ⟨.hbm, 50, rfl⟩
abbrev main_v37 : Ref sig .tc := ⟨.hbm, 51, rfl⟩
abbrev main_cst_10 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_cst_11 : Ref sig .tc := ⟨.hbm, 56, rfl⟩
abbrev main_v41 : Ref sig .tc := ⟨.hbm, 57, rfl⟩
abbrev main_v42 : Ref sig .tc := ⟨.hbm, 58, rfl⟩
abbrev main_v43 : Ref sig .tc := ⟨.hbm, 59, rfl⟩
abbrev main_cst_12 : Ref sig .tc := ⟨.hbm, 60, rfl⟩
abbrev main_call0_v0 : Ref sig .tc := ⟨.hbm, 61, rfl⟩
abbrev main_call0_v1 : Ref sig .tc := ⟨.hbm, 62, rfl⟩
abbrev main_v44 : Ref sig .tc := ⟨.hbm, 63, rfl⟩
abbrev main_cst_13 : Ref sig .tc := ⟨.hbm, 64, rfl⟩
abbrev main_v45 : Ref sig .tc := ⟨.hbm, 65, rfl⟩
abbrev main_v46 : Ref sig .tc := ⟨.hbm, 66, rfl⟩
abbrev main_cst_14 : Ref sig .tc := ⟨.hbm, 67, rfl⟩
abbrev main_v47 : Ref sig .tc := ⟨.hbm, 68, rfl⟩
abbrev main_v48 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_cst_15 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_v59 : Ref sig .tc := ⟨.hbm, 81, rfl⟩
abbrev main_v60 : Ref sig .tc := ⟨.hbm, 82, rfl⟩
abbrev main_c_16 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev main_cst_17 : Ref sig .tc := ⟨.hbm, 87, rfl⟩
abbrev main_v64 : Ref sig .tc := ⟨.hbm, 88, rfl⟩
abbrev main_v65 : Ref sig .tc := ⟨.hbm, 89, rfl⟩
abbrev main_cst_18 : Ref sig .tc := ⟨.hbm, 90, rfl⟩
abbrev main_v66 : Ref sig .tc := ⟨.hbm, 91, rfl⟩
abbrev main_v67 : Ref sig .tc := ⟨.hbm, 92, rfl⟩
abbrev main_v68 : Ref sig .tc := ⟨.hbm, 93, rfl⟩
abbrev main_cst_19 : Ref sig .tc := ⟨.hbm, 94, rfl⟩
abbrev main_v69 : Ref sig .tc := ⟨.hbm, 95, rfl⟩
abbrev main_cst_20 : Ref sig .tc := ⟨.hbm, 96, rfl⟩
abbrev main_v70 : Ref sig .tc := ⟨.hbm, 97, rfl⟩
abbrev main_v71 : Ref sig .tc := ⟨.hbm, 98, rfl⟩
abbrev main_cst_21 : Ref sig .tc := ⟨.hbm, 99, rfl⟩
abbrev main_call2_v0 : Ref sig .tc := ⟨.hbm, 100, rfl⟩
abbrev main_call2_v1 : Ref sig .tc := ⟨.hbm, 101, rfl⟩
abbrev main_v72 : Ref sig .tc := ⟨.hbm, 102, rfl⟩
abbrev main_cst_22 : Ref sig .tc := ⟨.hbm, 103, rfl⟩
abbrev main_v73 : Ref sig .tc := ⟨.hbm, 104, rfl⟩
abbrev main_v74 : Ref sig .tc := ⟨.hbm, 105, rfl⟩
abbrev main_v75 : Ref sig .tc := ⟨.hbm, 106, rfl⟩

abbrev nD : Nat := 1
abbrev τ : Topo := Topo.v7x

variable {F : FTy → Type} [FloatOps F]

class Facts₀ : Prop where
  transposes_S8x256x128x128_S8x128x128x256_0_2_3_1 : S8x256x128x128.Transposes [0, 2, 3, 1] S8x128x128x256
  shapeCasts_S8x128x128x256_S131072x256 : S8x128x128x256.ShapeCasts S131072x256
  shapeCasts_S8x128x128_S131072 : S8x128x128.ShapeCasts S131072
  bcast_S_S131072 : S_.BroadcastsInDim S131072 (![] : Fin 0 → Fin S131072.rank)
  bcast_S_S19 : S_.BroadcastsInDim S19 (![] : Fin 0 → Fin S19.rank)
  bcast_S131072_S131072x1_0 : S131072.BroadcastsInDim S131072x1 (![0] : Fin 1 → Fin S131072x1.rank)
  bcast_S_S19x256 : S_.BroadcastsInDim S19x256 (![] : Fin 0 → Fin S19x256.rank)
  bcast_S19_S19x1_0 : S19.BroadcastsInDim S19x1 (![0] : Fin 1 → Fin S19x1.rank)
  bcast_S19x1_S19x256_0_1 : S19x1.BroadcastsInDim S19x256 (![0, 1] : Fin 2 → Fin S19x256.rank)
  reducesTo_S131072x256_S131072_d1 : S131072x256.ReducesTo [1] S131072
  h_S_ : 0 < S_.numel
  reducesTo_S19_S_d0 : S19.ReducesTo [0] S_
  reducesTo_S19x256_S19_d1 : S19x256.ReducesTo [1] S19
  transposes_S19x256_S256x19_1_0 : S19x256.Transposes [1, 0] S256x19
  bcast_S19_S1x19_1 : S19.BroadcastsInDim S1x19 (![1] : Fin 1 → Fin S1x19.rank)
  bcast_S19x1_S19x19_0_1 : S19x1.BroadcastsInDim S19x19 (![0, 1] : Fin 2 → Fin S19x19.rank)
  bcast_S1x19_S19x19_0_1 : S1x19.BroadcastsInDim S19x19 (![0, 1] : Fin 2 → Fin S19x19.rank)
  bcast_S_S19x19 : S_.BroadcastsInDim S19x19 (![] : Fin 0 → Fin S19x19.rank)
  reducesTo_S19x19_S19_d1 : S19x19.ReducesTo [1] S19
  shapeCasts_S_S1 : S_.ShapeCasts S1
  scatter_S19_S131072x1_S131072_n_0_0_1_wf : ScatterDims.WF S19 S131072x1 S131072 [] [0] [0] 1
  scatter_S19x256_S131072x1_S131072x256_1_0_0_1_wf : ScatterDims.WF S19x256 S131072x1 S131072x256 [1] [0] [0] 1
  gather_S19x256_S131072x1_S131072x256_1_0_n_n_0_1_1256_wf : GatherDims.WF S19x256 S131072x1 S131072x256 [1] [0] [] [0] [] 1 ![1, 256]
  dot_S19x256_S256x19_S19x19_1_0_0_1_n_n_wf : DotDims.WF S19x256 S256x19 S19x19 [1] [0] [0] [1] [] []

variable [Facts₀]

def scatter_S19_S131072x1_S131072_n_0_0_1 : ScatterDims S19 S131072x1 S131072 where
  updateWindowDims := []
  insertedWindowDims := [0]
  scatterDimsToOperandDims := [0]
  indexVectorDim := 1
  wf := scatter_S19_S131072x1_S131072_n_0_0_1_wf
def scatter_S19x256_S131072x1_S131072x256_1_0_0_1 : ScatterDims S19x256 S131072x1 S131072x256 where
  updateWindowDims := [1]
  insertedWindowDims := [0]
  scatterDimsToOperandDims := [0]
  indexVectorDim := 1
  wf := scatter_S19x256_S131072x1_S131072x256_1_0_0_1_wf
def gather_S19x256_S131072x1_S131072x256_1_0_n_n_0_1_1256 : GatherDims S19x256 S131072x1 S131072x256 where
  offsetDims := [1]
  collapsedSliceDims := [0]
  operandBatchingDims := []
  startIndicesBatchingDims := []
  startIndexMap := [0]
  indexVectorDim := 1
  sliceSizes := ![1, 256]
  wf := gather_S19x256_S131072x1_S131072x256_1_0_n_n_0_1_1256_wf
def dot_S19x256_S256x19_S19x19_1_0_0_1_n_n : DotDims S19x256 S256x19 S19x19 where
  lhsContracting := [1]
  rhsContracting := [0]
  lhsNonContracting := [0]
  rhsNonContracting := [1]
  lhsBatch := []
  rhsBatch := []
  wf := dot_S19x256_S256x19_S19x19_1_0_0_1_n_n_wf

class Facts : Prop extends Facts₀ where

variable [Facts]
-- ==== Proof.Spec.lean ====
/-
  The loss both programs compute, as plain functions of coordinates over the extended reals.

  An image batch is `x b d p`: image `b` of 8, channel `d` of 256, pixel `p` of 16384 (row-major over 128 x 128); each
  pixel has a label word `lab b p`. For a class index `k` the weight `oh k l` is 1 when the label word `l` is the word of
  `k` and 0 otherwise. With it: the number of pixels of class `k` (`cnt`, each pixel counted as the word 1.0), the sum
  of their embeddings (`sums`), the centroid (`cen`, the sum over the count floored at 1.0), the centroid's squared
  norm (`nc2`), for a pixel one minus its cosine to class `k`'s centroid (`wAt`, the denominator floored at the word
  1e-8), and the sum of that over the pixels of class `k` (`simnum`). A label word that is the word of no class below
  the table's height contributes to nothing: every weight it meets is 0, and on the extended reals 0 times anything is 0.

  `loss` is the scalar made from the first 19 classes' counts `n`, centroids `c` and cosine sums `s`: over the classes
  with a positive count, the mean over all 19 classes `j` of (1 - cos(c i, c j)) at `j = i` and of max(cos, 0)
  elsewhere, plus the cosine sum over the count floored at 1.0.
-/
import Idealize.ShloMosaic.PureOps.Ideal
import Idealize.ShloMosaic.Lib.ValueIdx

noncomputable section

open scoped BigOperators

namespace Cert.EmbedLoss

open Idealize.ShloMosaic Idealize.ShloMosaic.ValueIdx

/-- Embeddings by image, channel, pixel. -/
abbrev Feat := Fin 8 → Fin 256 → Fin 16384 → EReal
/-- Label words by image, pixel. -/
abbrev Lab := Fin 8 → Fin 16384 → BitVec 32

/-- The one-hot weight of class `k` at a label word. -/
def oh (k : ℕ) (l : BitVec 32) : EReal := if l = BitVec.ofNat 32 k then 1 else 0
/-- The word 1.0. -/
def one : EReal := Ideal.ofBits .f32 0x3F800000#32
/-- The word nearest 1e-8. -/
def eps : EReal := Ideal.ofBits .f32 0x322BCC77#32
/-- The word 19.0. -/
def nineteen : EReal := Ideal.ofBits .f32 0x41980000#32

/-- Pixels of class `k`, each counted as the word 1.0. -/
def cnt (lab : Lab) (k : ℕ) : EReal := ∑ b : Fin 8, ∑ p : Fin 16384, oh k (lab b p) * one
/-- Channel `d` summed over the pixels of class `k`. -/
def sums (x : Feat) (lab : Lab) (k : ℕ) (d : Fin 256) : EReal := ∑ b : Fin 8, ∑ p : Fin 16384, oh k (lab b p) * x b d p
/-- Class `k`'s centroid. -/
def cen (x : Feat) (lab : Lab) (k : ℕ) (d : Fin 256) : EReal := Ideal.div (sums x lab k d) (max (cnt lab k) one)
/-- Its squared norm. -/
def nc2 (x : Feat) (lab : Lab) (k : ℕ) : EReal := ∑ d : Fin 256, cen x lab k d * cen x lab k d
/-- A pixel's squared norm. -/
def nf2 (x : Feat) (b : Fin 8) (p : Fin 16384) : EReal := ∑ d : Fin 256, x b d p * x b d p
/-- One minus the cosine of pixel `(b, p)` to class `k`'s centroid. -/
def wAt (x : Feat) (lab : Lab) (k : ℕ) (b : Fin 8) (p : Fin 16384) : EReal :=
  one - Ideal.div (∑ d : Fin 256, x b d p * cen x lab k d) (max (Ideal.sqrt (nf2 x b p) * Ideal.sqrt (nc2 x lab k)) eps)
/-- That, summed over the pixels of class `k`. -/
def simnum (x : Feat) (lab : Lab) (k : ℕ) : EReal := ∑ b : Fin 8, ∑ p : Fin 16384, oh k (lab b p) * wAt x lab k b p

/-! ## The scalar from the 19 classes' counts, centroids and cosine sums -/

/-- A centroid's norm. -/
def ncen (c : Fin 19 → Fin 256 → EReal) (i : Fin 19) : EReal := Ideal.sqrt (∑ d : Fin 256, c i d * c i d)
/-- The cosine of two centroids, the denominator floored. -/
def cosm (c : Fin 19 → Fin 256 → EReal) (i j : Fin 19) : EReal :=
  Ideal.div (∑ d : Fin 256, c i d * c j d) (max (ncen c i * ncen c j) eps)
/-- The pair term: one minus the cosine on the diagonal, the cosine floored at zero off it. -/
def pair (c : Fin 19 → Fin 256 → EReal) (i j : Fin 19) : EReal := if i = j then one - cosm c i j else max (cosm c i j) 0
/-- Its mean over the 19 classes. -/
def perI (c : Fin 19 → Fin 256 → EReal) (i : Fin 19) : EReal := Ideal.div (∑ j : Fin 19, pair c i j) nineteen
/-- The loss: both terms summed over the classes whose count is positive. -/
def loss (n : Fin 19 → EReal) (c : Fin 19 → Fin 256 → EReal) (s : Fin 19 → EReal) : EReal :=
  (∑ i : Fin 19, if Ideal.cmp .ogt (n i) 0 = 1#1 then perI c i else 0)
    + ∑ i : Fin 19, if Ideal.cmp .ogt (n i) 0 = 1#1 then Ideal.div (s i) (max (n i) one) else 0

/-- The loss of a batch. -/
def lossOf (x : Feat) (lab : Lab) : EReal :=
  loss (fun k => cnt lab k.val) (fun k d => cen x lab k.val d) (fun k => simnum x lab k.val)

/-! ## The argument arrays read by image, channel, pixel -/

theorem pix_row (p : Fin 16384) : p.val / 128 < 128 := by have := p.isLt; omega
theorem pix_col (p : Fin 16384) : p.val % 128 < 128 := Nat.mod_lt _ (by decide)

/-- The `[8, 256, 128, 128]` array by image, channel, pixel. -/
def featOf (a : (⟨4, ![8, 256, 128, 128]⟩ : Shape).Idx → EReal) : Feat :=
  fun b d p => a (ix4 b d ⟨p.val / 128, pix_row p⟩ ⟨p.val % 128, pix_col p⟩)
/-- The `[8, 128, 128]` label array by image, pixel. -/
def labOf (l : (⟨3, ![8, 128, 128]⟩ : Shape).Idx → BitVec 32) : Lab :=
  fun b p => l (ix3 b ⟨p.val / 128, pix_row p⟩ ⟨p.val % 128, pix_col p⟩)

/-- Pixel `p` of image `b` among all `8 * 16384` pixels in row-major order. -/
def pix (b : Fin 8) (p : Fin 16384) : Fin 131072 := ⟨b.val * 16384 + p.val, by have := b.isLt; have := p.isLt; omega⟩

/-! ## The per-pixel term written with one-hot selections over a 24-row table -/

/-- One minus the cosine of a pixel to the centroid its label selects from a table `C d k` of 24 columns with squared
    norms `n2 k`: both the dot product and the squared norm are selected by a sum against the one-hot weights. -/
def wPix (xb : Fin 256 → Fin 16384 → EReal) (lb : Fin 16384 → BitVec 32) (C : Fin 256 → Fin 24 → EReal) (n2 : Fin 24 → EReal)
    (p : Fin 16384) : EReal :=
  one - Ideal.div (∑ k : Fin 24, oh k.val (lb p) * ∑ d : Fin 256, C d k * xb d p)
    (max (Ideal.sqrt (∑ d : Fin 256, xb d p * xb d p) * Ideal.sqrt (∑ k : Fin 24, oh k.val (lb p) * n2 k)) eps)

/-- The words of two class indices below 24 are equal only if the indices are. -/
theorem ofNat_inj24 {j k : Fin 24} (h : BitVec.ofNat 32 j.val = BitVec.ofNat 32 k.val) : j = k := by
  have hj := j.isLt; have hk := k.isLt
  have := congrArg BitVec.toNat h
  rw [BitVec.toNat_ofNat, BitVec.toNat_ofNat, Nat.mod_eq_of_lt (by omega), Nat.mod_eq_of_lt (by omega)] at this
  exact Fin.ext this

/-- A sum against the one-hot weights of a label that is class `k`'s word is the `k`-th term. -/
theorem sum_oh_select (l : BitVec 32) (k : Fin 24) (hl : l = BitVec.ofNat 32 k.val) (f : Fin 24 → EReal) :
    ∑ j : Fin 24, oh j.val l * f j = f k := by
  refine (Finset.sum_eq_single k ?_ ?_).trans ?_
  · intro j _ hj
    have : ¬ l = BitVec.ofNat 32 j.val := fun h => hj (ofNat_inj24 (h.symm.trans hl))
    unfold oh; rw [if_neg this, zero_mul]
  · intro h; exact absurd (Finset.mem_univ _) h
  · unfold oh; rw [if_pos hl, one_mul]

/-- Under the weight of class `k` the selected per-pixel term is the term against column `k`: where the weight is 1 the
    label is `k`'s word and the selections pick column `k`; where it is 0 both sides are 0. -/
theorem oh_mul_wPix (xb : Fin 256 → Fin 16384 → EReal) (lb : Fin 16384 → BitVec 32) (C : Fin 256 → Fin 24 → EReal)
    (n2 : Fin 24 → EReal) (p : Fin 16384) (k : Fin 24) :
    oh k.val (lb p) * wPix xb lb C n2 p
      = oh k.val (lb p) * (one - Ideal.div (∑ d : Fin 256, C d k * xb d p)
          (max (Ideal.sqrt (∑ d : Fin 256, xb d p * xb d p) * Ideal.sqrt (n2 k)) eps)) := by
  by_cases hl : lb p = BitVec.ofNat 32 k.val
  · unfold wPix
    rw [sum_oh_select (lb p) k hl (fun j => ∑ d : Fin 256, C d j * xb d p), sum_oh_select (lb p) k hl n2]
  · unfold oh; rw [if_neg hl, zero_mul, zero_mul]

end Cert.EmbedLoss

end
-- ==== Proof.KArr.lean ====
/-
  The kernel program's buffers named at their literal array types, so that arithmetic on their entries is arithmetic on
  the extended reals.
-/
import proofs.«421729_j51522427682923_2_alg».proof.Proof.Gen.KernelIdeal.Frame
import proofs.«421729_j51522427682923_2_alg».proof.Proof.Spec

noncomputable section

namespace Cert.EmbedLoss.KArr

open Cert.KernelIdeal Cert.KernelIdeal.Gen
open Idealize.ShloMosaic Idealize.ShloMosaic.TcCoe Idealize.SL.Sem

variable (V : (c : Dev nD) → (b : Ref sig .tc) → Buf (Elt Ideal) ((c : Thread nD τ).loc b))

/-- The embeddings re-laid `[8, 256, 16384]`. -/
abbrev aFeat (c : Dev nD) : S8x256x16384.Idx → EReal := V c main_v0
/-- The labels re-laid `[8, 1, 16384]`. -/
abbrev aLab (c : Dev nD) : S8x1x16384.Idx → BitVec 32 := V c main_v1
/-- The first launch's output `[8, 256, 24]`. -/
abbrev aSumsB (c : Dev nD) : S8x256x24.Idx → EReal := V c main_v2
/-- The padded counts `[24]`. -/
abbrev aCnt (c : Dev nD) : S24.Idx → EReal := V c main_v8
/-- The centroid table `[256, 24]`. -/
abbrev aCen (c : Dev nD) : S256x24.Idx → EReal := V c main_v13
/-- Its squared-norm column `[24, 1]`. -/
abbrev aNc2 (c : Dev nD) : S24x1.Idx → EReal := V c main_v16
/-- The second launch's output `[8, 24, 1]`. -/
abbrev aSim (c : Dev nD) : S8x24x1.Idx → EReal := V c main_v17
/-- What the first launch leaves in its output array. -/
abbrev out0 (c : Dev nD) : S8x256x24.Idx → EReal := (dat0 (F := Ideal) V c).arrAt 2 cfg0.N
/-- What the second launch leaves in its output array. -/
abbrev out1 (c : Dev nD) : S8x24x1.Idx → EReal := (dat1 (F := Ideal) V c).arrAt 4 cfg1.N

variable (m : (ℓ : Loc nD τ sig) → Buf (Elt Ideal) ℓ) (ρ : Dev nD → PrngReg)

/-- The result buffer at the last boundary. -/
abbrev resArr (c : Dev nD) : S1.Idx → EReal := W11 m ρ c (Proc.devRef .tc main_v59)
/-- The two argument arrays as launched. -/
abbrev arg0 (c : Dev nD) : S8x256x128x128.Idx → EReal := m ((c : Thread nD τ).loc main_arg0)
abbrev arg1 (c : Dev nD) : S8x128x128.Idx → BitVec 32 := m ((c : Thread nD τ).loc main_arg1)

end Cert.EmbedLoss.KArr

end
-- ==== Proof.LibSegSum.lean ====
/-
  SEGMENT SUMS: a one-hot matrix product against a scatter-add.

  A segment sum takes rows `x n` (`n` below `N`) and a segment id `b n` for each, and adds up, for each segment `g`,
  the rows whose id is `g`.  Two programs for it meet here.

  The dense one forms the one-hot matrix of the ids, `O n g = 1` when `b n = g` and `0` otherwise, and multiplies its
  transpose into the rows: entry `(g, h)` of the product is `∑ n, O n g * x n h`.  Over the extended reals a zero
  factor kills its term whatever the other factor is, infinite or not, so that sum is the sum of `x n h` over the `n`
  with `b n = g` and nothing else: no finiteness of the rows is needed.

  The sparse one is the host's scatter with an `add` body, at the dimension numbers that send update `(n, h)` to
  operand element `(b n, h)`: update window axis 1, inserted window axis 0, the one component of the start index
  mapped to operand axis 0, the index vector on axis 1 of the ids `[N, 1]`.  The id is read as a signed integer and not
  clamped; an update whose row is not a row of the operand is dropped.  Read at `(g, h)` it is the operand there plus
  the sum of `x n h` over the `n` whose id, read signed, is `g`.

  The two agree because a 32-bit word read signed is a natural `g` below `2^31` exactly when it is the word of `g`.
  Ids outside the operand's rows contribute to neither: the scatter drops them and no column of the one-hot matrix
  matches them (or the column they match is never read).

  The dense program is usually run a block of rows at a time, its partial products added up; a sum over `B * T` rows
  is the sum over `B` blocks of the sums over each block's `T` rows (`sum_blocks`), in whatever order the blocks are
  added, sums of extended reals being commutative and associative.

  Contents: `sum_onehot_mul` (the one-hot sum); `segDims` and `hostScatterAdd_seg` (the scatter read at an element);
  `toInt_eq_natCast_iff` (word against signed reading); `sum_blocks`; `ohDot` and `ohDot_sum` (the contraction of a
  product whose two operands are both contracted on their row axis, re-indexed by the row); `blocks_onehot_eq_scatter`
  (the law).
-/
import Idealize.ShloMosaic.PureOps.Ideal
import Idealize.ShloMosaic.PureOps.Ideal.Laws
import Idealize.ShloMosaic.Lib.ValueIdx

noncomputable section

open scoped BigOperators

namespace Cert.Lib.SegSum

open Idealize.ShloMosaic Idealize.ShloMosaic.ValueIdx

/-! ## The one-hot sum -/

/-- A sum of terms each multiplied by `1` or `0` is the sum of the terms multiplied by `1`: on the extended reals
    `0 * x = 0` at the infinities too. -/
theorem sum_onehot_mul {ι : Type*} [Fintype ι] (p : ι → Prop) [DecidablePred p] (x : ι → EReal) :
    ∑ n, (if p n then (1 : EReal) else 0) * x n = ∑ n ∈ Finset.univ.filter p, x n := by
  rw [Finset.sum_filter]
  exact Finset.sum_congr rfl fun n _ => by split_ifs <;> simp

/-! ## The segment scatter read at an element -/

/-- The dimension numbers of a segment scatter: operand `[G, H]`, ids `[N, 1]`, updates `[N, H]`; their conditions
    `wf` are decided on a program's literal shapes. -/
abbrev segDims (G N H : Nat) (wf : ScatterDims.WF ⟨2, ![G, H]⟩ ⟨2, ![N, 1]⟩ ⟨2, ![N, H]⟩ [1] [0] [0] 1) :
    ScatterDims ⟨2, ![G, H]⟩ ⟨2, ![N, 1]⟩ ⟨2, ![N, H]⟩ where
  updateWindowDims := [1]
  insertedWindowDims := [0]
  scatterDimsToOperandDims := [0]
  indexVectorDim := 1
  wf := wf

variable {G N H w : Nat} (wf : ScatterDims.WF ⟨2, ![G, H]⟩ ⟨2, ![N, 1]⟩ ⟨2, ![N, H]⟩ [1] [0] [0] 1)

/-- The window coordinate on the operand's row axis is zero: that axis is inserted. -/
theorem seg_window0 (j : (⟨2, ![N, H]⟩ : Shape).Idx) : (segDims G N H wf).window j 0 = 0 := rfl
/-- The window coordinate on the operand's column axis is the update's column. -/
theorem seg_window1 (j : (⟨2, ![N, H]⟩ : Shape).Idx) : (segDims G N H wf).window j 1 = (j 1).val := rfl
/-- The window starts at column zero: no component of the start index names the column axis. -/
theorem seg_start1 (j : (⟨2, ![N, H]⟩ : Shape).Idx) (idx : IVec ⟨2, ![N, 1]⟩ w) : (segDims G N H wf).start j idx 1 = 0 := rfl
/-- The window starts at the row the update's id names, read signed. -/
theorem seg_start0 (j : (⟨2, ![N, H]⟩ : Shape).Idx) (idx : IVec ⟨2, ![N, 1]⟩ w) :
    (segDims G N H wf).start j idx 0 = (idx (ix2 (j 0) ⟨0, Nat.one_pos⟩)).toInt := by
  unfold ScatterDims.start
  rw [dif_pos (show (0 : Fin 2) ∈ (segDims G N H wf).scatterDimsToOperandDims from List.mem_singleton.mpr rfl)]
  congr 2
  funext b
  match b with
  | ⟨0, _⟩ => rfl
  | ⟨1, _⟩ => rfl

/-- Where update `(n, h)` lands: at row `idx[n, 0]`, read signed, and column `h`, when that row exists. -/
theorem seg_resultIdx?_eq_some (j : (⟨2, ![N, H]⟩ : Shape).Idx) (idx : IVec ⟨2, ![N, 1]⟩ w) (i : (⟨2, ![G, H]⟩ : Shape).Idx) :
    (segDims G N H wf).resultIdx? j idx = some i
      ↔ (idx (ix2 (j 0) ⟨0, Nat.one_pos⟩)).toInt = ((i 0).val : Int) ∧ (j 1).val = (i 1).val := by
  have hi0 : (i 0).val < G := (i 0).isLt
  have hi1 : (i 1).val < H := (i 1).isLt
  have hj1 : (j 1).val < H := (j 1).isLt
  unfold ScatterDims.resultIdx?
  split_ifs with h
  · rw [Option.some.injEq]
    have h0 := (h 0).1
    rw [seg_start0, seg_window0] at h0
    constructor
    · rintro rfl
      refine ⟨?_, ?_⟩
      · show _ = (((((segDims G N H wf).start j idx 0 + ((segDims G N H wf).window j 0 : Nat)).toNat : Nat)) : Int)
        rw [seg_start0, seg_window0]; omega
      · show _ = ((segDims G N H wf).start j idx 1 + ((segDims G N H wf).window j 1 : Nat)).toNat
        rw [seg_start1, seg_window1]; omega
    · rintro ⟨e0, e1⟩
      funext a
      refine Fin.ext ?_
      match a with
      | ⟨0, _⟩ =>
        show ((segDims G N H wf).start j idx 0 + ((segDims G N H wf).window j 0 : Nat)).toNat = (i 0).val
        rw [seg_start0, seg_window0]; omega
      | ⟨1, _⟩ =>
        show ((segDims G N H wf).start j idx 1 + ((segDims G N H wf).window j 1 : Nat)).toNat = (i 1).val
        rw [seg_start1, seg_window1]; omega
  · refine iff_of_false (by simp) ?_
    rintro ⟨e0, e1⟩
    refine h fun a => ?_
    match a with
    | ⟨0, _⟩ =>
      show 0 ≤ (segDims G N H wf).start j idx 0 + ((segDims G N H wf).window j 0 : Nat)
        ∧ (segDims G N H wf).start j idx 0 + ((segDims G N H wf).window j 0 : Nat) < (G : Int)
      rw [seg_start0, seg_window0]; omega
    | ⟨1, _⟩ =>
      show 0 ≤ (segDims G N H wf).start j idx 1 + ((segDims G N H wf).window j 1 : Nat)
        ∧ (segDims G N H wf).start j idx 1 + ((segDims G N H wf).window j 1 : Nat) < (H : Int)
      rw [seg_start1, seg_window1]; omega

/-- THE SEGMENT SCATTER-ADD READ AT `(g, h)`: the operand there plus the sum, over the rows `n` whose segment id is
    `g`, of the update's `(n, h)`. Rows whose id is no row of the operand match no `g` and are dropped. -/
theorem hostScatterAdd_seg (x : (⟨2, ![G, H]⟩ : Shape).Idx → EReal) (idx : IVec ⟨2, ![N, 1]⟩ w)
    (upd : (⟨2, ![N, H]⟩ : Shape).Idx → EReal) (i : (⟨2, ![G, H]⟩ : Shape).Idx) :
    Ideal.hostScatterAdd (segDims G N H wf) x idx upd i
      = x i + ∑ n : Fin N, if (idx (ix2 n ⟨0, Nat.one_pos⟩)).toInt = ((i 0).val : Int) then upd (ix2 n (i 1)) else 0 := by
  unfold Ideal.hostScatterAdd
  congr 1
  rw [Finset.sum_filter, sum_idx2]
  refine Finset.sum_congr rfl fun n _ => ?_
  have key : ∀ b : Fin H, (if (segDims G N H wf).resultIdx? (ix2 n b) idx = some i then upd (ix2 n b) else 0)
      = if (idx (ix2 n ⟨0, Nat.one_pos⟩)).toInt = ((i 0).val : Int) ∧ b.val = (i 1).val then upd (ix2 n b) else 0 :=
    fun b => if_congr (seg_resultIdx?_eq_some wf (ix2 n b) idx i) rfl rfl
  refine (Finset.sum_congr rfl fun b _ => key b).trans ?_
  by_cases hc : (idx (ix2 n ⟨0, Nat.one_pos⟩)).toInt = ((i 0).val : Int)
  · rw [if_pos hc]
    refine (Finset.sum_eq_single (i 1) ?_ ?_).trans ?_
    · intro b _ hb
      exact if_neg fun hh => hb (Fin.ext hh.2)
    · intro hh; exact absurd (Finset.mem_univ _) hh
    · exact if_pos ⟨hc, rfl⟩
  · rw [if_neg hc]
    exact Finset.sum_eq_zero fun b _ => if_neg fun hh => hc hh.1

/-! ## Words and blocks -/

/-- A 32-bit word read signed is the natural `g`, for `g` below `2^31`, exactly when it is the word of `g`. -/
theorem toInt_eq_natCast_iff (v : BitVec 32) (g : Nat) (hg : g < 2 ^ 31) : v.toInt = (g : Int) ↔ v = BitVec.ofNat 32 g := by
  have hg' : (BitVec.ofNat 32 g).toInt = (g : Int) := by
    have hn : (BitVec.ofNat 32 g).toNat = g := by
      rw [BitVec.toNat_ofNat]; exact Nat.mod_eq_of_lt (by omega)
    rw [BitVec.toInt_eq_toNat_of_lt (by rw [hn]; omega), hn]
  constructor
  · intro h; exact BitVec.eq_of_toInt_eq (h.trans hg'.symm)
  · rintro rfl; exact hg'

/-- A sum over `B * T` rows is the sum over the `B` blocks of `T` rows of each block's sum. -/
theorem sum_blocks {M : Type*} [AddCommMonoid M] (B T : Nat) (f : Fin (B * T) → M) :
    ∑ n, f n = ∑ t : Fin B, ∑ r : Fin T, f ⟨t.val * T + r.val, by
      have := t.isLt; have := r.isLt
      calc t.val * T + r.val < t.val * T + T := by omega
        _ = (t.val + 1) * T := by ring
        _ ≤ B * T := Nat.mul_le_mul_right T (by omega)⟩ := by
  rw [← Equiv.sum_comp finProdFinEquiv f, Fintype.sum_prod_type]
  refine Finset.sum_congr rfl fun t _ => Finset.sum_congr rfl fun r _ => congrArg f (Fin.ext ?_)
  show r.val + T * t.val = t.val * T + r.val
  ring

/-! ## The contraction of a product of two operands contracted on their row axis -/

/-- The dimension numbers of `Lᵀ · R` for `L : [T, G]` and `R : [T, H]`: both operands contracted on axis 0, their
    column axes kept, no batch axis; their conditions `wf` are decided on a program's literal shapes. -/
abbrev ohDot (T G H : Nat) (wf : DotDims.WF ⟨2, ![T, G]⟩ ⟨2, ![T, H]⟩ ⟨2, ![G, H]⟩ [0] [0] [1] [1] [] []) :
    DotDims ⟨2, ![T, G]⟩ ⟨2, ![T, H]⟩ ⟨2, ![G, H]⟩ where
  lhsContracting := [0]
  rhsContracting := [0]
  lhsNonContracting := [1]
  rhsNonContracting := [1]
  lhsBatch := []
  rhsBatch := []
  wf := wf

/-- That contraction, re-indexed by the row: entry `(g, h)` sums `L r g * R r h` over the rows `r`. -/
theorem ohDot_sum {T G H : Nat} (wf : DotDims.WF ⟨2, ![T, G]⟩ ⟨2, ![T, H]⟩ ⟨2, ![G, H]⟩ [0] [0] [1] [1] [] [])
    (L : (⟨2, ![T, G]⟩ : Shape).Idx → EReal) (R : (⟨2, ![T, H]⟩ : Shape).Idx → EReal) (j : (⟨2, ![G, H]⟩ : Shape).Idx) :
    ∑ k : (ohDot T G H wf).contr.Idx, L ((ohDot T G H wf).lhsIdx j k) * R ((ohDot T G H wf).rhsIdx j k)
      = ∑ r : Fin T, L (ix2 r (j 0)) * R (ix2 r (j 1)) := by
  rw [← Equiv.sum_comp (contrEquiv1 (ohDot T G H wf) T rfl rfl).symm]
  refine Finset.sum_congr rfl fun r _ => ?_
  have hl : (ohDot T G H wf).lhsIdx j ((contrEquiv1 (ohDot T G H wf) T rfl rfl).symm r) = ix2 r (j 0) := by
    funext a
    match a with
    | ⟨0, _⟩ => rfl
    | ⟨1, _⟩ => rfl
  have hr : (ohDot T G H wf).rhsIdx j ((contrEquiv1 (ohDot T G H wf) T rfl rfl).symm r) = ix2 r (j 1) := by
    funext a
    match a with
    | ⟨0, _⟩ => rfl
    | ⟨1, _⟩ => rfl
  exact congrArg₂ (· * ·) (congrArg L hl) (congrArg R hr)

/-! ## The law -/

/-- THE LAW. The one-hot products of the `B` blocks of `T` rows, added up, are the segment scatter-add of the rows
    into zeros: at segment `g` (a row of the scatter's operand, below `2^31`) and column `h`, the sum over the blocks
    `t` and the rows `r` of a block of `[b (t·T + r) = g] * x (t·T + r) h` is the scatter-add read at `(g, h)`. -/
theorem blocks_onehot_eq_scatter {B T G N H : Nat} (hN : N = B * T)
    (wf : ScatterDims.WF ⟨2, ![G, H]⟩ ⟨2, ![N, 1]⟩ ⟨2, ![N, H]⟩ [1] [0] [0] 1)
    (bat : IVec ⟨2, ![N, 1]⟩ 32) (x : (⟨2, ![N, H]⟩ : Shape).Idx → EReal) (i : (⟨2, ![G, H]⟩ : Shape).Idx) (hG : G ≤ 2 ^ 31)
    (row : Fin B → Fin T → Fin N) (hrow : ∀ t r, (row t r).val = t.val * T + r.val) :
    ∑ t : Fin B, ∑ r : Fin T,
        (if bat (ix2 (row t r) ⟨0, Nat.one_pos⟩) = BitVec.ofNat 32 (i 0).val then (1 : EReal) else 0) * x (ix2 (row t r) (i 1))
      = Ideal.hostScatterAdd (segDims G N H wf) (fun _ => 0) bat x i := by
  subst hN
  have hi0 : (i 0).val < G := (i 0).isLt
  rw [hostScatterAdd_seg, zero_add, sum_blocks]
  refine Finset.sum_congr rfl fun t _ => Finset.sum_congr rfl fun r _ => ?_
  have hr : row t r = ⟨t.val * T + r.val, (hrow t r) ▸ (row t r).isLt⟩ := Fin.ext (hrow t r)
  rw [← hr]
  by_cases hc : bat (ix2 (row t r) ⟨0, Nat.one_pos⟩) = BitVec.ofNat 32 (i 0).val
  · rw [if_pos hc, if_pos ((toInt_eq_natCast_iff _ _ (by omega)).2 hc), one_mul]
  · rw [if_neg hc, if_neg (fun h => hc ((toInt_eq_natCast_iff _ _ (by omega)).1 h)), zero_mul]

end Cert.Lib.SegSum

end
-- ==== Proof.KReg0.lean ====
/-
  The first launch: what its output array holds when it ends.

  The launch runs over 8 images times 4 pixel tiles, point `t = 4 * b + h`. Its output block `(b, 0, 0)` stays staged while
  `h` runs and is written back after `h = 3`. At `h = 0` the body stores zeros and then zeros plus the tile's product, at
  `h > 0` what the point before left plus the tile's product, where the product at `(d, k)` is the sum over the tile's
  4096 pixels `r` of channel `d` at the pixel times the one-hot weight of class `k` at the pixel's label (the row-index
  word compared with the label word, widened, read as a signed integer: 1 or 0). So after point `4 * b + h` the staged
  block holds at `(0, d, k)` the tiles `0 … h` of image `b` added up (induction on the point), after `h = 3` all four, and
  four tiles of 4096 pixels are the image's 16384 pixels. The block written back at `4 * b + 3` is the block `(b, 0, 0)` of
  the array, which holds entry `(b, d, k)`.
-/
import proofs.«421729_j51522427682923_2_alg».proof.Proof.KArr
import proofs.«421729_j51522427682923_2_alg».proof.Proof.LibSegSum
import Idealize.ShloMosaic.Lib.Pipeline.Value
import Idealize.ShloMosaic.Lib.Tactic
import Idealize.ShloMosaic.PureOps.Ideal.Laws

set_option maxRecDepth 16384

noncomputable section

open scoped BigOperators

namespace Cert.EmbedLoss.KReg0

open Cert.EmbedLoss Cert.EmbedLoss.KArr Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The whole-block rectangle's offsets are zeros. -/
private theorem hz3 : (![0, 0, 0] : Fin 3 → Nat) = fun _ => 0 := funext fun a => by fin_cases a <;> rfl

section Pieces
variable {F : FTy → Type} [FloatOps F]

/-- At a point that does not reset, the body leaves in the output's staging buffer its one covering store: the
    second payload of the two input blocks and of what the buffer held. -/
private theorem out_B (c : Dev nD) (i : grid0.Coords) (a2 : Memref sig .tc .vmem S1x256x4096 .f32) (h2 : a2.IsWhole)
    (a3 : Memref sig .tc .vmem S1x1x4096 .i32) (h3 : a3.IsWhole) (a4 : Memref sig .tc .vmem S1x256x24 .f32) (h4 : a4.IsWhole)
    (hc : ¬cond0_0 i) (x0 : Vec F S1x256x4096 .f32) (x1 : Vec F S1x1x4096 .i32) (xo : Vec F S1x256x24 .f32) :
    out0_B_2 c i a2 h2 a3 h3 a4 h4 hc x0 x1 xo = k0_pay2 x0 x1 xo := by
  unfold out0_B_2
  rw [View.read_writes_eq_canon _ _ _ (cover0_B_2 c i a2 h2 a3 h3 a4 h4 hc x0 x1 xo)]
  unfold kernelRun0_B
  dsimp only
  sl_unfold_words
  rw [View.canon_unit_zero hz3]
  simp only [View.readAt_eq_ld, h2.read_unread, h3.read_unread, h4.read_unread, View.ld_unit_zero (S := S1x256x4096) hz3,
    View.ld_unit_zero (S := S1x1x4096) hz3, View.ld_unit_zero (S := S1x256x24) hz3]

/-- At a point that resets, the body first stores the zero block, reads it back, and leaves the second payload of the
    two input blocks and of that zero block: the later store covers the earlier one. -/
private theorem out_A (c : Dev nD) (i : grid0.Coords) (a2 : Memref sig .tc .vmem S1x256x4096 .f32) (h2 : a2.IsWhole)
    (a3 : Memref sig .tc .vmem S1x1x4096 .i32) (h3 : a3.IsWhole) (a4 : Memref sig .tc .vmem S1x256x24 .f32) (h4 : a4.IsWhole)
    (hc : cond0_0 i) (x0 : Vec F S1x256x4096 .f32) (x1 : Vec F S1x1x4096 .i32) :
    out0_A_2 c i a2 h2 a3 h3 a4 h4 hc x0 x1 = k0_pay2 x0 x1 (k0_pay1 (F := F)) := by
  unfold out0_A_2
  rw [View.read_writes_eq_canon _ _ _ (cover0_A_2 c i a2 h2 a3 h3 a4 h4 hc x0 x1)]
  unfold kernelRun0_A
  dsimp only
  sl_unfold_words
  rw [View.canon_cons_unit_zero (S := S1x256x24) hz3, View.readCov_unit_zero (S := S1x256x24) _ hz3]
  simp only [View.readAt_eq_ld, h2.read_unread, h3.read_unread, View.ld_unit_zero (S := S1x256x4096) hz3,
    View.ld_unit_zero (S := S1x1x4096) hz3]

end Pieces

section Payload

/-- The row-index word against a label word, compared, widened and read as a signed integer: 1 where the label is the
    row's word, else 0. -/
private theorem onehot_word (a b : BitVec 32) :
    ((((IntOp.cmpi .eq a b).setWidth 32).toInt : ℝ) : EReal) = if b = a then 1 else 0 := by
  by_cases h : b = a
  · subst h
    rw [if_pos rfl]
    have e : IntOp.cmpi .eq b b = 1#1 := by
      show BitVec.ofBool (b == b) = 1#1
      rw [beq_self_eq_true]; rfl
    rw [e]
    have e2 : ((1#1 : BitVec 1).setWidth 32).toInt = 1 := by decide
    rw [e2]; simp
  · rw [if_neg h]
    have e : IntOp.cmpi .eq a b = 0#1 := by
      have hb : (a == b) = false := beq_eq_false_iff_ne.mpr fun h' => h h'.symm
      show BitVec.ofBool (a == b) = 0#1
      rw [hb]; rfl
    rw [e]
    have e2 : ((0#1 : BitVec 1).setWidth 32).toInt = 0 := by decide
    rw [e2]; simp

/-- The product's operand indices at output entry `i` and contraction index `q`: the left operand is read at `(i 0, q)`,
    the right one at `(i 1, q)`; coordinate by coordinate. -/
private theorem lhs_dot_0 (i : S256x24.Idx) (q : dot_S256x4096_S24x4096_S256x24_1_1_0_0_n_n.contr.Idx) :
    (dot_S256x4096_S24x4096_S256x24_1_1_0_0_n_n.lhsIdx i q 0).val = (i 0).val := by
  unfold DotDims.lhsIdx
  rw [dif_neg (show ¬(0 : Fin S256x4096.rank) ∈ dot_S256x4096_S24x4096_S256x24_1_1_0_0_n_n.lhsBatch by decide), dif_pos (show (0 : Fin S256x4096.rank) ∈ dot_S256x4096_S24x4096_S256x24_1_1_0_0_n_n.lhsNonContracting by decide)]
  rfl
private theorem lhs_dot_1 (i : S256x24.Idx) (q : dot_S256x4096_S24x4096_S256x24_1_1_0_0_n_n.contr.Idx) :
    (dot_S256x4096_S24x4096_S256x24_1_1_0_0_n_n.lhsIdx i q 1).val = (q ⟨0, by decide⟩).val :=
  dot_S256x4096_S24x4096_S256x24_1_1_0_0_n_n.lhsIdx_val_of_single rfl i q
private theorem rhs_dot_0 (i : S256x24.Idx) (q : dot_S256x4096_S24x4096_S256x24_1_1_0_0_n_n.contr.Idx) :
    (dot_S256x4096_S24x4096_S256x24_1_1_0_0_n_n.rhsIdx i q 0).val = (i 1).val := by
  unfold DotDims.rhsIdx
  rw [dif_neg (show ¬(0 : Fin S24x4096.rank) ∈ dot_S256x4096_S24x4096_S256x24_1_1_0_0_n_n.rhsBatch by decide), dif_pos (show (0 : Fin S24x4096.rank) ∈ dot_S256x4096_S24x4096_S256x24_1_1_0_0_n_n.rhsNonContracting by decide)]
  rfl
private theorem rhs_dot_1 (i : S256x24.Idx) (q : dot_S256x4096_S24x4096_S256x24_1_1_0_0_n_n.contr.Idx) :
    (dot_S256x4096_S24x4096_S256x24_1_1_0_0_n_n.rhsIdx i q 1).val = (q ⟨0, by decide⟩).val :=
  dot_S256x4096_S24x4096_S256x24_1_1_0_0_n_n.rhsIdx_val_of_single rfl i q

/-- The product into the zero accumulator at `(d, k)`: the sum over the tile's 4096 pixels of the two operands' rows. -/
private theorem matmul_at (L : FVec Ideal S256x4096 .bf16) (R : FVec Ideal S24x4096 .bf16) (d : Fin 256) (k : Fin 24) :
    matmul dot_S256x4096_S24x4096_S256x24_1_1_0_0_n_n none L R (constant S256x24 .f32 0x00000000#32) (ix2 d k)
      = ∑ r : Fin 4096, L (ix2 d r) * R (ix2 k r) := by
  simp only [matmul]
  rw [Ideal.matmul_constant_zero_apply, ← Equiv.sum_comp (contrEquiv1 dot_S256x4096_S24x4096_S256x24_1_1_0_0_n_n 4096 rfl rfl).symm]
  refine Finset.sum_congr rfl fun r _ => ?_
  have hk := contrEquiv1_symm_val dot_S256x4096_S24x4096_S256x24_1_1_0_0_n_n 4096 rfl rfl r
  have el : dot_S256x4096_S24x4096_S256x24_1_1_0_0_n_n.lhsIdx (ix2 d k) ((contrEquiv1 dot_S256x4096_S24x4096_S256x24_1_1_0_0_n_n 4096 rfl rfl).symm r) = ix2 d r := funext fun a => Fin.ext (by
    match a with
    | ⟨0, _⟩ => exact lhs_dot_0 _ _
    | ⟨1, _⟩ => exact (lhs_dot_1 _ _).trans hk)
  have er : dot_S256x4096_S24x4096_S256x24_1_1_0_0_n_n.rhsIdx (ix2 d k) ((contrEquiv1 dot_S256x4096_S24x4096_S256x24_1_1_0_0_n_n 4096 rfl rfl).symm r) = ix2 k r := funext fun a => Fin.ext (by
    match a with
    | ⟨0, _⟩ => exact rhs_dot_0 _ _
    | ⟨1, _⟩ => exact (rhs_dot_1 _ _).trans hk)
  rw [el, er]

end Payload

section PayloadAt

/-- The row-index words broadcast along the pixels: row `k` holds the word of `k`. -/
private theorem rowword_at (k : Fin 24) (r : Fin 4096) :
    broadcastTo S24x4096 (iota .tc S24x1 32 [0] iota_S24x1_d0_w32) broadcasts_S24x1_S24x4096 (ix2 k r) = BitVec.ofNat 32 k.val := by
  refine (broadcastTo_apply _ _ (ix2 k r) (ix2 k (0 : Fin 1)) (fun a => ?_)).trans ?_
  · match a with
    | ⟨0, _⟩ => rfl
    | ⟨1, _⟩ => rfl
  · exact iota_single_apply .tc S24x1 32 0 _ (ix2 k (0 : Fin 1))

/-- The label row broadcast along the classes: column `r` holds pixel `r`'s label word. -/
private theorem labword_at (x1 : Vec Ideal S1x1x4096 .i32) (k : Fin 24) (r : Fin 4096) :
    broadcastTo S24x4096 (shapeCast S1x4096 x1 shapeCasts_S1x1x4096_S1x4096) broadcasts_S1x4096_S24x4096 (ix2 k r)
      = x1 (ix3 (0 : Fin 1) (0 : Fin 1) r) := by
  refine (broadcastTo_apply _ _ (ix2 k r) (ix2 (0 : Fin 1) r) (fun a => ?_)).trans ?_
  · match a with
    | ⟨0, _⟩ => rfl
    | ⟨1, _⟩ => rfl
  · refine shapeCast_apply x1 _ (ix2 (0 : Fin 1) r) (ix3 (0 : Fin 1) (0 : Fin 1) r) ?_
    rw [Shape.rowMajor_val_two, Shape.rowMajor_val_three]
    rfl

/-- The zero block at an entry. -/
private theorem pay1_apply (d : Fin 256) (k : Fin 24) : k0_pay1 (F := Ideal) (ix3 (0 : Fin 1) d k) = 0 := by
  show Ideal.ofBits .f32 0x00000000#32 = 0
  exact Ideal.ofBits_zero_f32

/-- The body's second payload at entry `(0, d, k)`: what the buffer held there plus the sum over the tile's pixels
    of channel `d` times the one-hot weight of class `k` at the pixel's label. -/
private theorem pay2_apply (x0 : Vec Ideal S1x256x4096 .f32) (x1 : Vec Ideal S1x1x4096 .i32) (xo : Vec Ideal S1x256x24 .f32)
    (d : Fin 256) (k : Fin 24) :
    k0_pay2 (F := Ideal) x0 x1 xo (ix3 (0 : Fin 1) d k)
      = xo (ix3 (0 : Fin 1) d k) + ∑ r : Fin 4096, x0 (ix3 (0 : Fin 1) d r) * oh k.val (x1 (ix3 (0 : Fin 1) (0 : Fin 1) r)) := by
  unfold k0_pay2
  refine (shapeCast_apply _ _ (ix3 (0 : Fin 1) d k) (ix2 d k) ?_).trans ?_
  · rw [Shape.rowMajor_val_two, Shape.rowMajor_val_three]
    show d.val * 24 + k.val = (0 * 256 + d.val) * 24 + k.val
    omega
  refine (addf_apply _ _ (ix2 d k)).trans ?_
  refine congrArg₂ (· + ·) ?_ ?_
  · refine shapeCast_apply xo _ (ix2 d k) (ix3 (0 : Fin 1) d k) ?_
    rw [Shape.rowMajor_val_two, Shape.rowMajor_val_three]
    show (0 * 256 + d.val) * 24 + k.val = d.val * 24 + k.val
    omega
  · refine (matmul_at _ _ d k).trans ?_
    refine Finset.sum_congr rfl fun r _ => ?_
    refine congrArg₂ (· * ·) ?_ ?_
    · show shapeCast S256x4096 x0 shapeCasts_S1x256x4096_S256x4096 (ix2 d r) = _
      refine shapeCast_apply x0 _ (ix2 d r) (ix3 (0 : Fin 1) d r) ?_
      rw [Shape.rowMajor_val_two, Shape.rowMajor_val_three]
      show (0 * 256 + d.val) * 4096 + r.val = d.val * 4096 + r.val
      omega
    · show ((((IntOp.cmpi .eq
          (broadcastTo S24x4096 (iota .tc S24x1 32 [0] iota_S24x1_d0_w32) broadcasts_S24x1_S24x4096 (ix2 k r))
          (broadcastTo S24x4096 (shapeCast S1x4096 x1 shapeCasts_S1x1x4096_S1x4096) broadcasts_S1x4096_S24x4096 (ix2 k r))).setWidth 32).toInt : ℝ) : EReal) = _
      rw [rowword_at, labword_at, onehot_word]
      rfl

end PayloadAt

section Blocks

/-- The embedding block staged at point `t`: image `t / 4`, all channels, pixel tile `t % 4`. -/
private abbrev xblk (c : Dev nD) (t : Fin cfg0.N) : Vec Ideal S1x256x4096 .f32 := iblk0 V c 0 t
/-- The label block staged at point `t`: image `t / 4`, pixel tile `t % 4`. -/
private abbrev lblk (c : Dev nD) (t : Fin cfg0.N) : Vec Ideal S1x1x4096 .i32 := iblk0 V c 1 t
/-- What the output's staging buffer holds after the body at point `n`. -/
private abbrev accAt0 (c : Dev nD) (n : ℕ) (h : n < cfg0.N) : Vec Ideal S1x256x24 .f32 := outsAt0 V c n h

/-- The three windows' block indices at point `t`, decided over the 32 points: the inputs' blocks are (image, 0, tile),
    the output's is (image, 0, 0). -/
private theorem idx_facts : ∀ t : Fin cfg0.N,
    win0_0.index t (0 : Fin 3) = t.val / 4 ∧ win0_0.index t (1 : Fin 3) = 0 ∧ win0_0.index t (2 : Fin 3) = t.val % 4
    ∧ win0_1.index t (0 : Fin 3) = t.val / 4 ∧ win0_1.index t (1 : Fin 3) = 0 ∧ win0_1.index t (2 : Fin 3) = t.val % 4
    ∧ win0_2.index t (0 : Fin 3) = t.val / 4 ∧ win0_2.index t (1 : Fin 3) = 0 ∧ win0_2.index t (2 : Fin 3) = 0 :=
  (by decide +kernel : ∀ t : Fin grid0.N, _)

/-- Entry `(0, d, r)` of the embedding block at point `t` is the embedding array at image `t / 4`, channel `d`,
    pixel `(t % 4) * 4096 + r`. -/
private theorem xblk_apply (c : Dev nD) (t : Fin cfg0.N) (d : Fin 256) (r : Fin 4096) (b : Fin 8) (p : Fin 16384)
    (hb : b.val = t.val / 4) (hp : p.val = t.val % 4 * 4096 + r.val) :
    xblk V c t (ix3 (0 : Fin 1) d r) = aFeat V c (ix3 b d p) := by
  obtain ⟨e0, e1, e2, -⟩ := idx_facts t
  unfold xblk iblk0
  rw [View.read_apply]
  show V c main_v0 _ = V c main_v0 _
  congr 1
  funext a
  apply Fin.ext
  match a with
  | ⟨0, _⟩ => show win0_0.index t (0 : Fin 3) * 1 + 1 * 0 = b.val; rw [e0, hb]; omega
  | ⟨1, _⟩ => show win0_0.index t (1 : Fin 3) * 256 + 1 * d.val = d.val; rw [e1]; omega
  | ⟨2, _⟩ => show win0_0.index t (2 : Fin 3) * 4096 + 1 * r.val = p.val; rw [e2, hp]; omega

/-- Entry `(0, 0, r)` of the label block at point `t` is the label array at image `t / 4`, pixel `(t % 4) * 4096 + r`. -/
private theorem lblk_apply (c : Dev nD) (t : Fin cfg0.N) (r : Fin 4096) (b : Fin 8) (p : Fin 16384)
    (hb : b.val = t.val / 4) (hp : p.val = t.val % 4 * 4096 + r.val) :
    lblk V c t (ix3 (0 : Fin 1) (0 : Fin 1) r) = aLab V c (ix3 b (0 : Fin 1) p) := by
  obtain ⟨-, -, -, e0, e1, e2, -⟩ := idx_facts t
  unfold lblk iblk0
  rw [View.read_apply]
  show V c main_v1 _ = V c main_v1 _
  congr 1
  funext a
  apply Fin.ext
  match a with
  | ⟨0, _⟩ => show win0_1.index t (0 : Fin 3) * 1 + 1 * 0 = b.val; rw [e0, hb]; omega
  | ⟨1, _⟩ => show win0_1.index t (1 : Fin 3) * 1 + 1 * 0 = 0; rw [e1]
  | ⟨2, _⟩ => show win0_1.index t (2 : Fin 3) * 4096 + 1 * r.val = p.val; rw [e2, hp]; omega

end Blocks

section Invariant

/-- Tile `s` (of four) of image `b`'s pixel sum for channel `d` and class `k`: the 4096 pixels `s * 4096 + r`. Zero past
    the fourth tile, so that a partial sum can range over naturals. -/
private def tileSum (c : Dev nD) (b : Fin 8) (d : Fin 256) (k : Fin 24) (s : ℕ) : EReal :=
  if hs : s < 4 then
    ∑ r : Fin 4096, oh k.val (aLab V c (ix3 b (0 : Fin 1) (⟨s * 4096 + r.val, by have := r.isLt; omega⟩ : Fin 16384)))
      * aFeat V c (ix3 b d (⟨s * 4096 + r.val, by have := r.isLt; omega⟩ : Fin 16384))
  else 0

/-- The product's sum over the blocks staged at point `t` is tile `t % 4` of image `t / 4`: the blocks read the arrays
    there, and the two factors commute. -/
private theorem tile_eq (c : Dev nD) (t : Fin cfg0.N) (d : Fin 256) (k : Fin 24) (b : Fin 8) (hb : b.val = t.val / 4) :
    ∑ r : Fin 4096, xblk V c t (ix3 (0 : Fin 1) d r) * oh k.val (lblk V c t (ix3 (0 : Fin 1) (0 : Fin 1) r))
      = tileSum V c b d k (t.val % 4) := by
  unfold tileSum
  rw [dif_pos (Nat.mod_lt _ (by decide))]
  refine Finset.sum_congr rfl fun r _ => ?_
  have hr := r.isLt
  have hm : t.val % 4 < 4 := Nat.mod_lt _ (by decide)
  refine (congrArg₂ (· * ·)
    (xblk_apply V c t d r b ⟨t.val % 4 * 4096 + r.val, by omega⟩ hb rfl)
    (congrArg (oh k.val) (lblk_apply V c t r b ⟨t.val % 4 * 4096 + r.val, by omega⟩ hb rfl))).trans ?_
  exact mul_comm _ _

/-- At a point that resets, the buffer ends holding the point's tile alone. -/
private theorem acc_A (c : Dev nD) (d : Fin 256) (k : Fin 24) (t : Fin cfg0.N) (h0 : t.val % 4 = 0) (b : Fin 8) (hb : b.val = t.val / 4) :
    accAt0 V c t.val t.isLt (ix3 (0 : Fin 1) d k) = tileSum V c b d k 0 := by
  show outsAt0 V c t.val t.isLt (ix3 (0 : Fin 1) d k) = _
  rw [outsAt0_A V c t h0]
  refine (congrFun (out_A (F := Ideal) c (grid0.coords t) (ms0_0 t) (hs0_0 t) (ms0_1 t) (hs0_1 t) (ms0_2 t) (hs0_2 t)
    ((hcond0_0 t).mpr h0) (xblk V c t) (lblk V c t)) (ix3 (0 : Fin 1) d k)).trans ?_
  refine (pay2_apply (xblk V c t) (lblk V c t) (k0_pay1 (F := Ideal)) d k).trans ?_
  rw [pay1_apply, zero_add, tile_eq V c t d k b hb, h0]

/-- At any other point, it ends holding what the point before left plus the point's tile. -/
private theorem acc_B (c : Dev nD) (d : Fin 256) (k : Fin 24) (t : Fin cfg0.N) (h0 : ¬t.val % 4 = 0) (b : Fin 8) (hb : b.val = t.val / 4) :
    accAt0 V c t.val t.isLt (ix3 (0 : Fin 1) d k)
      = accAt0 V c (t.val - 1) (Nat.lt_of_le_of_lt (Nat.sub_le _ _) t.isLt) (ix3 (0 : Fin 1) d k) + tileSum V c b d k (t.val % 4) := by
  show outsAt0 V c t.val t.isLt (ix3 (0 : Fin 1) d k) = _
  rw [outsAt0_B V c t h0]
  refine (congrFun (out_B (F := Ideal) c (grid0.coords t) (ms0_0 t) (hs0_0 t) (ms0_1 t) (hs0_1 t) (ms0_2 t) (hs0_2 t)
    (fun h => h0 ((hcond0_0 t).mp h)) (xblk V c t) (lblk V c t)
    (accAt0 V c (t.val - 1) (Nat.lt_of_le_of_lt (Nat.sub_le _ _) t.isLt))) (ix3 (0 : Fin 1) d k)).trans ?_
  refine (pay2_apply (xblk V c t) (lblk V c t) (accAt0 V c (t.val - 1) (Nat.lt_of_le_of_lt (Nat.sub_le _ _) t.isLt)) d k).trans ?_
  rw [tile_eq V c t d k b hb]

/-- THE INVARIANT. After point `n` the buffer holds, at `(0, d, k)`, the tiles `0 … n % 4` of image `n / 4` added up:
    by induction on the point. -/
private theorem acc_eq (c : Dev nD) (d : Fin 256) (k : Fin 24) : ∀ (n : ℕ) (hn : n < cfg0.N) (b : Fin 8) (hb : b.val = n / 4),
    accAt0 V c n hn (ix3 (0 : Fin 1) d k) = ∑ s ∈ Finset.range (n % 4 + 1), tileSum V c b d k s
  | 0, hn, b, hb => by
    refine (acc_A V c d k ⟨0, hn⟩ rfl b hb).trans ?_
    exact (Finset.sum_range_one _).symm
  | n + 1, hn, b, hb => by
    by_cases h0 : (n + 1) % 4 = 0
    · refine (acc_A V c d k ⟨n + 1, hn⟩ h0 b hb).trans ?_
      rw [h0]
      exact (Finset.sum_range_one _).symm
    · refine (acc_B V c d k ⟨n + 1, hn⟩ h0 b hb).trans ?_
      have hb' : b.val = n / 4 := by omega
      have ih := acc_eq c d k n (Nat.lt_of_succ_lt hn) b hb'
      show accAt0 V c n _ (ix3 (0 : Fin 1) d k) + tileSum V c b d k ((n + 1) % 4) = _
      rw [ih, show (n + 1) % 4 = n % 4 + 1 by omega]
      exact (Finset.sum_range_succ _ _).symm

/-- The four tiles of an image are its 16384 pixels. -/
private theorem tiles_sum (c : Dev nD) (b : Fin 8) (d : Fin 256) (k : Fin 24) :
    ∑ s ∈ Finset.range 4, tileSum V c b d k s
      = ∑ p : Fin 16384, oh k.val (aLab V c (ix3 b (0 : Fin 1) p)) * aFeat V c (ix3 b d p) := by
  rw [Finset.sum_range]
  refine ((Cert.Lib.SegSum.sum_blocks 4 4096
    (fun p : Fin 16384 => oh k.val (aLab V c (ix3 b (0 : Fin 1) p)) * aFeat V c (ix3 b d p))).trans ?_).symm
  refine Finset.sum_congr rfl fun s _ => ?_
  unfold tileSum
  rw [dif_pos s.isLt]

end Invariant

section Array

/-- What the output array ends holding: at `(b, d, k)` the one-hot weighted sum of channel `d` over image `b`'s pixels. -/
private def G0 (c : Dev nD) : S8x256x24.Idx → EReal := fun i =>
  ∑ p : Fin 16384, oh (i 2).val (aLab V c (ix3 (n0 := 8) (i 0) (0 : Fin 1) p)) * aFeat V c (ix3 (n0 := 8) (n1 := 256) (i 0) (i 1) p)

/-- After the last point of an image the buffer holds that image's block of the array's final contents. -/
private theorem acc_last (c : Dev nD) (t : Fin cfg0.N) (h3 : t.val % 4 = 3) (y : S1x256x24.Idx) (i : S8x256x24.Idx)
    (h0 : (i 0).val = t.val / 4) (h1 : (i 1).val = (y 1).val) (h2 : (i 2).val = (y 2).val) :
    accAt0 V c t.val t.isLt y = G0 V c i := by
  obtain ⟨y0, d, k, rfl⟩ : ∃ (y0 : Fin 1) (d : Fin 256) (k : Fin 24), y = ix3 y0 d k := ⟨y 0, y 1, y 2, eq_ix3 y⟩
  obtain rfl : y0 = 0 := Subsingleton.elim _ _
  obtain ⟨b, d', k', rfl⟩ : ∃ (b : Fin 8) (d' : Fin 256) (k' : Fin 24), i = ix3 b d' k' := ⟨i 0, i 1, i 2, eq_ix3 i⟩
  obtain rfl : d' = d := Fin.ext h1
  obtain rfl : k' = k := Fin.ext h2
  rw [acc_eq V c d' k' t.val t.isLt b h0, h3, tiles_sum]
  rfl

/-- An index of the output array is in point `t`'s block when each coordinate is in the block's range on its axis. -/
private theorem mem_blk (t : Fin cfg0.N) (i : S8x256x24.Idx) :
    i ∈ ((cfg0.win 2).blk t).view.set ↔ ∀ a : Fin 3, win0_2.index t a * S1x256x24.size a ≤ (i a).val
      ∧ (i a).val < win0_2.index t a * S1x256x24.size a + S1x256x24.size a := by
  show i ∈ ((View.whole main_v2).slice (win0_2.rect t)).set ↔ _
  rw [View.set_slice_whole, Rect.mem_set_unit]
  exact Iff.rfl

/-- Reading a function of the output array's index through point `t`'s block: the function at the block's element. -/
private theorem read_blk2 (t : Fin cfg0.N) (j : ((cfg0.win 2).xblock (grid0.coords t)).Idx) (G : S8x256x24.Idx → EReal) :
    ((cfg0.win 2).blk t).view.read (Elt Ideal) G j = G (((cfg0.win 2).blk t).view.emb j) := rfl

/-- What a point that writes back writes is its block of the final contents. -/
private theorem flushed_eq (c : Dev nD) (t : Fin cfg0.N) (hf : (cfg0.win 2).flush t = true) :
    (dat0 (F := Ideal) V c).flushed 2 t = ((cfg0.win 2).blk t).view.read (Elt Ideal) (G0 V c) := by
  have h3 : t.val % 4 = 3 := (flush0_2 t).mp hf
  obtain ⟨-, -, -, -, -, -, e0, e1, e2⟩ := idx_facts t
  show (cfg0.win 2).cut (grid0.coords t) ((dat0 (F := Ideal) V c).after 2 t) = _
  rw [after0_2]
  funext j
  have hj0 : (j 0).val < 1 := (j 0).isLt
  refine Eq.trans ?_ (read_blk2 t j (G0 V c)).symm
  refine acc_last V c t h3 ((cfg0.win 2).xinj (grid0.coords t) j) (((cfg0.win 2).blk t).view.emb j) ?_ ?_ ?_
  · show win0_2.index t (0 : Fin 3) * 1 + 1 * (j 0).val = t.val / 4
    rw [e0]; omega
  · show win0_2.index t (1 : Fin 3) * 256 + 1 * (j 1).val = (j 1).val
    rw [e1]; omega
  · show win0_2.index t (2 : Fin 3) * 24 + 1 * (j 2).val = (j 2).val
    rw [e2]; omega

end Array

/-- Entry `(b, d, k)` of the first launch's output is channel `d` of image `b` summed over the pixels whose label is class `k`'s word. -/
theorem reg0_value (c : Dev nD) (b : Fin 8) (d : Fin 256) (k : Fin 24) :
    out0 V c (ix3 b d k) = ∑ p : Fin 16384, oh k.val (aLab V c (ix3 b 0 p)) * aFeat V c (ix3 b d p) := by
  have hN : cfg0.N = 32 := N_0
  have hb := b.isLt
  have ht : 4 * b.val + 3 < cfg0.N := by rw [hN]; omega
  have hf : (cfg0.win 2).flush ⟨4 * b.val + 3, ht⟩ = true := (flush0_2 ⟨4 * b.val + 3, ht⟩).mpr (by show (4 * b.val + 3) % 4 = 3; omega)
  refine ((dat0 (F := Ideal) V c).arrAt_apply_of_mem 2 (G0 V c) (fun t hf => flushed_eq V c t hf) cfg0.N ⟨4 * b.val + 3, ht⟩
    (ix3 b d k) ht hf ?_).trans rfl
  rw [mem_blk]
  obtain ⟨-, -, -, -, -, -, e0, e1, e2⟩ := idx_facts ⟨4 * b.val + 3, ht⟩
  intro a
  match a with
  | ⟨0, _⟩ =>
    show win0_2.index ⟨4 * b.val + 3, ht⟩ (0 : Fin 3) * 1 ≤ b.val ∧ b.val < win0_2.index ⟨4 * b.val + 3, ht⟩ (0 : Fin 3) * 1 + 1
    rw [e0]; show (4 * b.val + 3) / 4 * 1 ≤ b.val ∧ b.val < (4 * b.val + 3) / 4 * 1 + 1; omega
  | ⟨1, _⟩ =>
    show win0_2.index ⟨4 * b.val + 3, ht⟩ (1 : Fin 3) * 256 ≤ d.val ∧ d.val < win0_2.index ⟨4 * b.val + 3, ht⟩ (1 : Fin 3) * 256 + 256
    rw [e1]; have := d.isLt; omega
  | ⟨2, _⟩ =>
    show win0_2.index ⟨4 * b.val + 3, ht⟩ (2 : Fin 3) * 24 ≤ k.val ∧ k.val < win0_2.index ⟨4 * b.val + 3, ht⟩ (2 : Fin 3) * 24 + 24
    rw [e2]; have := k.isLt; omega

end Cert.EmbedLoss.KReg0

end
-- ==== Proof.KReg1.lean ====
/-
  The second launch: what its output array holds when it ends.

  The launch visits 8 images times 4 tiles of 4096 pixels. At a tile it forms, for each of the 24 classes `k` and each
  pixel `r` of the tile, the weight of class `k` at the pixel's label word, and for each pixel the term "one minus the
  cosine to the centroid the label selects", the dot product and the squared norm both selected by a sum against those
  weights; then it adds to entry `(0, k, 0)` of the staged output block the sum over the tile's pixels of weight times
  term. The block is zeroed at an image's first tile and written back after its last, so entry `(b, k, 0)` of the
  array ends as the sum over the four tiles, that is over all 16384 pixels of image `b`: a sum over `4 * 4096` pixels
  is the sum over the 4 tiles of each tile's sum, sums of extended reals being commutative and associative.

  In order: what the body's stores leave, as the accumulation applied to the staged blocks; the layout steps, the three
  one-axis sums, the contraction and the one-hot word read at explicit coordinates; the four blocks the body computes
  read at coordinates; each staged block as entries of its array; one tile's contribution from the blocks and from the
  arrays; the running contents after tile `j` of an image by induction on `j`; the block a write-back writes and the
  cover of the array by the write-backs.
-/
import proofs.«421729_j51522427682923_2_alg».proof.Proof.KArr
import proofs.«421729_j51522427682923_2_alg».proof.Proof.LibSegSum
import Idealize.ShloMosaic.Lib.Pipeline.Value
import Idealize.ShloMosaic.PureOps.Ideal.Laws
import Idealize.ShloMosaic.Lib.Tactic

set_option maxRecDepth 16384

noncomputable section

open scoped BigOperators

namespace Cert.EmbedLoss.KReg1

open Cert.EmbedLoss Cert.EmbedLoss.KArr Cert.KernelIdeal Cert.KernelIdeal.Gen
open Idealize.ShloMosaic Idealize.ShloMosaic.TcCoe Idealize.ShloMosaic.ValueIdx Idealize.SL.Sem

variable (V : (c : Dev nD) → (b : Ref sig .tc) → Buf (Elt Ideal) ((c : Thread nD τ).loc b))

/-- The zero offsets of a rank-3 access, as a constant function. -/
theorem hz3 : (![0, 0, 0] : Fin 3 → Nat) = fun _ => 0 := funext fun a => by fin_cases a <;> rfl
/-- The zero offsets of a rank-2 access, as a constant function. -/
theorem hz2 : (![0, 0] : Fin 2 → Nat) = fun _ => 0 := funext fun a => by fin_cases a <;> rfl

/-! ## What the body's stores leave in the output block

At a tile that is not an image's first the body makes one store over the whole block: the accumulation of what the
block held. At an image's first tile it first stores the zero block and then the accumulation of those zeros, the
later store covering the earlier. Both are stated for any float values. -/

section Pieces
variable {F : FTy → Type} [FloatOps F]

/-- A later tile: the block ends as the accumulation, over what it held, of the one-hot block times the term block. -/
theorem outB_eq (c : Dev nD) (i : grid1.Coords) (arg2 : Memref sig .tc .vmem S1x256x4096 .f32) (harg2 : arg2.IsWhole) (arg3 : Memref sig .tc .vmem S1x1x4096 .i32) (harg3 : arg3.IsWhole) (arg4 : Memref sig .tc .vmem S256x24 .f32) (harg4 : arg4.IsWhole) (arg5 : Memref sig .tc .vmem S24x1 .f32) (harg5 : arg5.IsWhole) (arg6 : Memref sig .tc .vmem S1x24x1 .f32) (harg6 : arg6.IsWhole) (hc0 : ¬cond1_0 i)
    (x0 : Vec F S1x256x4096 .f32) (x1 : Vec F S1x1x4096 .i32) (x2 : Vec F S256x24 .f32) (x3 : Vec F S24x1 .f32) (xo4 : Vec F S1x24x1 .f32) :
    out1_B_4 c i arg2 harg2 arg3 harg3 arg4 harg4 arg5 harg5 arg6 harg6 hc0 x0 x1 x2 x3 xo4
      = k1_pay1 (k1_pay3 x1) (k1_pay4 x0 x1 x2 x3) xo4 := by
  unfold out1_B_4
  rw [View.read_writes_eq_canon _ _ _ (cover1_B_4 c i arg2 harg2 arg3 harg3 arg4 harg4 arg5 harg5 arg6 harg6 hc0 x0 x1 x2 x3 xo4)]
  unfold kernelRun1_B
  dsimp only
  sl_unfold_words
  rw [View.canon_unit_zero hz3]
  simp only [View.readAt_eq_ld, harg2.read_unread, harg3.read_unread, harg4.read_unread, harg5.read_unread, harg6.read_unread,
    View.ld_unit_zero (S := S1x256x4096) hz3, View.ld_unit_zero (S := S1x1x4096) hz3, View.ld_unit_zero (S := S256x24) hz2,
    View.ld_unit_zero (S := S24x1) hz2, View.ld_unit_zero (S := S1x24x1) hz3]

/-- An image's first tile: the same accumulation over the zero block. -/
theorem outA_eq (c : Dev nD) (i : grid1.Coords) (arg2 : Memref sig .tc .vmem S1x256x4096 .f32) (harg2 : arg2.IsWhole) (arg3 : Memref sig .tc .vmem S1x1x4096 .i32) (harg3 : arg3.IsWhole) (arg4 : Memref sig .tc .vmem S256x24 .f32) (harg4 : arg4.IsWhole) (arg5 : Memref sig .tc .vmem S24x1 .f32) (harg5 : arg5.IsWhole) (arg6 : Memref sig .tc .vmem S1x24x1 .f32) (harg6 : arg6.IsWhole) (hc0 : cond1_0 i)
    (x0 : Vec F S1x256x4096 .f32) (x1 : Vec F S1x1x4096 .i32) (x2 : Vec F S256x24 .f32) (x3 : Vec F S24x1 .f32) :
    out1_A_4 c i arg2 harg2 arg3 harg3 arg4 harg4 arg5 harg5 arg6 harg6 hc0 x0 x1 x2 x3
      = k1_pay1 (k1_pay3 x1) (k1_pay4 x0 x1 x2 x3) (k1_pay2 (F := F)) := by
  unfold out1_A_4
  rw [View.read_writes_eq_canon _ _ _ (cover1_A_4 c i arg2 harg2 arg3 harg3 arg4 harg4 arg5 harg5 arg6 harg6 hc0 x0 x1 x2 x3)]
  unfold kernelRun1_A
  dsimp only
  sl_unfold_words
  rw [View.canon_cons_unit_zero (S := S1x24x1) hz3, View.readCov_unit_zero (S := S1x24x1) _ hz3]
  simp only [View.readAt_eq_ld, harg2.read_unread, harg3.read_unread, harg4.read_unread, harg5.read_unread,
    View.ld_unit_zero (S := S1x256x4096) hz3, View.ld_unit_zero (S := S1x1x4096) hz3, View.ld_unit_zero (S := S256x24) hz2,
    View.ld_unit_zero (S := S24x1) hz2]

end Pieces

/-! ## Layout steps read at explicit coordinates

A shape cast keeps the row-major position, so dropping or adding a unit axis keeps the other coordinates; a broadcast
reads coordinate 0 on the operand's unit axes. -/

section Layout
variable {α : Type}

/-- `[1, 256, 4096]` viewed `[256, 4096]`. -/
theorem sc_feat (v : S1x256x4096.Idx → α) (h : S1x256x4096.ShapeCasts S256x4096) (d : Fin 256) (r : Fin 4096) :
    shapeCast S256x4096 v h (ix2 d r) = v (ix3 0 d r) :=
  shapeCast_apply v h (ix2 d r) (ix3 0 d r) (by
    rw [Shape.rowMajor_val_three, Shape.rowMajor_val_two]
    show ((0 : ℕ) * 256 + d.val) * 4096 + r.val = d.val * 4096 + r.val
    omega)

/-- `[1, 1, 4096]` viewed `[1, 4096]`. -/
theorem sc_lab (v : S1x1x4096.Idx → α) (h : S1x1x4096.ShapeCasts S1x4096) (r : Fin 4096) :
    shapeCast S1x4096 v h (ix2 0 r) = v (ix3 0 0 r) :=
  shapeCast_apply v h (ix2 0 r) (ix3 0 0 r) (by
    rw [Shape.rowMajor_val_three, Shape.rowMajor_val_two]
    show ((0 : ℕ) * 1 + 0) * 4096 + r.val = 0 * 4096 + r.val
    omega)

/-- `[4096]` viewed `[1, 4096]`. -/
theorem sc_row (v : S4096.Idx → α) (h : S4096.ShapeCasts S1x4096) (r : Fin 4096) :
    shapeCast S1x4096 v h (ix2 0 r) = v (ix1 r) :=
  shapeCast_apply v h (ix2 0 r) (ix1 r) (by
    rw [Shape.rowMajor_val_one, Shape.rowMajor_val_two]
    show r.val = 0 * 4096 + r.val
    omega)

/-- `[24]` viewed `[24, 1]`. -/
theorem sc_col (v : S24.Idx → α) (h : S24.ShapeCasts S24x1) (k : Fin 24) :
    shapeCast S24x1 v h (ix2 k 0) = v (ix1 k) :=
  shapeCast_apply v h (ix2 k 0) (ix1 k) (by
    rw [Shape.rowMajor_val_one, Shape.rowMajor_val_two]
    show k.val = k.val * 1 + 0
    omega)

/-- `[1, 24, 1]` viewed `[24, 1]`. -/
theorem sc_acc_in (v : S1x24x1.Idx → α) (h : S1x24x1.ShapeCasts S24x1) (k : Fin 24) :
    shapeCast S24x1 v h (ix2 k 0) = v (ix3 0 k 0) :=
  shapeCast_apply v h (ix2 k 0) (ix3 0 k 0) (by
    rw [Shape.rowMajor_val_three, Shape.rowMajor_val_two]
    show ((0 : ℕ) * 24 + k.val) * 1 + 0 = k.val * 1 + 0
    omega)

/-- `[24, 1]` viewed `[1, 24, 1]`. -/
theorem sc_acc_out (v : S24x1.Idx → α) (h : S24x1.ShapeCasts S1x24x1) (k : Fin 24) :
    shapeCast S1x24x1 v h (ix3 0 k 0) = v (ix2 k 0) :=
  shapeCast_apply v h (ix3 0 k 0) (ix2 k 0) (by
    rw [Shape.rowMajor_val_three, Shape.rowMajor_val_two]
    show k.val * 1 + 0 = ((0 : ℕ) * 24 + k.val) * 1 + 0
    omega)

/-- A column `[24, 1]` broadcast along the lanes. -/
theorem bc_col (v : S24x1.Idx → α) (h : S24x1.Broadcasts S24x4096) (k : Fin 24) (r : Fin 4096) :
    broadcastTo S24x4096 v h (ix2 k r) = v (ix2 k 0) :=
  broadcastTo_apply v h (ix2 k r) (ix2 k 0) (fun a => match a with
    | ⟨0, _⟩ => rfl
    | ⟨1, _⟩ => rfl)

/-- A row `[1, 4096]` broadcast along the classes. -/
theorem bc_row (v : S1x4096.Idx → α) (h : S1x4096.Broadcasts S24x4096) (k : Fin 24) (r : Fin 4096) :
    broadcastTo S24x4096 v h (ix2 k r) = v (ix2 0 r) :=
  broadcastTo_apply v h (ix2 k r) (ix2 0 r) (fun a => match a with
    | ⟨0, _⟩ => rfl
    | ⟨1, _⟩ => rfl)

end Layout

/-! ## The three one-axis sums

Over the extended reals a sum along one axis is the sum over that axis's coordinate of the entries with the coordinate
inserted. -/

/-- Along the 4096 lanes of a `[24, 4096]` block. -/
theorem red_pix (src : FVec Ideal S24x4096 .f32) (h : S24x4096.Reduces [1] S24) (hφ : FKind.Formats .f32)
    (hacc : (0x00000000#32 : BitVec 32) = FKind.add.neutral .f32 hφ) (k : Fin 24) :
    multiReduction (F := Ideal) .add [1] S24 src 0x00000000#32 h hφ hacc (ix1 k) = ∑ r : Fin 4096, src (ix2 k r) := by
  refine (Ideal.multiReduction_add_single src 0x00000000#32 h hφ hacc (ix1 k)).trans ?_
  refine Finset.sum_congr rfl fun r _ => congrArg src (funext fun a => Fin.ext ?_)
  match a with
  | ⟨0, _⟩ => rfl
  | ⟨1, _⟩ => rfl

/-- Along the 24 classes of a `[24, 4096]` block. -/
theorem red_cls (src : FVec Ideal S24x4096 .f32) (h : S24x4096.Reduces [0] S4096) (hφ : FKind.Formats .f32)
    (hacc : (0x00000000#32 : BitVec 32) = FKind.add.neutral .f32 hφ) (r : Fin 4096) :
    multiReduction (F := Ideal) .add [0] S4096 src 0x00000000#32 h hφ hacc (ix1 r) = ∑ j : Fin 24, src (ix2 j r) := by
  refine (Ideal.multiReduction_add_single src 0x00000000#32 h hφ hacc (ix1 r)).trans ?_
  refine Finset.sum_congr rfl fun j _ => congrArg src (funext fun a => Fin.ext ?_)
  match a with
  | ⟨0, _⟩ => rfl
  | ⟨1, _⟩ => rfl

/-- Along the 256 channels of a `[256, 4096]` block. -/
theorem red_chan (src : FVec Ideal S256x4096 .f32) (h : S256x4096.Reduces [0] S4096) (hφ : FKind.Formats .f32)
    (hacc : (0x00000000#32 : BitVec 32) = FKind.add.neutral .f32 hφ) (r : Fin 4096) :
    multiReduction (F := Ideal) .add [0] S4096 src 0x00000000#32 h hφ hacc (ix1 r) = ∑ d : Fin 256, src (ix2 d r) := by
  refine (Ideal.multiReduction_add_single src 0x00000000#32 h hφ hacc (ix1 r)).trans ?_
  refine Finset.sum_congr rfl fun d _ => congrArg src (funext fun a => Fin.ext ?_)
  match a with
  | ⟨0, _⟩ => rfl
  | ⟨1, _⟩ => rfl

/-! ## The contraction

Both operands are contracted on their channel axis into a zero accumulator: entry `(j, r)` is the sum over the
channels `d` of `lhs (d, j) * rhs (d, r)`. -/

theorem mm_apply (lhs : FVec Ideal S256x24 .bf16) (rhs : FVec Ideal S256x4096 .bf16) (j : Fin 24) (r : Fin 4096) :
    matmul (F := Ideal) dot_S256x24_S256x4096_S24x4096_0_0_1_1_n_n none lhs rhs (constant S24x4096 .f32 0x00000000#32) (ix2 j r)
      = ∑ d : Fin 256, lhs (ix2 d j) * rhs (ix2 d r) :=
  (Ideal.matmul_constant_zero_apply dot_S256x24_S256x4096_S24x4096_0_0_1_1_n_n none lhs rhs (ix2 j r)).trans
    (Cert.Lib.SegSum.ohDot_sum dot_S256x24_S256x4096_S24x4096_0_0_1_1_n_n.wf lhs rhs (ix2 j r))

/-! ## The one-hot word

The comparison of class `k`'s word with a label word, widened to 32 bits and read as a signed integer, is 1 when the
label is that word and 0 otherwise. -/

theorem onehot_word (k : ℕ) (l : BitVec 32) :
    (((IntOp.cmpi .eq (BitVec.ofNat 32 k) l).setWidth 32).toInt : ℝ) = (if l = BitVec.ofNat 32 k then (1 : ℝ) else 0) := by
  unfold IntOp.cmpi
  by_cases h : l = BitVec.ofNat 32 k
  · subst h
    rw [if_pos rfl]
    simp
  · rw [if_neg h]
    have hne : (BitVec.ofNat 32 k == l) = false := by
      rw [beq_eq_false_iff_ne]; exact fun e => h e.symm
    simp [hne]

/-! ## The payloads read at explicit coordinates -/

/-- An integer comparison at an index compares the elements. -/
theorem cmpi_at {s : Shape} {w : Nat} (p : CmpIPredicate) (x y : IVec s w) (i : s.Idx) : cmpi p x y i = IntOp.cmpi p (x i) (y i) := rfl
/-- A square root at an index is the square root of the element. -/
theorem sqrt_at {s : Shape} {φ : FTy} (v : FVec Ideal s φ) (i : s.Idx) : sqrt v i = Ideal.sqrt (v i) := rfl

/-- The one-hot word as an extended real is the weight `oh`. -/
theorem onehot_ereal (k : ℕ) (l : BitVec 32) :
    ((((IntOp.cmpi .eq (BitVec.ofNat 32 k) l).setWidth 32).toInt : ℝ) : EReal) = oh k l := by
  rw [onehot_word]; unfold oh; split_ifs <;> simp

/-- The zero block. -/
theorem pay2_apply (k : Fin 24) : k1_pay2 (F := Ideal) (ix3 0 k 0) = 0 := by
  unfold k1_pay2
  refine (sc_acc_out _ _ k).trans ?_
  exact Ideal.ofBits_zero_f32

/-- The one-hot block: row `k`, lane `r` is the weight of class `k` at lane `r`'s label word. -/
theorem pay3_apply (x1 : S1x1x4096.Idx → BitVec 32) (k : Fin 24) (r : Fin 4096) :
    k1_pay3 (F := Ideal) x1 (ix2 k r) = oh k.val (x1 (ix3 0 0 r)) := by
  unfold k1_pay3
  refine Eq.trans ?_ (onehot_ereal k.val (x1 (ix3 0 0 r)))
  refine (sitofp_apply _ _).trans ?_
  show ((((cmpi .eq _ _ (ix2 k r)).setWidth 32).toInt : ℝ) : EReal) = _
  rw [cmpi_at, bc_col, bc_row, sc_lab, iota_single_apply]

/-- The accumulation: what was there plus the lane sum of the product of the two blocks. -/
theorem pay1_apply (v13 v38 : FVec Ideal S24x4096 .f32) (v42 : S1x24x1.Idx → EReal) (k : Fin 24) :
    k1_pay1 (F := Ideal) v13 v38 v42 (ix3 0 k 0) = v42 (ix3 0 k 0) + ∑ r : Fin 4096, v13 (ix2 k r) * v38 (ix2 k r) := by
  unfold k1_pay1
  refine (sc_acc_out _ _ k).trans ?_
  refine (addf_apply _ _ _).trans ?_
  refine congrArg₂ (· + ·) (sc_acc_in v42 _ k) ?_
  refine (sc_col _ _ k).trans ?_
  exact red_pix _ _ _ _ k

/-- The per-pixel term of a tile, from the tile's blocks: one minus the selected dot product over the floored product of the norms. -/
def termBlk (x0 : S1x256x4096.Idx → EReal) (x1 : S1x1x4096.Idx → BitVec 32) (x2 : S256x24.Idx → EReal) (x3 : S24x1.Idx → EReal)
    (r : Fin 4096) : EReal :=
  one - Ideal.div (∑ j : Fin 24, oh j.val (x1 (ix3 0 0 r)) * ∑ d : Fin 256, x2 (ix2 d j) * x0 (ix3 0 d r))
    (max (Ideal.sqrt (∑ d : Fin 256, x0 (ix3 0 d r) * x0 (ix3 0 d r)) * Ideal.sqrt (∑ j : Fin 24, oh j.val (x1 (ix3 0 0 r)) * x3 (ix2 j 0))) eps)

/-- The term block: every row `k` holds, at lane `r`, the tile's per-pixel term of pixel `r`. -/
theorem pay4_apply (x0 : S1x256x4096.Idx → EReal) (x1 : S1x1x4096.Idx → BitVec 32) (x2 : S256x24.Idx → EReal) (x3 : S24x1.Idx → EReal)
    (k : Fin 24) (r : Fin 4096) :
    k1_pay4 (F := Ideal) x0 x1 x2 x3 (ix2 k r) = termBlk x0 x1 x2 x3 r := by
  unfold k1_pay4 termBlk
  refine (bc_row _ _ k r).trans ?_
  refine (subf_apply _ _ _).trans ?_
  refine congrArg₂ (· - ·) rfl ?_
  refine (divf_apply _ _ _).trans ?_
  refine congrArg₂ Ideal.div ?num ?den
  case num =>
    refine (sc_row _ _ r).trans ?_
    refine (red_cls _ _ _ _ r).trans ?_
    refine Finset.sum_congr rfl fun j _ => ?_
    refine (mulf_apply _ _ _).trans ?_
    refine congrArg₂ (· * ·) (pay3_apply x1 j r) ?_
    refine (mm_apply _ _ j r).trans ?_
    refine Finset.sum_congr rfl fun d _ => ?_
    refine congrArg₂ (· * ·) ?_ ?_
    · exact congrFun (shapeCast_self x2 _) (ix2 d j)
    · exact sc_feat x0 _ d r
  case den =>
    refine (maximumf_apply _ _ _).trans ?_
    refine congrArg₂ max ?_ rfl
    refine (mulf_apply _ _ _).trans ?_
    refine congrArg₂ (· * ·) ?_ ?_
    · refine (sqrt_at _ _).trans (congrArg Ideal.sqrt ?_)
      refine (sc_row _ _ r).trans ?_
      refine (red_chan _ _ _ _ r).trans ?_
      refine Finset.sum_congr rfl fun d _ => ?_
      refine (mulf_apply _ _ _).trans ?_
      exact congrArg₂ (· * ·) (sc_feat x0 _ d r) (sc_feat x0 _ d r)
    · refine (sqrt_at _ _).trans (congrArg Ideal.sqrt ?_)
      refine (sc_row _ _ r).trans ?_
      refine (red_cls _ _ _ _ r).trans ?_
      refine Finset.sum_congr rfl fun j _ => ?_
      refine (mulf_apply _ _ _).trans ?_
      refine congrArg₂ (· * ·) (pay3_apply x1 j r) ?_
      refine (bc_col _ _ j r).trans ?_
      exact congrFun (shapeCast_self x3 _) (ix2 j 0)

/-! ## The blocks and the running contents at their literal types

Point `t` of the grid is tile `t % 4` of image `t / 4`. The first two windows stage block `(t / 4, 0, t % 4)` of the
embeddings and of the labels; the next two stage the whole centroid table and the whole squared-norm column at every
point; the output window stages block `(t / 4, 0, 0)`. A block's entry sits in its array, on each axis, at the block
index times the block's extent plus the entry's own coordinate. -/

/-- The embeddings' block at point `t`. -/
abbrev bFeat (c : Dev nD) (t : Fin cfg1.N) : S1x256x4096.Idx → EReal := iblk1 (F := Ideal) V c 0 t
/-- The labels' block at point `t`. -/
abbrev bLab (c : Dev nD) (t : Fin cfg1.N) : S1x1x4096.Idx → BitVec 32 := iblk1 (F := Ideal) V c 1 t
/-- The centroid table as staged at point `t`. -/
abbrev bCen (c : Dev nD) (t : Fin cfg1.N) : S256x24.Idx → EReal := iblk1 (F := Ideal) V c 2 t
/-- The squared-norm column as staged at point `t`. -/
abbrev bNc2 (c : Dev nD) (t : Fin cfg1.N) : S24x1.Idx → EReal := iblk1 (F := Ideal) V c 3 t
/-- What the staged output block holds after point `n`. -/
abbrev accAfter (c : Dev nD) (n : ℕ) (h : n < cfg1.N) : S1x24x1.Idx → EReal := outsAt1 (F := Ideal) V c n h

/-- The windows' block indices at a point, decided over the 32 points. -/
theorem idx_feat : ∀ t : Fin cfg1.N, win1_0.index t 0 = t.val / 4 ∧ win1_0.index t 1 = 0 ∧ win1_0.index t 2 = t.val % 4 :=
  (by decide +kernel : ∀ t : Fin grid1.N, win1_0.index t 0 = t.val / 4 ∧ win1_0.index t 1 = 0 ∧ win1_0.index t 2 = t.val % 4)
theorem idx_lab : ∀ t : Fin cfg1.N, win1_1.index t 0 = t.val / 4 ∧ win1_1.index t 1 = 0 ∧ win1_1.index t 2 = t.val % 4 :=
  (by decide +kernel : ∀ t : Fin grid1.N, win1_1.index t 0 = t.val / 4 ∧ win1_1.index t 1 = 0 ∧ win1_1.index t 2 = t.val % 4)
theorem idx_cen : ∀ t : Fin cfg1.N, win1_2.index t 0 = 0 ∧ win1_2.index t 1 = 0 :=
  (by decide +kernel : ∀ t : Fin grid1.N, win1_2.index t 0 = 0 ∧ win1_2.index t 1 = 0)
theorem idx_nc2 : ∀ t : Fin cfg1.N, win1_3.index t 0 = 0 ∧ win1_3.index t 1 = 0 :=
  (by decide +kernel : ∀ t : Fin grid1.N, win1_3.index t 0 = 0 ∧ win1_3.index t 1 = 0)
theorem idx_out : ∀ t : Fin cfg1.N, win1_4.index t 0 = t.val / 4 ∧ win1_4.index t 1 = 0 ∧ win1_4.index t 2 = 0 :=
  (by decide +kernel : ∀ t : Fin grid1.N, win1_4.index t 0 = t.val / 4 ∧ win1_4.index t 1 = 0 ∧ win1_4.index t 2 = 0)

/-- Entry `(0, d, r)` of the embeddings' block is the array's `(t / 4, d, (t % 4) * 4096 + r)`. -/
theorem bFeat_apply (c : Dev nD) (t : Fin cfg1.N) (d : Fin 256) (r : Fin 4096) (b : Fin 8) (p : Fin 16384)
    (hb : b.val = t.val / 4) (hp : p.val = t.val % 4 * 4096 + r.val) :
    bFeat V c t (ix3 0 d r) = aFeat V c (ix3 b d p) := by
  obtain ⟨e0, e1, e2⟩ := idx_feat t
  show iblk1 (F := Ideal) V c 0 t (ix3 0 d r) = _
  unfold iblk1
  rw [View.read_apply]
  show V c main_v0 _ = V c main_v0 _
  refine congrArg (V c main_v0) (funext fun a => Fin.ext ?_)
  match a with
  | ⟨0, _⟩ => show win1_0.index t 0 * 1 + 1 * 0 = b.val; rw [e0, hb]; omega
  | ⟨1, _⟩ => show win1_0.index t 1 * 256 + 1 * d.val = d.val; rw [e1]; omega
  | ⟨2, _⟩ => show win1_0.index t 2 * 4096 + 1 * r.val = p.val; rw [e2, hp]; omega

/-- Entry `(0, 0, r)` of the labels' block is the array's `(t / 4, 0, (t % 4) * 4096 + r)`. -/
theorem bLab_apply (c : Dev nD) (t : Fin cfg1.N) (r : Fin 4096) (b : Fin 8) (p : Fin 16384)
    (hb : b.val = t.val / 4) (hp : p.val = t.val % 4 * 4096 + r.val) :
    bLab V c t (ix3 0 0 r) = aLab V c (ix3 b 0 p) := by
  obtain ⟨e0, e1, e2⟩ := idx_lab t
  show iblk1 (F := Ideal) V c 1 t (ix3 0 0 r) = _
  unfold iblk1
  rw [View.read_apply]
  show V c main_v1 _ = V c main_v1 _
  refine congrArg (V c main_v1) (funext fun a => Fin.ext ?_)
  match a with
  | ⟨0, _⟩ => show win1_1.index t 0 * 1 + 1 * 0 = b.val; rw [e0, hb]; omega
  | ⟨1, _⟩ => show win1_1.index t 1 * 1 + 1 * 0 = 0; rw [e1]
  | ⟨2, _⟩ => show win1_1.index t 2 * 4096 + 1 * r.val = p.val; rw [e2, hp]; omega

/-- The staged centroid table is the array. -/
theorem bCen_apply (c : Dev nD) (t : Fin cfg1.N) (d : Fin 256) (j : Fin 24) :
    bCen V c t (ix2 d j) = aCen V c (ix2 d j) := by
  obtain ⟨e0, e1⟩ := idx_cen t
  show iblk1 (F := Ideal) V c 2 t (ix2 d j) = _
  unfold iblk1
  rw [View.read_apply]
  show V c main_v13 _ = V c main_v13 _
  refine congrArg (V c main_v13) (funext fun a => Fin.ext ?_)
  match a with
  | ⟨0, _⟩ => show win1_2.index t 0 * 256 + 1 * d.val = d.val; rw [e0]; omega
  | ⟨1, _⟩ => show win1_2.index t 1 * 24 + 1 * j.val = j.val; rw [e1]; omega

/-- The staged squared-norm column is the array. -/
theorem bNc2_apply (c : Dev nD) (t : Fin cfg1.N) (j : Fin 24) :
    bNc2 V c t (ix2 j 0) = aNc2 V c (ix2 j 0) := by
  obtain ⟨e0, e1⟩ := idx_nc2 t
  show iblk1 (F := Ideal) V c 3 t (ix2 j 0) = _
  unfold iblk1
  rw [View.read_apply]
  show V c main_v16 _ = V c main_v16 _
  refine congrArg (V c main_v16) (funext fun a => Fin.ext ?_)
  match a with
  | ⟨0, _⟩ => show win1_3.index t 0 * 24 + 1 * j.val = j.val; rw [e0]; omega
  | ⟨1, _⟩ => show win1_3.index t 1 * 1 + 1 * 0 = 0; rw [e1]

/-! ## One tile's contribution -/

/-- Pixel `r` of tile `s` (taken mod 4) among an image's pixels. -/
def pixOf (s : ℕ) (r : Fin 4096) : Fin 16384 :=
  ⟨s % 4 * 4096 + r.val, by have := r.isLt; have := Nat.mod_lt s (show 0 < 4 by decide); omega⟩

/-- The term of pixel `p` of image `b` under the weight of class `k`, from the arrays the launch is given. -/
def pixTerm (c : Dev nD) (b : Fin 8) (k : Fin 24) (p : Fin 16384) : EReal :=
  oh k.val (aLab V c (ix3 b 0 p))
    * wPix (fun d p => aFeat V c (ix3 b d p)) (fun p => aLab V c (ix3 b 0 p))
        (fun d j => aCen V c (ix2 d j)) (fun j => aNc2 V c (ix2 j 0)) p

/-- Tile `s`'s contribution to entry `(b, k)`. -/
def tileTerm (c : Dev nD) (b : Fin 8) (k : Fin 24) (s : ℕ) : EReal := ∑ r : Fin 4096, pixTerm V c b k (pixOf s r)

/-- The same from the blocks staged at point `t`. -/
def tileSum (c : Dev nD) (t : Fin cfg1.N) (k : Fin 24) : EReal :=
  ∑ r : Fin 4096, oh k.val (bLab V c t (ix3 0 0 r)) * termBlk (bFeat V c t) (bLab V c t) (bCen V c t) (bNc2 V c t) r

/-- In array coordinates the blocks' contribution at point `t` is tile `t % 4`'s of image `t / 4`. -/
theorem tileSum_eq (c : Dev nD) (t : Fin cfg1.N) (b : Fin 8) (hb : b.val = t.val / 4) (k : Fin 24) :
    tileSum V c t k = tileTerm V c b k (t.val % 4) := by
  unfold tileSum tileTerm
  refine Finset.sum_congr rfl fun r _ => ?_
  have hp : (pixOf (t.val % 4) r).val = t.val % 4 * 4096 + r.val := by
    show t.val % 4 % 4 * 4096 + r.val = _
    rw [Nat.mod_mod]
  have eL := bLab_apply V c t r b (pixOf (t.val % 4) r) hb hp
  have eF := fun d => bFeat_apply V c t d r b (pixOf (t.val % 4) r) hb hp
  unfold pixTerm termBlk wPix
  refine congrArg₂ (· * ·) (congrArg (oh k.val) eL) ?_
  refine congrArg₂ (· - ·) rfl (congrArg₂ Ideal.div ?_ (congrArg₂ max (congrArg₂ (· * ·) (congrArg Ideal.sqrt ?_) (congrArg Ideal.sqrt ?_)) rfl))
  · refine Finset.sum_congr rfl fun j _ => congrArg₂ (· * ·) (congrArg (oh j.val) eL) ?_
    exact Finset.sum_congr rfl fun d _ => congrArg₂ (· * ·) (bCen_apply V c t d j) (eF d)
  · exact Finset.sum_congr rfl fun d _ => congrArg₂ (· * ·) (eF d) (eF d)
  · exact Finset.sum_congr rfl fun j _ => congrArg₂ (· * ·) (congrArg (oh j.val) eL) (bNc2_apply V c t j)

/-! ## What each case leaves at `(0, k, 0)` -/

/-- An image's first tile leaves `0 +` its contribution. -/
theorem accA (c : Dev nD) (t : Fin cfg1.N) (h0 : t.val % 4 = 0) (k : Fin 24) :
    accAfter V c t.val t.isLt (ix3 0 k 0) = tileSum V c t k := by
  show outsAt1 (F := Ideal) V c t.val t.isLt (ix3 0 k 0) = _
  rw [outsAt1_A V c t h0]
  refine (congrFun (outA_eq (F := Ideal) c (grid1.coords t) (ms1_0 t) (hs1_0 t) (ms1_1 t) (hs1_1 t) (ms1_2 t) (hs1_2 t) (ms1_3 t) (hs1_3 t) (ms1_4 t) (hs1_4 t)
    ((hcond1_0 t).mpr h0) (bFeat V c t) (bLab V c t) (bCen V c t) (bNc2 V c t)) (ix3 0 k 0)).trans ?_
  refine (pay1_apply (k1_pay3 (F := Ideal) (bLab V c t)) (k1_pay4 (F := Ideal) (bFeat V c t) (bLab V c t) (bCen V c t) (bNc2 V c t)) (k1_pay2 (F := Ideal)) k).trans ?_
  rw [pay2_apply, zero_add]
  unfold tileSum
  exact Finset.sum_congr rfl fun r _ => congrArg₂ (· * ·) (pay3_apply (bLab V c t) k r)
    (pay4_apply (bFeat V c t) (bLab V c t) (bCen V c t) (bNc2 V c t) k r)

/-- A later tile adds its contribution to what the point before left. -/
theorem accB (c : Dev nD) (t : Fin cfg1.N) (h0 : ¬t.val % 4 = 0) (k : Fin 24) :
    accAfter V c t.val t.isLt (ix3 0 k 0)
      = accAfter V c (t.val - 1) (Nat.lt_of_le_of_lt (Nat.sub_le _ _) t.isLt) (ix3 0 k 0) + tileSum V c t k := by
  show outsAt1 (F := Ideal) V c t.val t.isLt (ix3 0 k 0) = _
  rw [outsAt1_B V c t h0]
  refine (congrFun (outB_eq (F := Ideal) c (grid1.coords t) (ms1_0 t) (hs1_0 t) (ms1_1 t) (hs1_1 t) (ms1_2 t) (hs1_2 t) (ms1_3 t) (hs1_3 t) (ms1_4 t) (hs1_4 t)
    (fun h => h0 ((hcond1_0 t).mp h)) (bFeat V c t) (bLab V c t) (bCen V c t) (bNc2 V c t)
    (accAfter V c (t.val - 1) (Nat.lt_of_le_of_lt (Nat.sub_le _ _) t.isLt))) (ix3 0 k 0)).trans ?_
  refine (pay1_apply (k1_pay3 (F := Ideal) (bLab V c t)) (k1_pay4 (F := Ideal) (bFeat V c t) (bLab V c t) (bCen V c t) (bNc2 V c t))
    (accAfter V c (t.val - 1) (Nat.lt_of_le_of_lt (Nat.sub_le _ _) t.isLt)) k).trans ?_
  unfold tileSum
  exact congrArg₂ (· + ·) rfl (Finset.sum_congr rfl fun r _ => congrArg₂ (· * ·) (pay3_apply (bLab V c t) k r)
    (pay4_apply (bFeat V c t) (bLab V c t) (bCen V c t) (bNc2 V c t) k r))

/-! ## The invariant: after tile `j` of image `b` the staged block holds the first `j + 1` tiles' contributions -/

theorem acc_inv (c : Dev nD) (b : Fin 8) (k : Fin 24) :
    ∀ (j : ℕ) (_ : j < 4) (h : 4 * b.val + j < cfg1.N),
      accAfter V c (4 * b.val + j) h (ix3 0 k 0) = ∑ s ∈ Finset.range (j + 1), tileTerm V c b k s
  | 0, _, h => by
    have ht : (⟨4 * b.val + 0, h⟩ : Fin cfg1.N).val % 4 = 0 := by show (4 * b.val + 0) % 4 = 0; omega
    rw [Finset.sum_range_one]
    refine (accA V c ⟨4 * b.val + 0, h⟩ ht k).trans ?_
    refine (tileSum_eq V c ⟨4 * b.val + 0, h⟩ b (by show b.val = (4 * b.val + 0) / 4; omega) k).trans ?_
    exact congrArg (tileTerm V c b k) (by show (4 * b.val + 0) % 4 = 0; omega)
  | j + 1, hj, h => by
    have ht : ¬(⟨4 * b.val + (j + 1), h⟩ : Fin cfg1.N).val % 4 = 0 := by show ¬(4 * b.val + (j + 1)) % 4 = 0; omega
    rw [Finset.sum_range_succ]
    refine (accB V c ⟨4 * b.val + (j + 1), h⟩ ht k).trans ?_
    refine congrArg₂ (· + ·) ?_ ?_
    · exact acc_inv c b k j (by omega) (Nat.lt_of_succ_lt h)
    · refine (tileSum_eq V c ⟨4 * b.val + (j + 1), h⟩ b (by show b.val = (4 * b.val + (j + 1)) / 4; omega) k).trans ?_
      exact congrArg (tileTerm V c b k) (by show (4 * b.val + (j + 1)) % 4 = j + 1; omega)

/-- The four tiles' contributions are the sum over the image's pixels. -/
theorem tiles_eq (c : Dev nD) (b : Fin 8) (k : Fin 24) :
    ∑ s ∈ Finset.range 4, tileTerm V c b k s = ∑ p : Fin 16384, pixTerm V c b k p := by
  rw [Finset.sum_range]
  refine Eq.symm ((Cert.Lib.SegSum.sum_blocks 4 4096 (pixTerm V c b k)).trans ?_)
  refine Finset.sum_congr rfl fun s _ => ?_
  unfold tileTerm
  refine Finset.sum_congr rfl fun r _ => congrArg (pixTerm V c b k) (Fin.ext ?_)
  show s.val * 4096 + r.val = s.val % 4 * 4096 + r.val
  rw [Nat.mod_eq_of_lt s.isLt]

/-! ## From the blocks written back to the array -/

/-- Entry `(b, k)` of the array the launch leaves, by the values of the coordinates. -/
def totalN (c : Dev nD) (b k : ℕ) : EReal :=
  if h : b < 8 ∧ k < 24 then ∑ p : Fin 16384, pixTerm V c ⟨b, h.1⟩ ⟨k, h.2⟩ p else 0

/-- The array the launch leaves. -/
def total (c : Dev nD) : S8x24x1.Idx → EReal := fun i => totalN V c (i 0).val (i 1).val

/-- After an image's last tile the block holds, at `(0, k, 0)`, entry `(t / 4, k)` of the final array. -/
theorem acc_last (c : Dev nD) (t : Fin cfg1.N) (h3 : t.val % 4 = 3) (y : S1x24x1.Idx) :
    accAfter V c t.val t.isLt y = totalN V c (t.val / 4) (y 1).val := by
  have hN : t.val < 32 := lt_of_lt_of_eq t.isLt (show cfg1.N = 32 from N_1)
  obtain ⟨a, k, a', rfl⟩ : ∃ (a : Fin 1) (k : Fin 24) (a' : Fin 1), y = ix3 a k a' := ⟨y 0, y 1, y 2, eq_ix3 y⟩
  obtain rfl : a = 0 := Subsingleton.elim _ _
  obtain rfl : a' = 0 := Subsingleton.elim _ _
  have hb : t.val / 4 < 8 := by omega
  have key := acc_inv V c ⟨t.val / 4, hb⟩ k 3 (by decide) (by
    show 4 * (t.val / 4) + 3 < cfg1.N
    have : 4 * (t.val / 4) + 3 = t.val := by omega
    rw [this]; exact t.isLt)
  have same : ∀ (n : ℕ) (hn : n < cfg1.N), n = t.val → accAfter V c n hn = accAfter V c t.val t.isLt := by
    intro n hn e; subst e; rfl
  rw [← same (4 * (t.val / 4) + 3) _ (by show 4 * (t.val / 4) + 3 = t.val; omega)]
  refine key.trans ?_
  rw [tiles_eq]
  unfold totalN
  rw [dif_pos ⟨hb, k.isLt⟩]

/-- A write-back happens after an image's last tile and writes that image's block of the final array. -/
theorem flushed_eq (c : Dev nD) (t : Fin cfg1.N) (hf : (cfg1.win 4).flush t = true) :
    (dat1 (F := Ideal) V c).flushed 4 t = ((cfg1.win 4).blk t).view.read (Elt Ideal) (total V c) := by
  have h3 : t.val % 4 = 3 := (flush1_4 t).mp hf
  obtain ⟨e0, e1, e2⟩ := idx_out t
  show (cfg1.win 4).cut (grid1.coords t) ((dat1 (F := Ideal) V c).after 4 t) = _
  rw [after1_4]
  funext y
  refine (acc_last V c t h3 y).trans ?_
  rw [View.read_apply]
  show totalN V c (t.val / 4) (y 1).val = totalN V c (win1_4.index t 0 * 1 + 1 * (y 0).val) (win1_4.index t 1 * 24 + 1 * (y 1).val)
  have hy0 : (y 0).val < 1 := (y 0).isLt
  refine congrArg₂ (totalN V c) ?_ ?_
  · rw [e0]; omega
  · rw [e1]; omega

/-- Every entry `(b, k, 0)` is in the block written back at point `4 b + 3`, so the array ends as `total`. -/
theorem out1_eq (c : Dev nD) : out1 V c = total V c := by
  have hN : cfg1.N = 32 := N_1
  refine (dat1 (F := Ideal) V c).arrAt_eq_of_cover 4 (total V c) (flushed_eq V c) fun i => ?_
  have hi0 : (i 0).val < 8 := (i 0).isLt
  have hi1 : (i 1).val < 24 := (i 1).isLt
  have hi2 : (i 2).val < 1 := (i 2).isLt
  have ht : 4 * (i 0).val + 3 < cfg1.N := by rw [hN]; omega
  obtain ⟨e0, e1, e2⟩ := idx_out ⟨4 * (i 0).val + 3, ht⟩
  refine ⟨⟨4 * (i 0).val + 3, ht⟩, (flush1_4 _).mpr (by show (4 * (i 0).val + 3) % 4 = 3; omega), ?_⟩
  show i ∈ ((View.whole main_v17).slice (win1_4.rect ⟨4 * (i 0).val + 3, ht⟩)).set
  rw [View.set_slice_whole, Rect.mem_set_unit]
  intro a
  match a with
  | ⟨0, _⟩ =>
    show win1_4.index ⟨4 * (i 0).val + 3, ht⟩ 0 * 1 ≤ (i 0).val ∧ (i 0).val < win1_4.index ⟨4 * (i 0).val + 3, ht⟩ 0 * 1 + 1
    rw [e0]; show (4 * (i 0).val + 3) / 4 * 1 ≤ (i 0).val ∧ (i 0).val < (4 * (i 0).val + 3) / 4 * 1 + 1; omega
  | ⟨1, _⟩ =>
    show win1_4.index ⟨4 * (i 0).val + 3, ht⟩ 1 * 24 ≤ (i 1).val ∧ (i 1).val < win1_4.index ⟨4 * (i 0).val + 3, ht⟩ 1 * 24 + 24
    rw [e1]; omega
  | ⟨2, _⟩ =>
    show win1_4.index ⟨4 * (i 0).val + 3, ht⟩ 2 * 1 ≤ (i 2).val ∧ (i 2).val < win1_4.index ⟨4 * (i 0).val + 3, ht⟩ 2 * 1 + 1
    rw [e2]; omega

/-- Entry `(b, k, 0)` of the second launch's output is the per-pixel term of image `b` summed over the pixels whose label is class `k`'s word,
    the term written with the one-hot selections from the centroid table and the squared-norm column the launch is given. -/
theorem reg1_value (c : Dev nD) (b : Fin 8) (k : Fin 24) :
    out1 V c (ix3 b k 0)
      = ∑ p : Fin 16384, oh k.val (aLab V c (ix3 b 0 p))
          * wPix (fun d p => aFeat V c (ix3 b d p)) (fun p => aLab V c (ix3 b 0 p))
              (fun d j => aCen V c (ix2 d j)) (fun j => aNc2 V c (ix2 j 0)) p := by
  rw [out1_eq]
  show totalN V c b.val k.val = _
  unfold totalN
  rw [dif_pos ⟨b.isLt, k.isLt⟩]
  rfl

end Cert.EmbedLoss.KReg1

end
-- ==== Proof.LibSegSum1.lean ====
/-
  SEGMENT SUMS OF A VECTOR: the host's scatter with an `add` body at the dimension numbers that send update `n` of a
  vector `[N]` to operand element `b n` of a vector `[G]` — no update window axis, operand axis 0 inserted, the one
  component of the start index mapped to operand axis 0, the index vector on axis 1 of the ids `[N, 1]`. The id is read
  as a signed integer and not clamped; an update whose id is no element of the operand is dropped. Read at `g` it is
  the operand there plus the sum of the updates whose id, read signed, is `g`; into zeros, and with the ids compared
  as words, it is the sum of the one-hot weight times the update, a block of rows at a time.
-/
import Idealize.ShloMosaic.PureOps.Ideal
import Idealize.ShloMosaic.PureOps.Ideal.Laws
import Idealize.ShloMosaic.Lib.ValueIdx
import Idealize.ShloMosaic.Lib.ValueIdxRank1
import proofs.«421729_j51522427682923_2_alg».proof.Proof.LibSegSum

noncomputable section

open scoped BigOperators

namespace Cert.Lib.SegSum1

open Idealize.ShloMosaic Idealize.ShloMosaic.ValueIdx

/-- The dimension numbers of a vector's segment scatter: operand `[G]`, ids `[N, 1]`, updates `[N]`. -/
abbrev segDims1 (G N : Nat) (wf : ScatterDims.WF ⟨1, ![G]⟩ ⟨2, ![N, 1]⟩ ⟨1, ![N]⟩ [] [0] [0] 1) :
    ScatterDims ⟨1, ![G]⟩ ⟨2, ![N, 1]⟩ ⟨1, ![N]⟩ where
  updateWindowDims := []
  insertedWindowDims := [0]
  scatterDimsToOperandDims := [0]
  indexVectorDim := 1
  wf := wf

variable {G N w : Nat} (wf : ScatterDims.WF ⟨1, ![G]⟩ ⟨2, ![N, 1]⟩ ⟨1, ![N]⟩ [] [0] [0] 1)

/-! ## A sum over a vector's indices -/

/-- A vector's index set is its coordinate range, so a sum over it is the sum over the coordinate. -/
theorem sum_idx1 {M : Type*} [AddCommMonoid M] {n : Nat} (f : (⟨1, ![n]⟩ : Shape).Idx → M) :
    ∑ i, f i = ∑ a : Fin n, f (ix1 a) := by
  exact (Equiv.sum_comp (idxEquiv1 (n := n)).symm f).symm

/-! ## The vector's segment scatter read at an element -/

/-- The window coordinate on the operand's one axis is zero: that axis is inserted. -/
theorem seg1_window0 (j : (⟨1, ![N]⟩ : Shape).Idx) : (segDims1 G N wf).window j 0 = 0 := rfl

/-- The window starts at the element the update's id names, read signed. -/
theorem seg1_start0 (j : (⟨1, ![N]⟩ : Shape).Idx) (idx : IVec ⟨2, ![N, 1]⟩ w) :
    (segDims1 G N wf).start j idx 0 = (idx (ix2 (j 0) ⟨0, Nat.one_pos⟩)).toInt := by
  unfold ScatterDims.start
  rw [dif_pos (show (0 : Fin 1) ∈ (segDims1 G N wf).scatterDimsToOperandDims from List.mem_singleton.mpr rfl)]
  congr 2
  funext b
  match b with
  | ⟨0, _⟩ => rfl
  | ⟨1, _⟩ => rfl

/-- Where update `n` lands: at element `idx[n, 0]`, read signed, when the operand has that element. -/
theorem seg1_resultIdx?_eq_some (j : (⟨1, ![N]⟩ : Shape).Idx) (idx : IVec ⟨2, ![N, 1]⟩ w) (i : (⟨1, ![G]⟩ : Shape).Idx) :
    (segDims1 G N wf).resultIdx? j idx = some i
      ↔ (idx (ix2 (j 0) ⟨0, Nat.one_pos⟩)).toInt = ((i 0).val : Int) := by
  have hi0 : (i 0).val < G := (i 0).isLt
  unfold ScatterDims.resultIdx?
  split_ifs with h
  · rw [Option.some.injEq]
    have h0 := (h 0).1
    rw [seg1_start0, seg1_window0] at h0
    constructor
    · rintro rfl
      show _ = (((((segDims1 G N wf).start j idx 0 + ((segDims1 G N wf).window j 0 : Nat)).toNat : Nat)) : Int)
      rw [seg1_start0, seg1_window0]; omega
    · intro e0
      funext a
      refine Fin.ext ?_
      match a with
      | ⟨0, _⟩ =>
        show ((segDims1 G N wf).start j idx 0 + ((segDims1 G N wf).window j 0 : Nat)).toNat = (i 0).val
        rw [seg1_start0, seg1_window0]; omega
  · refine iff_of_false (by simp) ?_
    intro e0
    refine h fun a => ?_
    match a with
    | ⟨0, _⟩ =>
      show 0 ≤ (segDims1 G N wf).start j idx 0 + ((segDims1 G N wf).window j 0 : Nat)
        ∧ (segDims1 G N wf).start j idx 0 + ((segDims1 G N wf).window j 0 : Nat) < (G : Int)
      rw [seg1_start0, seg1_window0]; omega

/-- THE VECTOR'S SEGMENT SCATTER-ADD READ AT `g`: the operand there plus the sum of the updates whose id is `g`. -/
theorem hostScatterAdd_seg1 (x : (⟨1, ![G]⟩ : Shape).Idx → EReal) (idx : IVec ⟨2, ![N, 1]⟩ w)
    (upd : (⟨1, ![N]⟩ : Shape).Idx → EReal) (i : (⟨1, ![G]⟩ : Shape).Idx) :
    Ideal.hostScatterAdd (segDims1 G N wf) x idx upd i
      = x i + ∑ n : Fin N, if (idx (ix2 n ⟨0, Nat.one_pos⟩)).toInt = ((i 0).val : Int) then upd (ix1 n) else 0 := by
  unfold Ideal.hostScatterAdd
  congr 1
  rw [Finset.sum_filter, sum_idx1]
  exact Finset.sum_congr rfl fun n _ => if_congr (seg1_resultIdx?_eq_some wf (ix1 n) idx i) rfl rfl

/-- Into zeros, by blocks of rows and with the ids compared as words: the one-hot weight times the update, summed. -/
theorem scatter1_blocks {B T : Nat} (hN : N = B * T) (bat : IVec ⟨2, ![N, 1]⟩ 32) (u : (⟨1, ![N]⟩ : Shape).Idx → EReal)
    (i : (⟨1, ![G]⟩ : Shape).Idx) (hG : G ≤ 2 ^ 31) (row : Fin B → Fin T → Fin N) (hrow : ∀ t r, (row t r).val = t.val * T + r.val) :
    Ideal.hostScatterAdd (segDims1 G N wf) (fun _ => 0) bat u i
      = ∑ t : Fin B, ∑ r : Fin T,
          (if bat (ix2 (row t r) ⟨0, Nat.one_pos⟩) = BitVec.ofNat 32 (i 0).val then (1 : EReal) else 0) * u (ix1 (row t r)) := by
  subst hN
  have hi0 : (i 0).val < G := (i 0).isLt
  rw [hostScatterAdd_seg1, zero_add, SegSum.sum_blocks]
  refine Finset.sum_congr rfl fun t _ => Finset.sum_congr rfl fun r _ => ?_
  have hr : row t r = ⟨t.val * T + r.val, (hrow t r) ▸ (row t r).isLt⟩ := Fin.ext (hrow t r)
  rw [← hr]
  by_cases hc : bat (ix2 (row t r) ⟨0, Nat.one_pos⟩) = BitVec.ofNat 32 (i 0).val
  · rw [if_pos hc, if_pos ((SegSum.toInt_eq_natCast_iff _ _ (by omega)).2 hc), one_mul]
  · rw [if_neg hc, if_neg (fun h => hc ((SegSum.toInt_eq_natCast_iff _ _ (by omega)).1 h)), zero_mul]

end Cert.Lib.SegSum1

end
-- ==== Proof.KHost.lean ====
/-
  The host operations before and between the two launches, read at an index.
-/
import proofs.«421729_j51522427682923_2_alg».proof.Proof.KArr
import proofs.«421729_j51522427682923_2_alg».proof.Proof.LibSegSum1
import Idealize.ShloMosaic.Lib.Pipeline.Value
import Idealize.ShloMosaic.PureOps.Ideal.Laws
set_option maxRecDepth 16384

noncomputable section

open scoped BigOperators

namespace Cert.EmbedLoss.KHost

open Cert.EmbedLoss Cert.EmbedLoss.KArr Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The first launch is entered with the embeddings re-laid by image, channel, pixel. -/
theorem V1_feats (c : Dev nD) (b : Fin 8) (d : Fin 256) (p : Fin 16384) :
    aFeat (V1 m ρ) c (ix3 b d p) = featOf (arg0 m c) b d p := by
  -- the buffer is the argument array re-laid: one shape cast
  have e : (V1 m ρ c main_v0 : S8x256x16384.Idx → EReal)
      = shapeCast _ (arg0 m c) shapeCasts_S8x256x128x128_S8x256x16384 := by
    dsimp only [V1, W1, hostOps0]; after_results; rfl
  show (V1 m ρ c main_v0 : S8x256x16384.Idx → EReal) (ix3 b d p) = _
  rw [e]
  unfold featOf
  -- pixel p of 16384 sits at row p / 128, column p % 128: the two row-major positions agree
  refine shapeCast_apply (arg0 m c) shapeCasts_S8x256x128x128_S8x256x16384 (ix3 b d p) _ ?_
  rewrite [Shape.rowMajor_val_four, Shape.rowMajor_val_three]
  have hb := b.isLt; have hd := d.isLt; have hp := p.isLt
  show ((b.val * 256 + d.val) * 128 + p.val / 128) * 128 + p.val % 128 = (b.val * 256 + d.val) * 16384 + p.val
  omega

/-- … and the labels re-laid by image, pixel. -/
theorem V1_labels (c : Dev nD) (b : Fin 8) (p : Fin 16384) :
    aLab (V1 m ρ) c (ix3 b 0 p) = labOf (arg1 m c) b p := by
  have e : (V1 m ρ c main_v1 : S8x1x16384.Idx → BitVec 32)
      = shapeCast _ (arg1 m c) shapeCasts_S8x128x128_S8x1x16384 := by
    dsimp only [V1, W1, hostOps0]; after_results; rfl
  show (V1 m ρ c main_v1 : S8x1x16384.Idx → BitVec 32) (ix3 b 0 p) = _
  rw [e]
  unfold labOf
  refine shapeCast_apply (arg1 m c) shapeCasts_S8x128x128_S8x1x16384 (ix3 b 0 p) _ ?_
  rewrite [Shape.rowMajor_val_three, Shape.rowMajor_val_three]
  have hb := b.isLt; have hp := p.isLt
  show (b.val * 128 + p.val / 128) * 128 + p.val % 128 = (b.val * 1 + 0) * 16384 + p.val
  omega

/-- The second launch is entered with the same embeddings and labels. -/
theorem V3_feats (c : Dev nD) : aFeat (V3 m ρ) c = aFeat (V1 m ρ) c := by
  -- no host operation between the launches writes the buffer, and it is an input window of the first launch
  show W3 m ρ c (Proc.devRef .tc main_v0) = W1 m ρ c (Proc.devRef .tc main_v0)
  calc W3 m ρ c (Proc.devRef .tc main_v0)
    _ = W2 m ρ c (Proc.devRef .tc main_v0) := StableHlo.after_of_forall_not_mem (b := Proc.devRef .tc main_v0) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 0 cfg0.N := W2_arr m ρ c 0
    _ = (dat0 (V1 m ρ) c).A 0 := (dat0 (V1 m ρ) c).arrAt_in 0 rfl _
    _ = V1 m ρ c main_v0 := A_eq0 (V1 m ρ) c 0
theorem V3_labels (c : Dev nD) : aLab (V3 m ρ) c = aLab (V1 m ρ) c := by
  show W3 m ρ c (Proc.devRef .tc main_v1) = W1 m ρ c (Proc.devRef .tc main_v1)
  calc W3 m ρ c (Proc.devRef .tc main_v1)
    _ = W2 m ρ c (Proc.devRef .tc main_v1) := StableHlo.after_of_forall_not_mem (b := Proc.devRef .tc main_v1) _ _ (List.forall_iff_forall_mem.mp (by
          simp only [hostOps1, List.flatten_cons, List.flatten_nil, List.append_nil, List.cons_append,
            List.nil_append, List.Forall, StableHlo.nullary_writes, StableHlo.unary_writes, StableHlo.binary_writes, StableHlo.ternary_writes, StableHlo.quaternary_writes, StableHlo.reshape_writes, StableHlo.binaryIndexed_writes, Finset.mem_singleton]
          repeat' apply And.intro
          all_goals exact StableHlo.devRef_ne_of_ne (by decide)))
    _ = (dat0 (V1 m ρ) c).arrAt 1 cfg0.N := W2_arr m ρ c 1
    _ = (dat0 (V1 m ρ) c).A 1 := (dat0 (V1 m ρ) c).arrAt_in 1 rfl _
    _ = V1 m ρ c main_v1 := A_eq0 (V1 m ρ) c 1

/-! ## The buffers the host operations between the launches write, as terms over what the first launch leaves -/

/-- The padded counts: the scatter of ones into zeros at the flattened labels. -/
private theorem cnt_eq (c : Dev nD) : (V3 m ρ c main_v8 : S24.Idx → EReal)
    = Host.scatterAdd scatter_S24_S131072x1_S131072_n_0_0_1
        (broadcastInDim S24 ![] bcast_S_S24 (constant (F := Ideal) S_ .f32 0x00000000#32))
        (broadcastInDim S131072x1 ![0] bcast_S131072_S131072x1_0
          (shapeCast _ (V2 m ρ c main_v1 : S8x1x16384.Idx → BitVec 32) shapeCasts_S8x1x16384_S131072))
        (broadcastInDim S131072 ![] bcast_S_S131072 (constant (F := Ideal) S_ .f32 0x3F800000#32)) := by
  dsimp only [V3, W3, hostOps1]; after_results; rfl

/-- The centroid table: the image sum over the floored counts, broadcast over the rows. -/
private theorem cen_eq (c : Dev nD) : (V3 m ρ c main_v13 : S256x24.Idx → EReal)
    = Host.divf
        (Host.reduceAdd (V2 m ρ c main_v2 : S8x256x24.Idx → EReal) (constant (F := Ideal) S_ .f32 0x00000000#32)
          reducesTo_S8x256x24_S256x24_d0 h_S_)
        (broadcastInDim S256x24 ![0, 1] bcast_S1x24_S256x24_0_1
          (broadcastInDim S1x24 ![1] bcast_S24_S1x24_1
            (maximumf (V3 m ρ c main_v8 : S24.Idx → EReal)
              (broadcastInDim S24 ![] bcast_S_S24 (constant (F := Ideal) S_ .f32 0x3F800000#32))))) := by
  dsimp only [V3, W3, hostOps1]; after_results_simp <;> rfl

/-- The squared-norm column: the column sums of the table's squares, re-laid as a column. -/
private theorem nc2_eq (c : Dev nD) : (V3 m ρ c main_v16 : S24x1.Idx → EReal)
    = shapeCast _
        (Host.reduceAdd (mulf (V3 m ρ c main_v13 : S256x24.Idx → EReal) (V3 m ρ c main_v13 : S256x24.Idx → EReal))
          (constant (F := Ideal) S_ .f32 0x00000000#32) reducesTo_S256x24_S24_d0 h_S_)
        shapeCasts_S24_S24x1 := by
  dsimp only [V3, W3, hostOps1]; after_results_simp <;> rfl

/-! ## The host operations read at an index, over any operand -/

/-- The host's sum over the rows of a 256 by 24 table, read at column `k`: the sum of the column. -/
private theorem colSum256 (x : S256x24.Idx → EReal) (k : Fin 24) :
    (Host.reduceAdd (F := Ideal) (φ := .f32) x (constant (F := Ideal) S_ .f32 0x00000000#32)
        reducesTo_S256x24_S24_d0 h_S_ : S24.Idx → EReal) (ix1 k)
      = ∑ d : Fin 256, x (ix2 d k) := by
  unfold Host.reduceAdd
  rw [Ideal.hostReduceAdd_def, Ideal.hostReduceAdd_single reducesTo_S256x24_S24_d0 (by decide)]
  rw [show (constant (F := Ideal) S_ .f32 0x00000000#32 (Shape.Idx.first h_S_)) = (0 : EReal) from Ideal.ofBits_zero_f32, zero_add]
  refine Finset.sum_congr rfl fun d _ => congrArg x ?_
  funext a
  match a with
  | ⟨0, _⟩ => rfl
  | ⟨1, _⟩ => rfl

/-- The host's sum over the images of an 8 by 256 by 24 array, read at `(d, k)`. -/
private theorem imgSum8 (x : S8x256x24.Idx → EReal) (d : Fin 256) (k : Fin 24) :
    (Host.reduceAdd (F := Ideal) (φ := .f32) x (constant (F := Ideal) S_ .f32 0x00000000#32)
        reducesTo_S8x256x24_S256x24_d0 h_S_ : S256x24.Idx → EReal) (ix2 d k)
      = ∑ b : Fin 8, x (ix3 b d k) := by
  unfold Host.reduceAdd
  rw [Ideal.hostReduceAdd_def, Ideal.hostReduceAdd_single reducesTo_S8x256x24_S256x24_d0 (by decide)]
  rw [show (constant (F := Ideal) S_ .f32 0x00000000#32 (Shape.Idx.first h_S_)) = (0 : EReal) from Ideal.ofBits_zero_f32, zero_add]
  refine Finset.sum_congr rfl fun b _ => congrArg x ?_
  funext a
  match a with
  | ⟨0, _⟩ => rfl
  | ⟨1, _⟩ => rfl
  | ⟨2, _⟩ => rfl

/-- A vector of 24 broadcast over the 256 rows, read at `(d, k)`: its entry `k`. -/
private theorem rowBcast (y : S24.Idx → EReal) (d : Fin 256) (k : Fin 24) :
    (broadcastInDim S256x24 ![0, 1] bcast_S1x24_S256x24_0_1
        (broadcastInDim S1x24 ![1] bcast_S24_S1x24_1 y) : S256x24.Idx → EReal) (ix2 d k) = y (ix1 k) := by
  refine (broadcastInDim_apply _ bcast_S1x24_S256x24_0_1 _ (ix2 d k) (ix2 (0 : Fin 1) k) (fun a => match a with
    | ⟨0, _⟩ => rfl
    | ⟨1, _⟩ => rfl)).trans ?_
  exact broadcastInDim_apply _ bcast_S24_S1x24_1 y (ix2 (0 : Fin 1) k) (ix1 k) (fun a => match a with
    | ⟨0, _⟩ => rfl)

/-- A constant broadcast to a vector of 24 reads the constant's value everywhere. -/
private theorem constBcast24 (w : BitVec 32) (i : S24.Idx) :
    (broadcastInDim S24 ![] bcast_S_S24 (constant (F := Ideal) S_ .f32 w) : S24.Idx → EReal) i = Ideal.ofBits .f32 w :=
  broadcastInDim_apply _ bcast_S_S24 (constant (F := Ideal) S_ .f32 w) i ix0 (fun a => a.elim0)

/-- … and to a vector of 131072 likewise. -/
private theorem constBcastN (w : BitVec 32) (i : S131072.Idx) :
    (broadcastInDim S131072 ![] bcast_S_S131072 (constant (F := Ideal) S_ .f32 w) : S131072.Idx → EReal) i = Ideal.ofBits .f32 w :=
  broadcastInDim_apply _ bcast_S_S131072 (constant (F := Ideal) S_ .f32 w) i ix0 (fun a => a.elim0)

/-- The host's quotient of two tables, read at an index: the quotient of the entries. -/
private theorem divAt (A B : S256x24.Idx → EReal) (i : S256x24.Idx) :
    (Host.divf (F := Ideal) (φ := .f32) A B : S256x24.Idx → EReal) i = Ideal.div (A i) (B i) := rfl

/-- The first launch leaves the labels as it found them. -/
private theorem V2_labels (c : Dev nD) : (V2 m ρ c main_v1 : S8x1x16384.Idx → BitVec 32) = V1 m ρ c main_v1 := by
  show W2 m ρ c (Proc.devRef .tc main_v1) = V1 m ρ c main_v1
  calc W2 m ρ c (Proc.devRef .tc main_v1)
    _ = (dat0 (V1 m ρ) c).arrAt 1 cfg0.N := W2_arr m ρ c 1
    _ = (dat0 (V1 m ρ) c).A 1 := (dat0 (V1 m ρ) c).arrAt_in 1 rfl _
    _ = V1 m ρ c main_v1 := A_eq0 (V1 m ρ) c 1

/-- The flattened labels as a column, read at the row of pixel `(b, p)`: that pixel's label. -/
private theorem idsAt (l : S8x1x16384.Idx → BitVec 32) (b : Fin 8) (p : Fin 16384) :
    (broadcastInDim S131072x1 ![0] bcast_S131072_S131072x1_0 (shapeCast _ l shapeCasts_S8x1x16384_S131072)
        : S131072x1.Idx → BitVec 32) (ix2 (pix b p) ⟨0, Nat.one_pos⟩) = l (ix3 b 0 p) := by
  refine (broadcastInDim_apply _ bcast_S131072_S131072x1_0 _ (ix2 (pix b p) ⟨0, Nat.one_pos⟩) (ix1 (pix b p)) (fun a => match a with
    | ⟨0, _⟩ => by
        show (pix b p).val = if (131072 : Nat) = 1 then 0 else (pix b p).val
        rw [if_neg (by decide)])).trans ?_
  refine shapeCast_apply l shapeCasts_S8x1x16384_S131072 (ix1 (pix b p)) (ix3 b 0 p) ?_
  rewrite [Shape.rowMajor_val_three, Shape.rowMajor_val_one]
  show (b.val * 1 + 0) * 16384 + p.val = b.val * 16384 + p.val
  omega

/-- Ones scattered into zeros at the flattened labels `l`, read at class `k`: the count of the pixels whose label is
    `k`'s word, for any label array `L` that `l` is by image and pixel. -/
private theorem counts_of (l : S8x1x16384.Idx → BitVec 32) (L : Lab) (hl : ∀ b p, l (ix3 b 0 p) = L b p) (k : Fin 24) :
    (Host.scatterAdd (F := Ideal) (φ := .f32) scatter_S24_S131072x1_S131072_n_0_0_1
        (broadcastInDim S24 ![] bcast_S_S24 (constant (F := Ideal) S_ .f32 0x00000000#32))
        (broadcastInDim S131072x1 ![0] bcast_S131072_S131072x1_0 (shapeCast _ l shapeCasts_S8x1x16384_S131072))
        (broadcastInDim S131072 ![] bcast_S_S131072 (constant (F := Ideal) S_ .f32 0x3F800000#32))
        : S24.Idx → EReal) (ix1 k) = cnt L k.val := by
  have hz : (broadcastInDim S24 ![] bcast_S_S24 (constant (F := Ideal) S_ .f32 0x00000000#32) : S24.Idx → EReal)
      = fun _ => 0 := funext fun i => (constBcast24 _ i).trans Ideal.ofBits_zero_f32
  rw [hz]
  unfold Host.scatterAdd
  rw [Ideal.hostScatterAdd_def]
  have hd : scatter_S24_S131072x1_S131072_n_0_0_1
      = Cert.Lib.SegSum1.segDims1 24 131072 scatter_S24_S131072x1_S131072_n_0_0_1_wf := rfl
  rw [hd]
  rw [Cert.Lib.SegSum1.scatter1_blocks scatter_S24_S131072x1_S131072_n_0_0_1_wf (B := 8) (T := 16384) (by norm_num) _ _
    (ix1 k) (by norm_num) pix (fun _ _ => rfl)]
  unfold cnt
  refine Finset.sum_congr rfl fun b _ => Finset.sum_congr rfl fun p _ => ?_
  rw [idsAt, constBcastN, hl b p]
  rfl

/-- The padded counts: the pixels whose label is class `k`'s word, each counted as the word 1.0. -/
theorem V3_counts (c : Dev nD) (k : Fin 24) : aCnt (V3 m ρ) c (ix1 k) = cnt (labOf (arg1 m c)) k.val := by
  show (V3 m ρ c main_v8 : S24.Idx → EReal) (ix1 k) = _
  rw [cnt_eq m ρ c]
  refine counts_of _ _ (fun b p => ?_) k
  rw [V2_labels m ρ c]
  exact V1_labels m ρ c b p

/-- The centroid table: the first launch's output summed over the images, over the count floored at the word 1.0. -/
theorem V3_centers (c : Dev nD) (d : Fin 256) (k : Fin 24) :
    aCen (V3 m ρ) c (ix2 d k)
      = Ideal.div (∑ b : Fin 8, aSumsB (V2 m ρ) c (ix3 b d k)) (max (aCnt (V3 m ρ) c (ix1 k)) one) := by
  show (V3 m ρ c main_v13 : S256x24.Idx → EReal) (ix2 d k) = _
  rw [cen_eq m ρ c]
  rw [divAt, imgSum8, rowBcast, maximumf_apply, constBcast24]
  rfl

/-- The squared-norm column of the centroid table. -/
theorem V3_nc2 (c : Dev nD) (k : Fin 24) :
    aNc2 (V3 m ρ) c (ix2 k 0) = ∑ d : Fin 256, aCen (V3 m ρ) c (ix2 d k) * aCen (V3 m ρ) c (ix2 d k) := by
  show (V3 m ρ c main_v16 : S24x1.Idx → EReal) (ix2 k 0) = _
  rw [nc2_eq m ρ c]
  -- the column's entry k is the vector's entry k, and that is the sum of column k of the squares
  refine (shapeCast_apply _ shapeCasts_S24_S24x1 (ix2 k 0) (ix1 k) ?_).trans ?_
  · rewrite [Shape.rowMajor_val_one, Shape.rowMajor_val_two]
    show k.val = k.val * 1 + 0
    omega
  · exact colSum256 _ k

end Cert.EmbedLoss.KHost

end
-- ==== Proof.KTail.lean ====
/-
  The host operations after the second launch: the loss from the padded counts, the centroid table and the second launch's output.

  After the second launch the program works on three arrays only: the 24 padded counts, the 256 x 24 centroid table and the
  8 x 24 x 1 output of the second launch. It sums that output over the 8 images, cuts the counts, the sums and the table's
  columns down to the first 19 classes, and from those forms the two terms of the loss: over the classes whose count is
  positive, the summed output over the count floored at 1.0, and the mean over all 19 classes of one minus the cosine of
  two centroids on the diagonal and of the cosine floored at zero off it. Below, that chain of operations is first named
  as one function of the three arrays, stage by stage; then each stage is read at an index, innermost first, until the
  one entry of the result is the specification's `loss` of the first 19 classes' entries.
-/
import proofs.«421729_j51522427682923_2_alg».proof.Proof.KArr
import Idealize.ShloMosaic.Lib.IdealHost
import Idealize.ShloMosaic.Lib.ValueLayout
import Idealize.ShloMosaic.Lib.ValueIdxRank1
import Idealize.ShloMosaic.Lib.Pipeline.Value

set_option maxRecDepth 16384

noncomputable section

open scoped BigOperators

namespace Cert.EmbedLoss.KTail

open Cert.EmbedLoss Cert.EmbedLoss.KArr Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- Class `k` of 19 among the 24 padded ones. -/
def pad (k : Fin 19) : Fin 24 := ⟨k.val, by have := k.isLt; omega⟩

/-! ## The host operations after the second launch, as functions of the three arrays they read -/

/-- The scalar zero the sums start from and the selections fall back to. -/
private def zeroS : FVec Ideal S_ .f32 := constant (F := Ideal) S_ .f32 0x00000000#32

/-- The first 19 of the 24 padded counts. -/
private def cnt19 (n : FVec Ideal S24 .f32) : FVec Ideal S19 .f32 := extractStridedSlice S19 ![0] n slices_S24_S19_0

/-- Which of them are positive. -/
private def pos19 (n : FVec Ideal S24 .f32) : IVec S19 1 :=
  cmpf (F := Ideal) (φ := .f32) .ogt (cnt19 n) (broadcastInDim S19 ![] bcast_S_S19 zeroS)

/-- The second launch's output summed over the images, as 24 entries. -/
private def sim24 (s : FVec Ideal S8x24x1 .f32) : FVec Ideal S24 .f32 :=
  shapeCast S24 (Host.reduceAdd (F := Ideal) (φ := .f32) s zeroS reducesTo_S8x24x1_S24x1_d0 h_S_) shapeCasts_S24x1_S24

/-- Its first 19 entries over the counts floored at the word 1.0. -/
private def quot19 (n : FVec Ideal S24 .f32) (s : FVec Ideal S8x24x1 .f32) : FVec Ideal S19 .f32 :=
  Host.divf (F := Ideal) (φ := .f32) (extractStridedSlice S19 ![0] (sim24 s) slices_S24_S19_0)
    (maximumf (F := Ideal) (φ := .f32) (cnt19 n) (broadcastInDim S19 ![] bcast_S_S19 (constant (F := Ideal) S_ .f32 0x3F800000#32)))

/-- The second term of the loss: the quotients of the classes with a positive count, summed. -/
private def simTerm (n : FVec Ideal S24 .f32) (s : FVec Ideal S8x24x1 .f32) : FVec Ideal S_ .f32 :=
  Host.reduceAdd (F := Ideal) (φ := .f32) (select (pos19 n) (quot19 n s) (broadcastInDim S19 ![] bcast_S_S19 zeroS)) zeroS
    reducesTo_S19_S_d0 h_S_

/-- The first 19 columns of the centroid table. -/
private def cen19 (c : FVec Ideal S256x24 .f32) : FVec Ideal S256x19 .f32 :=
  extractStridedSlice S256x19 ![0, 0] c slices_S256x24_S256x19_0_0

/-- Their norms. -/
private def norm19 (c : FVec Ideal S256x24 .f32) : FVec Ideal S19 .f32 :=
  Host.sqrt (F := Ideal) (φ := .f32)
    (Host.reduceAdd (F := Ideal) (φ := .f32) (mulf (F := Ideal) (φ := .f32) (cen19 c) (cen19 c)) zeroS reducesTo_S256x19_S19_d0 h_S_)

/-- The products of the columns with each other. -/
private def gram19 (c : FVec Ideal S256x24 .f32) : FVec Ideal S19x19 .f32 :=
  Host.dotGeneral (F := Ideal) (φ₁ := .f32) (φ₂ := .f32) dot_S19x256_S256x19_S19x19_1_0_0_1_n_n none
    (transpose S19x256 [1, 0] (cen19 c) transposes_S256x19_S19x256_1_0) (cen19 c)

/-- The cosines: each product over the product of the two norms floored at the word 1e-8. -/
private def cos19 (c : FVec Ideal S256x24 .f32) : FVec Ideal S19x19 .f32 :=
  Host.divf (F := Ideal) (φ := .f32) (gram19 c)
    (maximumf (F := Ideal) (φ := .f32)
      (mulf (F := Ideal) (φ := .f32)
        (broadcastInDim S19x19 ![0, 1] bcast_S19x1_S19x19_0_1 (broadcastInDim S19x1 ![0] bcast_S19_S19x1_0 (norm19 c)))
        (broadcastInDim S19x19 ![0, 1] bcast_S1x19_S19x19_0_1 (broadcastInDim S1x19 ![1] bcast_S19_S1x19_1 (norm19 c))))
      (broadcastInDim S19x19 ![] bcast_S_S19x19 (constant (F := Ideal) S_ .f32 0x322BCC77#32)))

/-- The diagonal of the 19 x 19 table. -/
private def diag19 : IVec S19x19 1 :=
  cmpi .eq (addi (iotaInDim S19x19 32 0) (broadcastInDim S19x19 ![] bcast_S_S19x19 (constantI S_ 32 0#32))) (iotaInDim S19x19 32 1)

/-- The pair terms: one minus the cosine on the diagonal, the cosine floored at zero off it. -/
private def pair19 (c : FVec Ideal S256x24 .f32) : FVec Ideal S19x19 .f32 :=
  select diag19
    (subf (F := Ideal) (φ := .f32) (broadcastInDim S19x19 ![] bcast_S_S19x19 (constant (F := Ideal) S_ .f32 0x3F800000#32)) (cos19 c))
    (maximumf (F := Ideal) (φ := .f32) (cos19 c) (broadcastInDim S19x19 ![] bcast_S_S19x19 zeroS))

/-- Their mean over the second class. -/
private def mean19 (c : FVec Ideal S256x24 .f32) : FVec Ideal S19 .f32 :=
  Host.divf (F := Ideal) (φ := .f32) (Host.reduceAdd (F := Ideal) (φ := .f32) (pair19 c) zeroS reducesTo_S19x19_S19_d1 h_S_)
    (broadcastInDim S19 ![] bcast_S_S19 (constant (F := Ideal) S_ .f32 0x41980000#32))

/-- The first term of the loss: the means of the classes with a positive count, summed. -/
private def cenTerm (n : FVec Ideal S24 .f32) (c : FVec Ideal S256x24 .f32) : FVec Ideal S_ .f32 :=
  Host.reduceAdd (F := Ideal) (φ := .f32) (select (pos19 n) (mean19 c) (broadcastInDim S19 ![] bcast_S_S19 zeroS)) zeroS
    reducesTo_S19_S_d0 h_S_

/-- The result array: the two terms added, as one entry. -/
private def tailArr (n : FVec Ideal S24 .f32) (c : FVec Ideal S256x24 .f32) (s : FVec Ideal S8x24x1 .f32) : FVec Ideal S1 .f32 :=
  shapeCast S1 (addf (F := Ideal) (φ := .f32) (cenTerm n c) (simTerm n s)) shapeCasts_S_S1

/-! ## The result buffer is that function of the three arrays -/

/-- Folding the seven stretches of host operations back from the result buffer: every buffer they read is either one they
    wrote earlier, whose contents are then the operation's value, or one of the three arrays as the second launch left
    them. -/
private theorem resArr_eq (c : Dev nD) :
    resArr m ρ c = tailArr (aCnt (V4 m ρ) c) (aCen (V4 m ρ) c) (aSim (V4 m ρ) c) := by
  dsimp only [resArr, aCnt, aCen, aSim, V4, W11, W10, W9, W8, W7, W6, W5]
  generalize W4 m ρ c = X
  after_results_simp
  rfl

/-! ## The stages read at an index -/

private theorem zeroS_apply (i : S_.Idx) : zeroS i = 0 := by
  unfold zeroS; rw [constant_apply]; exact Ideal.ofBits_zero_f32

/-- Entry `k` of the first 19 of 24 is entry `k` of the 24. -/
private theorem slice19_apply {α : Type} (x : S24.Idx → α) (k : Fin 19) :
    extractStridedSlice S19 ![0] x slices_S24_S19_0 (ix1 k) = x (ix1 (pad k)) :=
  extractStridedSlice_apply _ x slices_S24_S19_0 (ix1 k) (ix1 (pad k)) (fun a => by
    match a with
    | ⟨0, _⟩ => exact (Nat.zero_add _).symm)

private theorem cnt19_apply (n : FVec Ideal S24 .f32) (k : Fin 19) : cnt19 n (ix1 k) = n (ix1 (pad k)) := by
  unfold cnt19; exact slice19_apply n k

private theorem pos19_apply (n : FVec Ideal S24 .f32) (k : Fin 19) :
    pos19 n (ix1 k) = Ideal.cmp .ogt (n (ix1 (pad k))) 0 := by
  unfold pos19
  rw [cmpf_apply, cnt19_apply, broadcastInDim_scalar_apply, zeroS_apply]
  rfl

/-- Entry `k` of the sum over the images. -/
private theorem sim24_apply (s : FVec Ideal S8x24x1 .f32) (k : Fin 24) : sim24 s (ix1 k) = ∑ b : Fin 8, s (ix3 b k 0) := by
  unfold sim24
  refine (shapeCast_apply _ shapeCasts_S24x1_S24 (ix1 k) (ix2 k (0 : Fin 1)) (by
    rw [Shape.rowMajor_val_two, Shape.rowMajor_val_one]; show k.val * 1 + 0 = k.val; omega)).trans ?_
  rw [hostReduceAdd_apply, Ideal.hostReduceAdd_single reducesTo_S8x24x1_S24x1_d0 (by decide), zeroS_apply, zero_add]
  refine Finset.sum_congr rfl fun b _ => ?_
  exact congrArg s (funext fun a => Fin.ext (by match a with | ⟨0, _⟩ => rfl | ⟨1, _⟩ => rfl | ⟨2, _⟩ => rfl))

private theorem quot19_apply (n : FVec Ideal S24 .f32) (s : FVec Ideal S8x24x1 .f32) (k : Fin 19) :
    quot19 n s (ix1 k) = Ideal.div (∑ b : Fin 8, s (ix3 b (pad k) 0)) (max (n (ix1 (pad k))) one) := by
  unfold quot19
  rw [hostDivf_apply, maximumf_apply, cnt19_apply, broadcastInDim_scalar_apply, constant_apply, slice19_apply, sim24_apply]
  rfl

/-- The first 19 counts, the first 19 columns of the table and the first 19 summed outputs, as the loss reads them. -/
private abbrev cntOf (n : FVec Ideal S24 .f32) : Fin 19 → EReal := fun k => n (ix1 (pad k))
private abbrev cenOf (c : FVec Ideal S256x24 .f32) : Fin 19 → Fin 256 → EReal := fun k d => c (ix2 d (pad k))
private abbrev simOf (s : FVec Ideal S8x24x1 .f32) : Fin 19 → EReal := fun k => ∑ b : Fin 8, s (ix3 b (pad k) 0)

/-- A sum of 19 entries from the scalar zero is the sum of the entries. -/
private theorem sum19_apply (x : FVec Ideal S19 .f32) (i : S_.Idx) :
    Host.reduceAdd (F := Ideal) (φ := .f32) x zeroS reducesTo_S19_S_d0 h_S_ i = ∑ k : Fin 19, x (ix1 k) := by
  rw [hostReduceAdd_apply, Ideal.hostReduceAdd_total reducesTo_S19_S_d0 (fun b => b.elim0), zeroS_apply, zero_add]
  exact (Equiv.sum_comp (idxEquiv1 (n := 19)).symm x).symm

/-- A sum down the 256 rows of a 256 x 19 table from the scalar zero, at column `k`. -/
private theorem sumRows_apply (X : FVec Ideal S256x19 .f32) (k : Fin 19) :
    Host.reduceAdd (F := Ideal) (φ := .f32) X zeroS reducesTo_S256x19_S19_d0 h_S_ (ix1 k) = ∑ d : Fin 256, X (ix2 d k) := by
  rw [hostReduceAdd_apply, Ideal.hostReduceAdd_single reducesTo_S256x19_S19_d0 (by decide), zeroS_apply, zero_add]
  refine Finset.sum_congr rfl fun d _ => ?_
  exact congrArg X (funext fun a => Fin.ext (by match a with | ⟨0, _⟩ => rfl | ⟨1, _⟩ => rfl))

/-- A sum along the 19 columns of a 19 x 19 table from the scalar zero, at row `i`. -/
private theorem sumCols_apply (X : FVec Ideal S19x19 .f32) (i : Fin 19) :
    Host.reduceAdd (F := Ideal) (φ := .f32) X zeroS reducesTo_S19x19_S19_d1 h_S_ (ix1 i) = ∑ j : Fin 19, X (ix2 i j) := by
  rw [hostReduceAdd_apply, Ideal.hostReduceAdd_single reducesTo_S19x19_S19_d1 (by decide), zeroS_apply, zero_add]
  refine Finset.sum_congr rfl fun j _ => ?_
  exact congrArg X (funext fun a => Fin.ext (by match a with | ⟨0, _⟩ => rfl | ⟨1, _⟩ => rfl))

/-- A selection by the positive counts against the scalar zero, at class `k`. -/
private theorem selPos_apply (n : FVec Ideal S24 .f32) (x : FVec Ideal S19 .f32) (k : Fin 19) :
    select (pos19 n) x (broadcastInDim S19 ![] bcast_S_S19 zeroS) (ix1 k)
      = if Ideal.cmp .ogt (cntOf n k) 0 = 1#1 then x (ix1 k) else 0 := by
  rw [select_apply, pos19_apply, broadcastInDim_scalar_apply, zeroS_apply]
  rfl

private theorem simTerm_apply (n : FVec Ideal S24 .f32) (s : FVec Ideal S8x24x1 .f32) (i : S_.Idx) :
    simTerm n s i
      = ∑ k : Fin 19, if Ideal.cmp .ogt (cntOf n k) 0 = 1#1 then Ideal.div (simOf s k) (max (cntOf n k) one) else 0 := by
  unfold simTerm
  rw [sum19_apply]
  refine Finset.sum_congr rfl fun k _ => ?_
  rw [selPos_apply, quot19_apply]

private theorem cen19_apply (c : FVec Ideal S256x24 .f32) (d : Fin 256) (k : Fin 19) : cen19 c (ix2 d k) = cenOf c k d := by
  unfold cen19
  exact slice2_axis1_apply 0 c slices_S256x24_S256x19_0_0 d k (pad k) (Nat.zero_add _).symm

private theorem norm19_apply (c : FVec Ideal S256x24 .f32) (k : Fin 19) : norm19 c (ix1 k) = ncen (cenOf c) k := by
  unfold norm19 ncen
  show Ideal.sqrt (Host.reduceAdd (F := Ideal) (φ := .f32) (mulf (F := Ideal) (φ := .f32) (cen19 c) (cen19 c)) zeroS reducesTo_S256x19_S19_d0 h_S_ (ix1 k)) = _
  rw [sumRows_apply]
  refine congrArg Ideal.sqrt (Finset.sum_congr rfl fun d _ => ?_)
  rw [mulf_apply, cen19_apply]

/-! The product of a 19 x 256 table with a 256 x 19 one at an entry: the operands' indices, axis by axis, then the sum
    over the contracted axis re-indexed by its one coordinate. -/

private theorem dotL0 (i : S19x19.Idx) (q : dot_S19x256_S256x19_S19x19_1_0_0_1_n_n.contr.Idx) : (dot_S19x256_S256x19_S19x19_1_0_0_1_n_n.lhsIdx i q 0).val = (i 0).val := by
  unfold DotDims.lhsIdx
  rw [dif_neg (show ¬(0 : Fin S19x256.rank) ∈ dot_S19x256_S256x19_S19x19_1_0_0_1_n_n.lhsBatch by decide),
    dif_pos (show (0 : Fin S19x256.rank) ∈ dot_S19x256_S256x19_S19x19_1_0_0_1_n_n.lhsNonContracting by decide)]
  rfl
private theorem dotL1 (i : S19x19.Idx) (q : dot_S19x256_S256x19_S19x19_1_0_0_1_n_n.contr.Idx) : (dot_S19x256_S256x19_S19x19_1_0_0_1_n_n.lhsIdx i q 1).val = (q ⟨0, by decide⟩).val :=
  dot_S19x256_S256x19_S19x19_1_0_0_1_n_n.lhsIdx_val_of_single rfl i q
private theorem dotR0 (i : S19x19.Idx) (q : dot_S19x256_S256x19_S19x19_1_0_0_1_n_n.contr.Idx) : (dot_S19x256_S256x19_S19x19_1_0_0_1_n_n.rhsIdx i q 0).val = (q ⟨0, by decide⟩).val :=
  dot_S19x256_S256x19_S19x19_1_0_0_1_n_n.rhsIdx_val_of_single rfl i q
private theorem dotR1 (i : S19x19.Idx) (q : dot_S19x256_S256x19_S19x19_1_0_0_1_n_n.contr.Idx) : (dot_S19x256_S256x19_S19x19_1_0_0_1_n_n.rhsIdx i q 1).val = (i 1).val := by
  unfold DotDims.rhsIdx
  rw [dif_neg (show ¬(1 : Fin S256x19.rank) ∈ dot_S19x256_S256x19_S19x19_1_0_0_1_n_n.rhsBatch by decide),
    dif_pos (show (1 : Fin S256x19.rank) ∈ dot_S19x256_S256x19_S19x19_1_0_0_1_n_n.rhsNonContracting by decide)]
  rfl

private theorem dot19_apply (L : FVec Ideal S19x256 .f32) (R : FVec Ideal S256x19 .f32) (i j : Fin 19) :
    Host.dotGeneral (F := Ideal) (φ₁ := .f32) (φ₂ := .f32) dot_S19x256_S256x19_S19x19_1_0_0_1_n_n none L R (ix2 i j) = ∑ d : Fin 256, L (ix2 i d) * R (ix2 d j) := by
  simp only [Host.dotGeneral]
  rw [Ideal.dotGeneral_apply, ← Equiv.sum_comp (contrEquiv1 dot_S19x256_S256x19_S19x19_1_0_0_1_n_n 256 rfl rfl).symm]
  refine Finset.sum_congr rfl fun d _ => ?_
  have hk := contrEquiv1_symm_val dot_S19x256_S256x19_S19x19_1_0_0_1_n_n 256 rfl rfl d
  have el : dot_S19x256_S256x19_S19x19_1_0_0_1_n_n.lhsIdx (ix2 i j) ((contrEquiv1 dot_S19x256_S256x19_S19x19_1_0_0_1_n_n 256 rfl rfl).symm d) = ix2 i d := funext fun a => Fin.ext (by
    match a with
    | ⟨0, _⟩ => exact dotL0 _ _
    | ⟨1, _⟩ => exact (dotL1 _ _).trans hk)
  have er : dot_S19x256_S256x19_S19x19_1_0_0_1_n_n.rhsIdx (ix2 i j) ((contrEquiv1 dot_S19x256_S256x19_S19x19_1_0_0_1_n_n 256 rfl rfl).symm d) = ix2 d j := funext fun a => Fin.ext (by
    match a with
    | ⟨0, _⟩ => exact (dotR0 _ _).trans hk
    | ⟨1, _⟩ => exact dotR1 _ _)
  rw [el, er]

private theorem gram19_apply (c : FVec Ideal S256x24 .f32) (i j : Fin 19) :
    gram19 c (ix2 i j) = ∑ d : Fin 256, cenOf c i d * cenOf c j d := by
  unfold gram19
  rw [dot19_apply]
  refine Finset.sum_congr rfl fun d _ => ?_
  rw [transpose_ix2_apply, cen19_apply, cen19_apply]

/-- A vector of 19 entries copied along the rows of a 19 x 19 table: entry `(i, j)` is entry `i`. -/
private theorem bcRow_apply {α : Type} (v : S19.Idx → α) (i j : Fin 19) :
    broadcastInDim S19x19 ![0, 1] bcast_S19x1_S19x19_0_1 (broadcastInDim S19x1 ![0] bcast_S19_S19x1_0 v) (ix2 i j) = v (ix1 i) := by
  refine (broadcastInDim_apply _ bcast_S19x1_S19x19_0_1 _ (ix2 i j) (ix2 i (0 : Fin 1)) (fun a => by
    match a with
    | ⟨0, _⟩ => show i.val = if (19 : Nat) = 1 then 0 else i.val; rw [if_neg (by decide)]
    | ⟨1, _⟩ => show 0 = if (1 : Nat) = 1 then 0 else j.val; rw [if_pos rfl])).trans ?_
  exact broadcastInDim_apply _ bcast_S19_S19x1_0 v (ix2 i (0 : Fin 1)) (ix1 i) (fun a => by
    match a with
    | ⟨0, _⟩ => show i.val = if (19 : Nat) = 1 then 0 else i.val; rw [if_neg (by decide)])

/-- The same vector copied down the columns: entry `(i, j)` is entry `j`. -/
private theorem bcCol_apply {α : Type} (v : S19.Idx → α) (i j : Fin 19) :
    broadcastInDim S19x19 ![0, 1] bcast_S1x19_S19x19_0_1 (broadcastInDim S1x19 ![1] bcast_S19_S1x19_1 v) (ix2 i j) = v (ix1 j) := by
  refine (broadcastInDim_apply _ bcast_S1x19_S19x19_0_1 _ (ix2 i j) (ix2 (0 : Fin 1) j) (fun a => by
    match a with
    | ⟨0, _⟩ => show 0 = if (1 : Nat) = 1 then 0 else i.val; rw [if_pos rfl]
    | ⟨1, _⟩ => show j.val = if (19 : Nat) = 1 then 0 else j.val; rw [if_neg (by decide)])).trans ?_
  exact broadcastInDim_apply _ bcast_S19_S1x19_1 v (ix2 (0 : Fin 1) j) (ix1 j) (fun a => by
    match a with
    | ⟨0, _⟩ => show j.val = if (19 : Nat) = 1 then 0 else j.val; rw [if_neg (by decide)])

private theorem cos19_apply (c : FVec Ideal S256x24 .f32) (i j : Fin 19) : cos19 c (ix2 i j) = cosm (cenOf c) i j := by
  unfold cos19 cosm
  rw [hostDivf_apply, maximumf_apply, mulf_apply, gram19_apply, bcRow_apply, bcCol_apply, norm19_apply, norm19_apply,
    broadcastInDim_scalar_apply, constant_apply]
  rfl

/-- The words of two class indices are equal exactly on the diagonal. -/
private theorem diag19_apply (i j : Fin 19) : diag19 (ix2 i j) = 1#1 ↔ i = j := by
  unfold diag19
  show IntOp.cmpi .eq (IntOp.addi (BitVec.ofNat 32 i.val) 0#32) (BitVec.ofNat 32 j.val) = 1#1 ↔ _
  rw [IntOp.cmpi_eq]; unfold IntOp.addi; rw [BitVec.add_zero]
  constructor
  · intro h
    have e : (pad i).val = (pad j).val := congrArg Fin.val (ofNat_inj24 (j := pad i) (k := pad j) h)
    exact Fin.ext e
  · rintro rfl; rfl

private theorem pair19_apply (c : FVec Ideal S256x24 .f32) (i j : Fin 19) : pair19 c (ix2 i j) = pair (cenOf c) i j := by
  unfold pair19 pair
  rw [select_apply, subf_apply, maximumf_apply, broadcastInDim_scalar_apply, broadcastInDim_scalar_apply, constant_apply,
    zeroS_apply, cos19_apply]
  by_cases h : i = j
  · rw [if_pos h, (diag19_apply i j).mpr h]; rfl
  · rw [if_neg h, eq_zero_of_ne_one (fun e => h ((diag19_apply i j).mp e))]; rfl

private theorem mean19_apply (c : FVec Ideal S256x24 .f32) (i : Fin 19) : mean19 c (ix1 i) = perI (cenOf c) i := by
  unfold mean19 perI nineteen
  rw [hostDivf_apply, sumCols_apply, broadcastInDim_scalar_apply, constant_apply]
  exact congrArg (Ideal.div · _) (Finset.sum_congr rfl fun j _ => pair19_apply c i j)

private theorem cenTerm_apply (n : FVec Ideal S24 .f32) (c : FVec Ideal S256x24 .f32) (i : S_.Idx) :
    cenTerm n c i = ∑ k : Fin 19, if Ideal.cmp .ogt (cntOf n k) 0 = 1#1 then perI (cenOf c) k else 0 := by
  unfold cenTerm
  rw [sum19_apply]
  refine Finset.sum_congr rfl fun k _ => ?_
  rw [selPos_apply, mean19_apply]

/-- The result array's one entry is the loss of the three arrays' first 19 classes. -/
private theorem tailArr_apply (n : FVec Ideal S24 .f32) (c : FVec Ideal S256x24 .f32) (s : FVec Ideal S8x24x1 .f32) (j : S1.Idx) :
    tailArr n c s j = loss (cntOf n) (cenOf c) (simOf s) := by
  unfold tailArr loss
  refine (shapeCast_apply _ shapeCasts_S_S1 j ix0 (by
    have h1 : (S_.rowMajor ix0).val < 1 := (S_.rowMajor ix0).isLt
    have h2 : (S1.rowMajor j).val < 1 := (S1.rowMajor j).isLt
    omega)).trans ?_
  rw [addf_apply, cenTerm_apply, simTerm_apply]

/-- The result is the loss of the first 19 padded counts, the first 19 columns of the centroid table and the first 19 rows of the
    second launch's output summed over the images. -/
theorem tail_value (c : Dev nD) :
    resArr m ρ c
      = fun _ => loss (fun k => aCnt (V4 m ρ) c (ix1 (pad k))) (fun k d => aCen (V4 m ρ) c (ix2 d (pad k)))
          (fun k => ∑ b : Fin 8, aSim (V4 m ρ) c (ix3 b (pad k) 0)) := by
  rw [resArr_eq]
  funext j
  exact tailArr_apply _ _ _ j

end Cert.EmbedLoss.KTail

end
-- ==== Proof.KValue.lean ====
/-
  The kernel program's result: the loss of the batch.

  The last boundary's result buffer is the loss of the padded counts, the centroid table and the second launch's output
  (the tail); those are, through the two launches and the host operations between them, the specification's counts,
  centroids and cosine sums of the argument arrays. Under the weight of class `k` the second launch's per-pixel term,
  written with one-hot selections from the table, is the term against column `k`, which is the specification's
  `wAt` once the table is the centroids and the products are commuted.
-/
import proofs.«421729_j51522427682923_2_alg».proof.Proof.KReg0
import proofs.«421729_j51522427682923_2_alg».proof.Proof.KReg1
import proofs.«421729_j51522427682923_2_alg».proof.Proof.KHost
import proofs.«421729_j51522427682923_2_alg».proof.Proof.KTail

set_option maxRecDepth 16384

noncomputable section

open scoped BigOperators

namespace Cert.EmbedLoss.KValue

open Cert.EmbedLoss Cert.EmbedLoss.KArr Cert.EmbedLoss.KReg0 Cert.EmbedLoss.KReg1 Cert.EmbedLoss.KHost Cert.EmbedLoss.KTail
open Cert.KernelIdeal Cert.KernelIdeal.Gen
open Idealize.ShloMosaic Idealize.ShloMosaic.TcCoe Idealize.ShloMosaic.ValueIdx Idealize.SL.Sem

variable (m : (ℓ : Loc nD τ sig) → Buf (Elt Ideal) ℓ) (ρ : Dev nD → PrngReg)

/-- The batch the program is launched on. -/
abbrev xOf (c : Dev nD) : Feat := featOf (arg0 m c)
abbrev labOf' (c : Dev nD) : Lab := labOf (arg1 m c)

/-! ## Across the first launch -/

/-- Between the launches the first launch's output array holds what the launch left. -/
theorem V2_sumsB (c : Dev nD) : aSumsB (V2 m ρ) c = out0 (V1 m ρ) c := W2_arr m ρ c 2

/-- Summed over the images it is the specification's sum of channel `d` over the pixels of class `k`. -/
theorem sum_sumsB (c : Dev nD) (d : Fin 256) (k : Fin 24) :
    ∑ b : Fin 8, aSumsB (V2 m ρ) c (ix3 b d k) = sums (xOf m c) (labOf' m c) k.val d := by
  rw [V2_sumsB]
  unfold sums
  refine Finset.sum_congr rfl fun b _ => ?_
  rw [reg0_value (V1 m ρ) c b d k]
  refine Finset.sum_congr rfl fun p _ => ?_
  rw [V1_labels m ρ c b p, V1_feats m ρ c b d p]

/-- The centroid table is the specification's centroids. -/
theorem centers_eq (c : Dev nD) (d : Fin 256) (k : Fin 24) :
    aCen (V3 m ρ) c (ix2 d k) = cen (xOf m c) (labOf' m c) k.val d := by
  rw [V3_centers m ρ c d k, sum_sumsB m ρ c d k, V3_counts m ρ c k]
  rfl

/-- Its squared-norm column is the specification's. -/
theorem nc2_eq (c : Dev nD) (k : Fin 24) : aNc2 (V3 m ρ) c (ix2 k 0) = nc2 (xOf m c) (labOf' m c) k.val := by
  rw [V3_nc2 m ρ c k]
  unfold nc2
  refine Finset.sum_congr rfl fun d _ => ?_
  rw [centers_eq m ρ c d k]

/-! ## Across the second launch -/

/-- The padded counts are not an array of the second launch: it leaves them as they were. -/
theorem V4_cnt (c : Dev nD) : aCnt (V4 m ρ) c = aCnt (V3 m ρ) c := W4_of_ne m ρ c main_v8 (by decide)

/-- The centroid table is an input of the second launch: it leaves it as it was. -/
theorem V4_cen (c : Dev nD) : aCen (V4 m ρ) c = aCen (V3 m ρ) c :=
  (W4_arr m ρ c 2).trans (((dat1 (F := Ideal) (V3 m ρ) c).arrAt_in 2 rfl cfg1.N).trans (A_eq1 (V3 m ρ) c 2))

/-- The second launch's output array holds what the launch left. -/
theorem V4_sim (c : Dev nD) : aSim (V4 m ρ) c = out1 (V3 m ρ) c := W4_arr m ρ c 4

/-- Summed over the images, row `k` of the second launch's output is the specification's cosine sum of class `k`. -/
theorem sum_sim (c : Dev nD) (k : Fin 24) :
    ∑ b : Fin 8, aSim (V4 m ρ) c (ix3 b k 0) = simnum (xOf m c) (labOf' m c) k.val := by
  rw [V4_sim]
  unfold simnum
  refine Finset.sum_congr rfl fun b _ => ?_
  rw [reg1_value (V3 m ρ) c b k]
  refine Finset.sum_congr rfl fun p _ => ?_
  refine (oh_mul_wPix (fun d p => aFeat (V3 m ρ) c (ix3 b d p)) (fun p => aLab (V3 m ρ) c (ix3 b 0 p))
    (fun d j => aCen (V3 m ρ) c (ix2 d j)) (fun j => aNc2 (V3 m ρ) c (ix2 j 0)) p k).trans ?_
  have hdot : (∑ d : Fin 256, aCen (V3 m ρ) c (ix2 d k) * aFeat (V1 m ρ) c (ix3 b d p))
      = ∑ d : Fin 256, xOf m c b d p * cen (xOf m c) (labOf' m c) k.val d :=
    Finset.sum_congr rfl fun d _ => by rw [centers_eq m ρ c d k, V1_feats m ρ c b d p, mul_comm]
  have hnf : (∑ d : Fin 256, aFeat (V1 m ρ) c (ix3 b d p) * aFeat (V1 m ρ) c (ix3 b d p))
      = ∑ d : Fin 256, xOf m c b d p * xOf m c b d p :=
    Finset.sum_congr rfl fun d _ => by rw [V1_feats m ρ c b d p]
  rw [V3_labels m ρ c, V3_feats m ρ c, V1_labels m ρ c b p, nc2_eq m ρ c k, hdot, hnf]
  unfold wAt nf2
  rfl

/-! ## The result -/

/-- THE KERNEL PROGRAM'S RESULT: the loss of the batch it was launched on. -/
theorem kernel_value (c : Dev nD) : resArr m ρ c = fun _ => lossOf (xOf m c) (labOf' m c) := by
  have h1 : (fun k : Fin 19 => aCnt (V4 m ρ) c (ix1 (pad k))) = fun k => cnt (labOf' m c) k.val :=
    funext fun k => by rw [V4_cnt m ρ c, V3_counts m ρ c (pad k)]; rfl
  have h2 : (fun (k : Fin 19) (d : Fin 256) => aCen (V4 m ρ) c (ix2 d (pad k))) = fun k d => cen (xOf m c) (labOf' m c) k.val d :=
    funext fun k => funext fun d => by rw [V4_cen m ρ c, centers_eq m ρ c d (pad k)]; rfl
  have h3 : (fun k : Fin 19 => ∑ b : Fin 8, aSim (V4 m ρ) c (ix3 b (pad k) 0)) = fun k => simnum (xOf m c) (labOf' m c) k.val :=
    funext fun k => by rw [sum_sim m ρ c (pad k)]; rfl
  refine (tail_value m ρ c).trans (funext fun _ => ?_)
  exact (congr (congr (congrArg loss h1) h2) h3)

end Cert.EmbedLoss.KValue

end
-- ==== Proof.RHead.lean ====
/-
  The reference's counts and centroids, read at an index.

  The reference flattens the batch to 131072 pixel rows (row `b * 16384 + p` is pixel `p` of image `b`), scatters
  the word 1.0 of every row into a zero vector of 19 counts at the row's label, and scatters the row's 256 channels
  into a zero `[19, 256]` table at the row's label. A segment scatter-add into zeros, read at class `k`, is the sum
  over all rows of the one-hot weight of `k` at the row's label times the row's update; summed image by image that
  is the specification's `cnt` and `sums`. The centroid divides the channel sum by the count floored at 1.0.
-/
import proofs.«421729_j51522427682923_2_alg».proof.Proof.RefRead
import proofs.«421729_j51522427682923_2_alg».proof.Proof.Spec
import proofs.«421729_j51522427682923_2_alg».proof.Proof.LibSegSum
import proofs.«421729_j51522427682923_2_alg».proof.Proof.LibSegSum1

noncomputable section

open scoped BigOperators

namespace Cert.EmbedLoss.RHead

open Cert.EmbedLoss Cert.ReferenceIdeal Cert.ReferenceIdeal.ReadP
open Idealize.ShloMosaic Idealize.ShloMosaic.TcCoe Idealize.ShloMosaic.ValueIdx

variable (x0 : (⟨S8x256x128x128, .f32⟩ : BufTy).Contents (Elt Ideal)) (x1 : (⟨S8x128x128, .i32⟩ : BufTy).Contents (Elt Ideal))

/-! ## The operands of the two scatters -/

/-- The count scatter's operand is the zero vector. -/
private theorem counts_operand_zero : (val_main_v4 (F := Ideal) : S19.Idx → EReal) = fun _ => 0 := by
  funext i
  rw [val_main_v4_apply, val_main_cst_0_apply]
  exact Ideal.ofBits_zero_f32

/-- The channel scatter's operand is the zero table. -/
private theorem sums_operand_zero : (val_main_v7 (F := Ideal) : S19x256.Idx → EReal) = fun _ => 0 := by
  funext i
  rw [val_main_v7_apply, val_main_cst_1_apply]
  exact Ideal.ofBits_zero_f32

/-- Every counted update is the word 1.0. -/
private theorem counted_update (n : Fin 131072) : val_main_v3 (F := Ideal) (ix1 n) = one := by
  rw [val_main_v3_apply, val_main_cst_apply]
  rfl

/-! ## A pixel row's label and channels -/

/-- The three coordinates of row `b * 16384 + p` in the `[8, 128, 128]` label array. -/
private theorem label_index (b : Fin 8) (p : Fin 16384) (j : S131072x1.Idx) (hj : (j 0).val = b.val * 16384 + p.val) :
    idx_main_v2 (idx_main_v5 j) = ix3 b ⟨p.val / 128, pix_row p⟩ ⟨p.val % 128, pix_col p⟩ := by
  funext a
  refine Fin.ext ?_
  have hb := b.isLt
  have hp := p.isLt
  match a with
  | ⟨0, _⟩ => show (j 0).val / 16384 = b.val; omega
  | ⟨1, _⟩ => show (j 0).val / 128 % 128 = p.val / 128; omega
  | ⟨2, _⟩ => show (j 0).val % 128 = p.val % 128; omega

/-- The label of row `pix b p`, as the count scatter reads it, is image `b`'s label at pixel `p`. -/
private theorem counts_label (b : Fin 8) (p : Fin 16384) :
    val_main_v5 (F := Ideal) x1 (ix2 (pix b p) ⟨0, Nat.one_pos⟩) = labOf x1 b p := by
  rw [val_main_v5_apply, val_main_v2_apply, label_index b p _ rfl]
  rfl

/-- The same label as the channel scatter reads it. -/
private theorem sums_label (b : Fin 8) (p : Fin 16384) :
    val_main_v8 (F := Ideal) x1 (ix2 (pix b p) ⟨0, Nat.one_pos⟩) = labOf x1 b p := by
  rw [val_main_v8_apply, val_main_v2_apply]
  exact (congrArg x1 (label_index b p _ rfl)).trans rfl

/-- The four coordinates of row `b * 16384 + p`, channel `d`, in the `[8, 256, 128, 128]` embedding array. -/
private theorem feature_index (b : Fin 8) (d : Fin 256) (p : Fin 16384) (j : S131072x256.Idx)
    (h0 : (j 0).val = b.val * 16384 + p.val) (h1 : (j 1).val = d.val) :
    idx_main_v0 (idx_main_v1 j) = ix4 b d ⟨p.val / 128, pix_row p⟩ ⟨p.val % 128, pix_col p⟩ := by
  funext a
  refine Fin.ext ?_
  have hb := b.isLt
  have hp := p.isLt
  have hd := d.isLt
  match a with
  | ⟨0, _⟩ => show ((j 0).val * 256 + (j 1).val) / 4194304 = b.val; omega
  | ⟨1, _⟩ => show ((j 0).val * 256 + (j 1).val) % 256 = d.val; omega
  | ⟨2, _⟩ => show ((j 0).val * 256 + (j 1).val) / 32768 % 128 = p.val / 128; omega
  | ⟨3, _⟩ => show ((j 0).val * 256 + (j 1).val) / 256 % 128 = p.val % 128; omega

/-- Channel `d` of row `pix b p` is image `b`'s embedding at channel `d`, pixel `p`. -/
private theorem row_feature (b : Fin 8) (d : Fin 256) (p : Fin 16384) :
    val_main_v1 (F := Ideal) x0 (ix2 (pix b p) d) = featOf x0 b d p := by
  rw [val_main_v1_apply, val_main_v0_apply, feature_index b d p _ rfl rfl]
  rfl

/-! ## The counts -/

/-- The reference's count of class `k`. -/
theorem ref_counts (k : Fin 19) : val_main_v6 (F := Ideal) x1 (ix1 k) = cnt (labOf x1) k.val := by
  have h := Cert.Lib.SegSum1.scatter1_blocks (G := 19) (N := 131072) (B := 8) (T := 16384)
    Facts₀.scatter_S19_S131072x1_S131072_n_0_0_1_wf (by norm_num) (val_main_v5 (F := Ideal) x1) (val_main_v3 (F := Ideal))
    (ix1 k) (by norm_num) pix (fun _ _ => rfl)
  refine Eq.trans ?_ (h.trans ?_)
  · show Ideal.hostScatterAdd _ (val_main_v4 (F := Ideal)) _ _ _ = _
    rw [counts_operand_zero]
    rfl
  · unfold cnt
    refine Finset.sum_congr rfl fun b _ => Finset.sum_congr rfl fun p _ => ?_
    rw [counts_label, counted_update]
    rfl

/-! ## The centroids -/

/-- The reference's channel sum of class `k`. -/
private theorem ref_sums (k : Fin 19) (d : Fin 256) :
    val_main_v9 (F := Ideal) x0 x1 (ix2 k d) = sums (featOf x0) (labOf x1) k.val d := by
  have h := Cert.Lib.SegSum.blocks_onehot_eq_scatter (B := 8) (T := 16384) (G := 19) (N := 131072) (H := 256) (by norm_num)
    Facts₀.scatter_S19x256_S131072x1_S131072x256_1_0_0_1_wf (val_main_v8 (F := Ideal) x1) (val_main_v1 (F := Ideal) x0)
    (ix2 k d) (by norm_num) pix (fun _ _ => rfl)
  refine Eq.trans ?_ (h.symm.trans ?_)
  · show Ideal.hostScatterAdd _ (val_main_v7 (F := Ideal)) _ _ _ = _
    rw [sums_operand_zero]
    rfl
  · unfold sums
    refine Finset.sum_congr rfl fun b _ => Finset.sum_congr rfl fun p _ => ?_
    rw [sums_label]
    exact congrArg (_ * ·) (row_feature x0 b d p)

/-- The divisor's index chain: column `d` of row `k` of the broadcast count is entry `k` of the count vector. -/
private theorem divisor_index (k : Fin 19) (d : Fin 256) : idx_main_v12 (idx_main_v13 (ix2 k d)) = ix1 k := by
  funext a
  match a with
  | ⟨0, _⟩ => rfl

/-- The reference's centroid of class `k`. -/
theorem ref_centers (k : Fin 19) (d : Fin 256) :
    val_main_v14 (F := Ideal) x0 x1 (ix2 k d) = cen (featOf x0) (labOf x1) k.val d := by
  rw [val_main_v14_apply, val_main_v13_apply, val_main_v12_apply, val_main_v11_apply, divisor_index, ref_counts, ref_sums,
    val_main_v10_apply, val_main_cst_2_apply]
  rfl

end Cert.EmbedLoss.RHead

end
-- ==== Proof.LibRowGather.lean ====
/-
  Rows of a table taken at a column of start indices (jnp's  table[idx]  on a matrix): the result's row p is the
  table's row at  idx[p, 0] , read as a signed integer and clamped into the table; and NumPy's treatment of a
  negative index (add the extent) followed by that clamp does nothing to an index already in range.
-/
import Idealize.ShloMosaic.PureOps
import Idealize.ShloMosaic.Lib.ValueIdx
import Idealize.ShloMosaic.Lib.StableHlo.Predicate

noncomputable section

open Idealize.ShloMosaic Idealize.ShloMosaic.ValueIdx

namespace Cert.RowGather

variable {α : Type}

/-- The dimension numbers of  table[idx]  for a [T, C] table and an [N, 1] column of start indices: axis 0 collapsed
    and indexed, axis 1 an offset axis taken whole. -/
abbrev rowsDims (T C N : ℕ)
    (wf : GatherDims.WF ⟨2, ![T, C]⟩ ⟨2, ![N, 1]⟩ ⟨2, ![N, C]⟩ [1] [0] [] [0] [] 1 ![1, C]) :
    GatherDims ⟨2, ![T, C]⟩ ⟨2, ![N, 1]⟩ ⟨2, ![N, C]⟩ where
  offsetDims := [1]
  collapsedSliceDims := [0]
  operandBatchingDims := []
  startIndicesBatchingDims := []
  startIndexMap := [0]
  indexVectorDim := 1
  sliceSizes := ![1, C]
  wf := wf

/-- THE ROW GATHER READ AT (p, k): the table at row  idx[p, 0]  (signed, clamped into [0, T − 1]) and column k. -/
theorem gather_rows_apply {T C N w : ℕ} (hT : 0 < T)
    (wf : GatherDims.WF ⟨2, ![T, C]⟩ ⟨2, ![N, 1]⟩ ⟨2, ![N, C]⟩ [1] [0] [] [0] [] 1 ![1, C])
    (x : (⟨2, ![T, C]⟩ : Shape).Idx → α) (idx : IVec ⟨2, ![N, 1]⟩ w) (p : Fin N) (k : Fin C) :
    Host.gather (rowsDims T C N wf) x idx (ix2 p k)
      = x (ix2 ⟨min (idx (ix2 p 0)).toInt.toNat (T - 1), by omega⟩ k) := by
  unfold Host.gather
  congr 1
  funext a
  refine Fin.ext ?_
  match a with
  | ⟨0, _⟩ =>
    show (rowsDims T C N wf).start (ix2 p k) idx 0 + (rowsDims T C N wf).batchCoord (ix2 p k) 0
      + (rowsDims T C N wf).offCoord (ix2 p k) 0 = _
    rw [GatherDims.batchCoord_eq_zero _ _ _ List.not_mem_nil,
      GatherDims.offCoord_eq_zero _ _ _ (fun h => ((GatherDims.mem_sKept _ _).mp h).1 (List.mem_singleton.mpr rfl))]
    simp only [Nat.add_zero]
    unfold GatherDims.start
    rw [dif_pos (show (0 : Fin 2) ∈ (rowsDims T C N wf).startIndexMap from List.mem_singleton.mpr rfl)]
    have hsi : (rowsDims T C N wf).siIdx (ix2 p k) ⟨List.idxOf (0 : Fin 2) (rowsDims T C N wf).startIndexMap,
        List.idxOf_lt_length_iff.2 (List.mem_singleton.mpr rfl)⟩ = ix2 p 0 := by
      funext b; refine Fin.ext ?_
      match b with
      | ⟨0, _⟩ => rfl
      | ⟨1, _⟩ => rfl
    rw [hsi]
    rfl
  | ⟨1, _⟩ =>
    have h10 : (1 : Fin 2) ∉ ([0] : List (Fin 2)) := by decide
    show (rowsDims T C N wf).start (ix2 p k) idx 1 + (rowsDims T C N wf).batchCoord (ix2 p k) 1
      + (rowsDims T C N wf).offCoord (ix2 p k) 1 = k.val
    rw [GatherDims.batchCoord_eq_zero _ _ _ List.not_mem_nil]
    unfold GatherDims.start
    rw [dif_neg (show (1 : Fin 2) ∉ (rowsDims T C N wf).startIndexMap from h10)]
    unfold GatherDims.offCoord
    rw [dif_pos (show (1 : Fin 2) ∈ (rowsDims T C N wf).sKept from
      (GatherDims.mem_sKept _ _).mpr ⟨h10, List.not_mem_nil⟩)]
    simp only [Nat.zero_add, Nat.add_zero]
    rfl

/-- A start index already in [0, T): adding the extent when negative and clamping leave its value. -/
theorem wrap_clamp (a n : BitVec 32) (T : ℕ) (ha : a.toNat < T) (hT : T ≤ 2 ^ 31) :
    min (Scalar.select (IntOp.cmpi .slt a 0#32) (IntOp.addi a n) a).toInt.toNat (T - 1) = a.toNat := by
  have ha31 : a.toNat < 2 ^ 31 := by omega
  have h0 : (0#32).toNat < 2 ^ 31 := by decide
  have hc : ¬ IntOp.cmpi .slt a 0#32 = 1 := by
    intro h
    have hlt := (StableHlo.Predicate.slt_iff_toNat ha31 h0).mp h
    simp at hlt
  unfold Scalar.select
  rw [if_neg hc, StableHlo.Predicate.toInt_eq_toNat_of_lt ha31, Int.toNat_natCast]
  omega

end Cert.RowGather

end
-- ==== Proof.RSim.lean ====
/-
  The reference's per-pixel term and its sum over each class's pixels.

  The reference lays the embeddings out as a matrix of 131072 rows (image-major, then pixel) by 256 channels and the labels
  as a vector of 131072 words. For each row it takes the centroid table's row at the label (a negative label first has 19
  added, and the row index is clamped into the table; a label that is the word of a class below 19 is left as it is), and
  forms one minus the dot product of the pixel and that row over the product of their norms, floored at the word 1e-8.
  So at a pixel whose label is class `k`'s word this is `wAt … k`. Adding these terms into 19 zeros at the labels gives, at
  class `k`, the sum over all pixels of the one-hot weight of `k` at the label times the term: where the weight is 1 the
  label is `k`'s word and the term is `wAt … k`; where it is 0 both products are 0.
-/
import proofs.«421729_j51522427682923_2_alg».proof.Proof.RefRead
import proofs.«421729_j51522427682923_2_alg».proof.Proof.Spec
import proofs.«421729_j51522427682923_2_alg».proof.Proof.LibSegSum1
import proofs.«421729_j51522427682923_2_alg».proof.Proof.LibRowGather
import proofs.«421729_j51522427682923_2_alg».proof.Proof.RHead

noncomputable section

open scoped BigOperators

namespace Cert.EmbedLoss.RSim

open Cert.EmbedLoss Cert.ReferenceIdeal Cert.ReferenceIdeal.ReadP
open Idealize.ShloMosaic Idealize.ShloMosaic.TcCoe Idealize.ShloMosaic.ValueIdx

variable (x0 : (⟨S8x256x128x128, .f32⟩ : BufTy).Contents (Elt Ideal)) (x1 : (⟨S8x128x128, .i32⟩ : BufTy).Contents (Elt Ideal))

/-- Row `pix b p`, column `d` of the embeddings laid out as [131072, 256] is channel `d` of pixel `p` of image `b`. -/
private theorem feat_at (b : Fin 8) (p : Fin 16384) (d : Fin 256) :
    val_main_v1 (F := Ideal) x0 (ix2 (pix b p) d) = featOf x0 b d p := by
  rw [val_main_v1_apply, val_main_v0_apply]
  unfold featOf
  refine congrArg x0 (funext fun a => Fin.ext ?_)
  have hb := b.isLt; have hp := p.isLt; have hd := d.isLt
  match a with
  | ⟨0, _⟩ => show ((b.val * 16384 + p.val) * 256 + d.val) / 4194304 = b.val; omega
  | ⟨1, _⟩ => show ((b.val * 16384 + p.val) * 256 + d.val) % 256 = d.val; omega
  | ⟨2, _⟩ => show ((b.val * 16384 + p.val) * 256 + d.val) / 32768 % 128 = p.val / 128; omega
  | ⟨3, _⟩ => show ((b.val * 16384 + p.val) * 256 + d.val) / 256 % 128 = p.val % 128; omega

/-- Entry `pix b p` of the flattened labels is the label of pixel `p` of image `b`. -/
private theorem lab_at (b : Fin 8) (p : Fin 16384) :
    val_main_v2 (F := Ideal) x1 (ix1 (pix b p)) = labOf x1 b p := by
  rw [val_main_v2_apply]
  unfold labOf
  refine congrArg x1 (funext fun a => Fin.ext ?_)
  have hb := b.isLt; have hp := p.isLt
  match a with
  | ⟨0, _⟩ => show (b.val * 16384 + p.val) / 16384 = b.val; omega
  | ⟨1, _⟩ => show (b.val * 16384 + p.val) / 128 % 128 = p.val / 128; omega
  | ⟨2, _⟩ => show (b.val * 16384 + p.val) % 128 = p.val % 128; omega

/-- The wrapped label column at row `q`: the label plus 19 where it is negative, else the label. -/
private theorem wrapped_at (q : Fin 131072) :
    val_main_v22 (F := Ideal) x1 (ix2 q (0 : Fin 1))
      = Scalar.select (IntOp.cmpi .slt (val_main_v2 (F := Ideal) x1 (ix1 q)) 0#32)
          (IntOp.addi (val_main_v2 (F := Ideal) x1 (ix1 q)) 19#32) (val_main_v2 (F := Ideal) x1 (ix1 q)) := by
  have e : idx_main_v22 (ix2 q (0 : Fin 1)) = ix1 q :=
    funext fun a => Fin.ext (by match a with | ⟨0, _⟩ => rfl)
  rw [val_main_v22_apply, e, val_main_v21_apply, val_main_v18_apply, val_main_v20_apply, val_main_v17_apply,
    val_main_v19_apply, val_main_c_apply, val_main_c_4_apply]

/-- At a pixel whose label is class `k`'s word, the gathered row is class `k`'s centroid. -/
private theorem gath_at (b : Fin 8) (p : Fin 16384) (k : Fin 19) (h : labOf x1 b p = BitVec.ofNat 32 k.val) (d : Fin 256) :
    val_main_v23 (F := Ideal) x0 x1 (ix2 (pix b p) d) = cen (featOf x0) (labOf x1) k.val d := by
  unfold val_main_v23
  refine (Cert.RowGather.gather_rows_apply (T := 19) (C := 256) (N := 131072) (by decide)
    Facts₀.gather_S19x256_S131072x1_S131072x256_1_0_n_n_0_1_1256_wf (val_main_v14 (F := Ideal) x0 x1)
    (val_main_v22 (F := Ideal) x1) (pix b p) d).trans ?_
  refine Eq.trans ?_ (RHead.ref_centers x0 x1 k d)
  refine congrArg (fun r : Fin 19 => val_main_v14 (F := Ideal) x0 x1 (ix2 r d)) (Fin.ext ?_)
  have hk := k.isLt
  have hw : (BitVec.ofNat 32 k.val).toNat = k.val := by
    rw [BitVec.toNat_ofNat]; exact Nat.mod_eq_of_lt (by omega)
  show min (val_main_v22 (F := Ideal) x1 (ix2 (pix b p) (0 : Fin 1))).toInt.toNat (19 - 1) = k.val
  rw [wrapped_at, lab_at, h]
  exact (Cert.RowGather.wrap_clamp _ _ 19 (by rw [hw]; exact hk) (by norm_num)).trans hw

/-- At a pixel whose label is class `k`'s word the reference's per-pixel term is one minus the cosine to class `k`'s centroid. -/
theorem ref_pixel (b : Fin 8) (p : Fin 16384) (k : Fin 19) (h : labOf x1 b p = BitVec.ofNat 32 k.val) :
    val_main_v37 (F := Ideal) x0 x1 (ix1 (pix b p)) = wAt (featOf x0) (labOf x1) k.val b p := by
  have e25 : ∀ d : Fin 256, idx_main_v25 (ix1 (pix b p)) d = ix2 (pix b p) d := fun d =>
    funext fun a => Fin.ext (by match a with | ⟨0, _⟩ => rfl | ⟨1, _⟩ => rfl)
  have e27 : ∀ d : Fin 256, idx_main_v27 (ix1 (pix b p)) d = ix2 (pix b p) d := fun d =>
    funext fun a => Fin.ext (by match a with | ⟨0, _⟩ => rfl | ⟨1, _⟩ => rfl)
  have e30 : ∀ d : Fin 256, idx_main_v30 (ix1 (pix b p)) d = ix2 (pix b p) d := fun d =>
    funext fun a => Fin.ext (by match a with | ⟨0, _⟩ => rfl | ⟨1, _⟩ => rfl)
  have hdot : val_main_v25 (F := Ideal) x0 x1 (ix1 (pix b p))
      = ∑ d : Fin 256, featOf x0 b d p * cen (featOf x0) (labOf x1) k.val d := by
    rw [val_main_v25_apply, val_main_cst_5_apply, Ideal.ofBits_def, Ideal.ofBits_zero_f32, zero_add]
    refine Finset.sum_congr rfl fun d _ => ?_
    rw [e25, val_main_v24_apply, feat_at, gath_at x0 x1 b p k h, Ideal.mulf_def]
  have hnf : val_main_v27 (F := Ideal) x0 (ix1 (pix b p)) = nf2 (featOf x0) b p := by
    rw [val_main_v27_apply, val_main_cst_6_apply, Ideal.ofBits_def, Ideal.ofBits_zero_f32, zero_add]
    unfold nf2
    refine Finset.sum_congr rfl fun d _ => ?_
    rw [e27, val_main_v26_apply, feat_at, Ideal.mulf_def]
  have hnc : val_main_v30 (F := Ideal) x0 x1 (ix1 (pix b p)) = nc2 (featOf x0) (labOf x1) k.val := by
    rw [val_main_v30_apply, val_main_cst_7_apply, Ideal.ofBits_def, Ideal.ofBits_zero_f32, zero_add]
    unfold nc2
    refine Finset.sum_congr rfl fun d _ => ?_
    rw [e30, val_main_v29_apply, gath_at x0 x1 b p k h, Ideal.mulf_def]
  rw [val_main_v37_apply, val_main_v36_apply, val_main_cst_9_apply, val_main_v35_apply, hdot, val_main_v34_apply,
    val_main_v32_apply, val_main_v28_apply, hnf, val_main_v31_apply, hnc, val_main_v33_apply, val_main_cst_8_apply]
  unfold wAt one eps
  rw [Ideal.ofBits_def, Ideal.ofBits_def, Ideal.subf_def, Ideal.hostDivf_def, Ideal.maximumf_def, Ideal.mulf_def,
    Ideal.hostUnary_sqrt_def, Ideal.hostUnary_sqrt_def]

/-- The label column the scatter reads, at row `pix b p`, is the label of pixel `p` of image `b`. -/
private theorem ids_at (b : Fin 8) (p : Fin 16384) :
    val_main_v39 (F := Ideal) x1 (ix2 (pix b p) (⟨0, Nat.one_pos⟩ : Fin 1)) = labOf x1 b p := by
  have e : idx_main_v39 (ix2 (pix b p) (⟨0, Nat.one_pos⟩ : Fin 1)) = ix1 (pix b p) :=
    funext fun a => Fin.ext (by match a with | ⟨0, _⟩ => rfl)
  rw [val_main_v39_apply, e, lab_at]

/-- The reference's cosine sum of class `k`. -/
theorem ref_simnum (k : Fin 19) : val_main_v40 (F := Ideal) x0 x1 (ix1 k) = simnum (featOf x0) (labOf x1) k.val := by
  have hz : (val_main_v38 (F := Ideal)) = fun _ => (0 : EReal) := funext fun i => by
    rw [val_main_v38_apply, val_main_cst_10_apply, Ideal.ofBits_def, Ideal.ofBits_zero_f32]
  have key := Cert.Lib.SegSum1.scatter1_blocks (G := 19) (N := 131072)
    Facts₀.scatter_S19_S131072x1_S131072_n_0_0_1_wf (B := 8) (T := 16384) (by norm_num)
    (val_main_v39 (F := Ideal) x1) (val_main_v37 (F := Ideal) x0 x1) (ix1 k) (by norm_num) pix (fun t r => rfl)
  unfold val_main_v40
  refine Eq.trans ?_ (key.trans ?_)
  · rw [hz]; rfl
  · unfold simnum
    refine Finset.sum_congr rfl fun b _ => Finset.sum_congr rfl fun p _ => ?_
    rw [ids_at]
    show (if labOf x1 b p = BitVec.ofNat 32 k.val then (1 : EReal) else 0) * _ = _
    unfold oh
    by_cases hl : labOf x1 b p = BitVec.ofNat 32 k.val
    · rw [if_pos hl, ref_pixel x0 x1 b p k hl]
    · rw [if_neg hl, zero_mul, zero_mul]

end Cert.EmbedLoss.RSim

end
-- ==== Proof.RTail.lean ====
/-
  The reference's last operations: the loss from its counts, centroids and cosine sums.
-/
import proofs.«421729_j51522427682923_2_alg».proof.Proof.RefRead
import proofs.«421729_j51522427682923_2_alg».proof.Proof.Spec
import Idealize.ShloMosaic.Lib.ValueIdxRank1

noncomputable section

open scoped BigOperators

namespace Cert.EmbedLoss.RTail

open Cert.EmbedLoss Cert.ReferenceIdeal Cert.ReferenceIdeal.ReadP
open Idealize.ShloMosaic Idealize.ShloMosaic.TcCoe Idealize.ShloMosaic.ValueIdx

variable (x0 : (⟨S8x256x128x128, .f32⟩ : BufTy).Contents (Elt Ideal)) (x1 : (⟨S8x128x128, .i32⟩ : BufTy).Contents (Elt Ideal))

/-! ## Sums over one axis, and the two index words of the diagonal test -/

/-- A sum over a one-axis index set is the sum over its coordinate. -/
private theorem sum_idx1 {M : Type*} [AddCommMonoid M] {n : Nat} (f : (⟨1, ![n]⟩ : Shape).Idx → M) :
    ∑ i, f i = ∑ a : Fin n, f (ix1 a) :=
  (Equiv.sum_comp (idxEquiv1 (n := n)).symm f).symm

/-- The words of two class indices below 19 are equal only if the indices are. -/
private theorem word_inj {i j : Fin 19} (h : BitVec.ofNat 32 i.val = BitVec.ofNat 32 j.val) : i = j := by
  have hi := i.isLt; have hj := j.isLt
  have := congrArg BitVec.toNat h
  rw [BitVec.toNat_ofNat, BitVec.toNat_ofNat, Nat.mod_eq_of_lt (by omega), Nat.mod_eq_of_lt (by omega)] at this
  exact Fin.ext this

/-- The integer equality test gives the bit 1 exactly on equal words. -/
private theorem cmpi_eq_one {a b : BitVec 32} : IntOp.cmpi .eq a b = 1#1 ↔ a = b := by
  unfold IntOp.cmpi
  by_cases h : a = b
  · subst h; simp
  · have hb : (a == b) = false := beq_false_of_ne h
    rw [hb, BitVec.ofBool_false]
    exact ⟨fun h' => absurd h' (by decide), fun h' => absurd h' h⟩

/-! ## The count's positivity bit and the similarity term -/

/-- The positivity bit of class `k`'s count. -/
private theorem pos_at (k : Fin 19) :
    val_main_v16 (F := Ideal) x1 (ix1 k) = Ideal.cmp .ogt (val_main_v6 (F := Ideal) x1 (ix1 k)) 0 := by
  rw [val_main_v16_apply, val_main_v15_apply, val_main_cst_3_apply, Ideal.cmpf_def, Ideal.ofBits_def, Ideal.ofBits_zero_f32]

/-- The similarity term of class `k`: its cosine sum over its count floored at 1.0 where the count is positive, else 0. -/
private theorem sim_at (k : Fin 19) :
    val_main_v44 (F := Ideal) x0 x1 (ix1 k)
      = if Ideal.cmp .ogt (val_main_v6 (F := Ideal) x1 (ix1 k)) 0 = 1#1
          then Ideal.div (val_main_v40 (F := Ideal) x0 x1 (ix1 k)) (max (val_main_v6 (F := Ideal) x1 (ix1 k)) one) else 0 := by
  rw [val_main_v44_apply, val_main_v43_apply, val_main_v42_apply, val_main_v41_apply, val_main_cst_11_apply,
    val_main_call0_v1_apply, val_main_call0_v0_apply, val_main_cst_12_apply, pos_at]
  simp only [Ideal.hostDivf_def, Ideal.maximumf_def, Ideal.ofBits_def, Ideal.ofBits_zero_f32]
  rfl

/-- The similarity terms summed over the 19 classes. -/
private theorem simsum_at (i : S_.Idx) :
    val_main_v45 (F := Ideal) x0 x1 i
      = ∑ k : Fin 19, if Ideal.cmp .ogt (val_main_v6 (F := Ideal) x1 (ix1 k)) 0 = 1#1
          then Ideal.div (val_main_v40 (F := Ideal) x0 x1 (ix1 k)) (max (val_main_v6 (F := Ideal) x1 (ix1 k)) one) else 0 := by
  rw [val_main_v45_apply, val_main_cst_13_apply, Ideal.ofBits_def, Ideal.ofBits_zero_f32, zero_add, sum_idx1]
  exact Finset.sum_congr rfl fun k _ => sim_at x0 x1 k

/-! ## The centroids' norms and cosines -/

/-- The norm of class `k`'s centroid. -/
private theorem ncen_at (k : Fin 19) :
    val_main_v48 (F := Ideal) x0 x1 (ix1 k) = ncen (fun k d => val_main_v14 (F := Ideal) x0 x1 (ix2 k d)) k := by
  have e : ∀ d : Fin 256, idx_main_v47 (ix1 k) d = ix2 k d := fun d =>
    funext fun a => Fin.ext (by match a with | ⟨0, _⟩ => rfl | ⟨1, _⟩ => rfl)
  rw [val_main_v48_apply, val_main_v47_apply, val_main_cst_14_apply]
  simp only [val_main_v46_apply, e, Ideal.hostUnary_sqrt_def, Ideal.mulf_def, Ideal.ofBits_def, Ideal.ofBits_zero_f32, zero_add]
  rfl

/-- The cosine of the centroids of classes `i` and `j`, the denominator floored at the word 1e-8. -/
private theorem cos_at (i j : Fin 19) :
    val_main_v58 (F := Ideal) x0 x1 (ix2 i j) = cosm (fun k d => val_main_v14 (F := Ideal) x0 x1 (ix2 k d)) i j := by
  have el : ∀ d : Fin 256, lidx_main_v50 (ix2 i j) d = ix2 i d := fun d =>
    funext fun a => Fin.ext (by match a with | ⟨0, _⟩ => rfl | ⟨1, _⟩ => rfl)
  have er : ∀ d : Fin 256, idx_main_v49 (ridx_main_v50 (ix2 i j) d) = ix2 j d := fun d =>
    funext fun a => Fin.ext (by match a with | ⟨0, _⟩ => rfl | ⟨1, _⟩ => rfl)
  have e3 : idx_main_v51 (idx_main_v53 (ix2 i j)) = ix1 i :=
    funext fun a => Fin.ext (by match a with | ⟨0, _⟩ => rfl)
  have e4 : idx_main_v52 (idx_main_v54 (ix2 i j)) = ix1 j :=
    funext fun a => Fin.ext (by match a with | ⟨0, _⟩ => rfl)
  rw [val_main_v58_apply, val_main_v50_apply, val_main_v57_apply, val_main_v55_apply, val_main_v53_apply, val_main_v51_apply,
    val_main_v54_apply, val_main_v52_apply, val_main_v56_apply, val_main_cst_15_apply, e3, e4, ncen_at, ncen_at]
  simp only [val_main_v49_apply, el, er, Ideal.hostDivf_def, Ideal.maximumf_def, Ideal.mulf_def, Ideal.ofBits_def]
  rfl

/-! ## The diagonal test, the pair term and its mean -/

/-- The diagonal bit at `(i, j)` is 1 exactly when `i = j`: the row and column index words are the words of the coordinates,
    and adding the zero word changes nothing. -/
private theorem diag_at (i j : Fin 19) : val_main_v63 (F := Ideal) (ix2 i j) = 1#1 ↔ i = j := by
  rw [val_main_v63_apply, val_main_v62_apply, val_main_v59_apply, val_main_v61_apply, val_main_c_16_apply, val_main_v60_apply,
    cmpi_eq_one]
  show BitVec.ofNat 32 i.val + 0#32 = BitVec.ofNat 32 j.val ↔ i = j
  rw [BitVec.add_zero]
  exact ⟨word_inj, fun h => by rw [h]⟩

/-- The pair term at `(i, j)`: one minus the cosine on the diagonal, the cosine floored at zero off it. -/
private theorem pair_at (i j : Fin 19) :
    val_main_v68 (F := Ideal) x0 x1 (ix2 i j) = pair (fun k d => val_main_v14 (F := Ideal) x0 x1 (ix2 k d)) i j := by
  rw [val_main_v68_apply, val_main_v65_apply, val_main_v67_apply, val_main_v64_apply, val_main_cst_17_apply,
    val_main_v66_apply, val_main_cst_18_apply, cos_at]
  simp only [Ideal.subf_def, Ideal.maximumf_def, Ideal.ofBits_def, Ideal.ofBits_zero_f32]
  unfold pair
  by_cases h : i = j
  · rw [if_pos h, (diag_at i j).mpr h, select_one]; rfl
  · rw [if_neg h, eq_zero_of_ne_one (fun hb => h ((diag_at i j).mp hb)), select_zero]

/-- The mean of class `i`'s pair terms over the 19 classes. -/
private theorem perI_at (i : Fin 19) :
    val_main_v71 (F := Ideal) x0 x1 (ix1 i) = perI (fun k d => val_main_v14 (F := Ideal) x0 x1 (ix2 k d)) i := by
  have e : ∀ j : Fin 19, idx_main_v69 (ix1 i) j = ix2 i j := fun j =>
    funext fun a => Fin.ext (by match a with | ⟨0, _⟩ => rfl | ⟨1, _⟩ => rfl)
  rw [val_main_v71_apply, val_main_v69_apply, val_main_cst_19_apply, val_main_v70_apply, val_main_cst_20_apply]
  simp only [e, pair_at, Ideal.hostDivf_def, Ideal.ofBits_def, Ideal.ofBits_zero_f32, zero_add]
  rfl

/-- The separation term of class `i`: that mean where the count is positive, else 0. -/
private theorem sep_at (i : Fin 19) :
    val_main_v72 (F := Ideal) x0 x1 (ix1 i)
      = if Ideal.cmp .ogt (val_main_v6 (F := Ideal) x1 (ix1 i)) 0 = 1#1
          then perI (fun k d => val_main_v14 (F := Ideal) x0 x1 (ix2 k d)) i else 0 := by
  rw [val_main_v72_apply, val_main_call2_v1_apply, val_main_call2_v0_apply, val_main_cst_21_apply, pos_at, perI_at]
  simp only [Ideal.ofBits_def, Ideal.ofBits_zero_f32]
  rfl

/-! ## The scalar and its reshape -/

/-- The scalar before the reshape is the loss. -/
private theorem scalar_at (i : S_.Idx) :
    val_main_v74 (F := Ideal) x0 x1 i
      = loss (fun k => val_main_v6 (F := Ideal) x1 (ix1 k)) (fun k d => val_main_v14 (F := Ideal) x0 x1 (ix2 k d))
          (fun k => val_main_v40 (F := Ideal) x0 x1 (ix1 k)) := by
  rw [val_main_v74_apply, val_main_v73_apply, val_main_cst_22_apply, simsum_at, Ideal.addf_def, Ideal.ofBits_def,
    Ideal.ofBits_zero_f32, zero_add, sum_idx1]
  simp only [sep_at]
  rfl

/-- The reference's result is the loss of its counts, its centroids and its cosine sums. -/
theorem ref_tail :
    val_main_v75 (F := Ideal) x0 x1
      = fun _ => loss (fun k => val_main_v6 (F := Ideal) x1 (ix1 k)) (fun k d => val_main_v14 (F := Ideal) x0 x1 (ix2 k d))
          (fun k => val_main_v40 (F := Ideal) x0 x1 (ix1 k)) := by
  funext j
  unfold val_main_v75
  exact (shapeCast_addUnit_apply ![] _ _ j).trans (scalar_at x0 x1 _)

end Cert.EmbedLoss.RTail

end
-- ==== Proof.RValue.lean ====
/-
  The reference's result: the loss of the batch. Its last operations make the loss from its counts, its centroids and
  its cosine sums, and those are the specification's.
-/
import proofs.«421729_j51522427682923_2_alg».proof.Proof.RHead
import proofs.«421729_j51522427682923_2_alg».proof.Proof.RSim
import proofs.«421729_j51522427682923_2_alg».proof.Proof.RTail

noncomputable section

open scoped BigOperators

namespace Cert.EmbedLoss.RValue

open Cert.EmbedLoss Cert.EmbedLoss.RHead Cert.EmbedLoss.RSim Cert.EmbedLoss.RTail
open Cert.ReferenceIdeal Cert.ReferenceIdeal.ReadP
open Idealize.ShloMosaic Idealize.ShloMosaic.TcCoe Idealize.ShloMosaic.ValueIdx

variable (x0 : (⟨S8x256x128x128, .f32⟩ : BufTy).Contents (Elt Ideal)) (x1 : (⟨S8x128x128, .i32⟩ : BufTy).Contents (Elt Ideal))

/-- THE REFERENCE'S RESULT: the loss of the batch it is given. -/
theorem ref_value : val_main_v75 (F := Ideal) x0 x1 = fun _ => lossOf (featOf x0) (labOf x1) := by
  have h1 : (fun k : Fin 19 => val_main_v6 (F := Ideal) x1 (ix1 k)) = fun k => cnt (labOf x1) k.val :=
    funext fun k => ref_counts x1 k
  have h2 : (fun (k : Fin 19) (d : Fin 256) => val_main_v14 (F := Ideal) x0 x1 (ix2 k d)) = fun k d => cen (featOf x0) (labOf x1) k.val d :=
    funext fun k => funext fun d => ref_centers x0 x1 k d
  have h3 : (fun k : Fin 19 => val_main_v40 (F := Ideal) x0 x1 (ix1 k)) = fun k => simnum (featOf x0) (labOf x1) k.val :=
    funext fun k => ref_simnum x0 x1 k
  refine (ref_tail x0 x1).trans (funext fun _ => ?_)
  exact (congr (congr (congrArg loss h1) h2) h3)

end Cert.EmbedLoss.RValue

end
-- ==== Proof.lean ====
/-
  A per-class embedding loss over a batch of 8 images of 128 x 128 pixels with 256 channels and a label per pixel, computed
  by a two-pass kernel program and by a plain reference; over the extended reals the two end with the same number.

  The loss: for each of 19 classes the centroid of its pixels' embeddings (their sum over the count floored at 1); the
  sum over each class's pixels of one minus the pixel's cosine to its class's centroid, over the floored count; and, from the
  centroids alone, the mean over all classes of one minus the cosine on the diagonal and the cosine floored at zero off
  it; both terms summed over the classes that occur.

  The kernel program forms each class's sums as a product with the one-hot matrix of the labels, a tile of 4096 pixels at
  a time, added up over the four tiles of an image in the first launch's output block and then over the images; its second
  launch selects each pixel's centroid and squared norm by sums against the same one-hot weights and adds the weighted
  per-pixel terms up the same way. The reference scatters: its sums are scatter-adds by label, its per-pixel centroid a row
  gather. A one-hot weight is 0 or 1 and on the extended reals 0 times anything is 0, so a weighted sum is the sum over the
  class's pixels with nothing assumed finite; a label that is no class's word meets only zero weights in the kernel
  program and is dropped by the reference's scatter, and the 5 padding classes of the kernel program's 24-row tables are
  sliced off before anything reads them. What is left is reordering finite sums and commuting products.

  The frames of the two kernel programs are the generated ones; the reference's is its run with the result dropped. The
  ideal pass rewrote nothing, so the preservation conjunct has no entry. The algebraic conjunct: the kernel program's run
  with its result buffer named at the last boundary's contents, those contents read back through the tail, the second
  launch, the host operations between, and the first launch to the loss of the argument arrays (`kernel_value`); the
  reference's run, its result stage read to the same loss (`ref_value`); and the arguments' agreement.
-/
import proofs.«421729_j51522427682923_2_alg».proof.Defs
import proofs.«421729_j51522427682923_2_alg».proof.Proof.Gen.Kernel
import proofs.«421729_j51522427682923_2_alg».proof.Proof.Gen.Kernel.Skeleton
import proofs.«421729_j51522427682923_2_alg».proof.Proof.Gen.Kernel.Launch
import proofs.«421729_j51522427682923_2_alg».proof.Proof.Gen.Kernel.Points
import proofs.«421729_j51522427682923_2_alg».proof.Proof.Gen.Kernel.Frame
import proofs.«421729_j51522427682923_2_alg».proof.Proof.Gen.KernelIdeal
import proofs.«421729_j51522427682923_2_alg».proof.Proof.Gen.KernelIdeal.Skeleton
import proofs.«421729_j51522427682923_2_alg».proof.Proof.Gen.KernelIdeal.Launch
import proofs.«421729_j51522427682923_2_alg».proof.Proof.Gen.KernelIdeal.Points
import proofs.«421729_j51522427682923_2_alg».proof.Proof.Gen.KernelIdeal.Frame
import proofs.«421729_j51522427682923_2_alg».proof.Proof.Gen.ReferenceIdeal
import proofs.«421729_j51522427682923_2_alg».proof.Proof.Gen.Pre_finite_inputs
import proofs.«421729_j51522427682923_2_alg».proof.Proof.RefRun
import proofs.«421729_j51522427682923_2_alg».proof.Proof.RefRead
import proofs.«421729_j51522427682923_2_alg».proof.Proof.KRun
import proofs.«421729_j51522427682923_2_alg».proof.Proof.KValue
import proofs.«421729_j51522427682923_2_alg».proof.Proof.RValue
import Idealize.ShloMosaic.Adequacy
import Idealize.ShloMosaic.Init

noncomputable section

namespace Cert.Proof

open Idealize.ShloMosaic Idealize.ShloMosaic.TcCoe Idealize.SL.Sem
open Cert.EmbedLoss

/-- The word-level program runs and leaves its arguments as launched: the generated frame. -/
theorem frame_k : Cert.frame_Kernel := fun m ρ _ => Cert.Kernel.Gen.frame m ρ

/-- So does the idealized program. -/
theorem frame_ki : Cert.frame_KernelIdeal := fun m ρ _ => Cert.KernelIdeal.Gen.frame m ρ

/-- The reference runs and leaves its arguments as given: its run, the result dropped. -/
theorem frame_ri : Cert.frame_ReferenceIdeal := fun m ρ _ =>
  (θ_run Cert.ReferenceIdeal.defs _ _).mono (fun _ h c => (h c).2) (Cert.ReferenceIdeal.ValueP.run (F := Ideal) m ρ)

/-- Over the extended reals both programs end with the loss of the batch: the kernel program's result buffer at its last
    boundary and the reference's result stage are the same function of argument arrays that agree. -/
theorem algebraic : Cert.algebraic_KernelIdeal_ReferenceIdeal := by
  intro m ρ m' ρ' _ hagree
  refine ⟨fun c => fun _ => lossOf (featOf (KArr.arg0 m c)) (labOf (KArr.arg1 m c)), ?_, ?_⟩
  · exact (θ_run Cert.KernelIdeal.defs _ _).mono (fun r h c => ⟨(h c).1.trans (Cert.EmbedLoss.KValue.kernel_value m ρ c), (h c).2⟩)
      (Cert.KernelIdeal.GenP.run_value (F := Ideal) m ρ)
  · refine (θ_run Cert.ReferenceIdeal.defs _ _).mono (fun r h c => ⟨(h c).1.trans ?_, (h c).2⟩)
      (Cert.ReferenceIdeal.ValueP.run (F := Ideal) m' ρ')
    refine (Cert.ReferenceIdeal.ReadP.val_main_v75_eq m' c).trans ((Cert.EmbedLoss.RValue.ref_value _ _).trans ?_)
    rw [(hagree c).1, (hagree c).2]
    rfl

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
